-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "c_13_100" .f32 0x3E051EB8#32 ((13 / 100 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x512 : Shape := ⟨3, ![2, 1024, 512]⟩
abbrev S512x4 : Shape := ⟨2, ![512, 4]⟩
abbrev S4x512 : Shape := ⟨2, ![4, 512]⟩
abbrev S512 : Shape := ⟨1, ![512]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512x4 : S_.BroadcastsInDim S512x4 (![] : Fin 0 → Fin S512x4.rank)
  reducesTo_S512x4_S_d0_1 : S512x4.ReducesTo [0, 1] S_
  bcast_S_S4x512 : S_.BroadcastsInDim S4x512 (![] : Fin 0 → Fin S4x512.rank)
  reducesTo_S4x512_S_d0_1 : S4x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S4x512 .f32) (main_arg12 : FVec F S512 .f32) (main_v48 : IVec S_ 1) (main_v49 : FVec F S512x4 .f32) (main_v50 : FVec F S512x4 .f32) : IVec S_ 1 :=
  let main_v51 : IVec S512x4 1 := cmpf .olt main_v49 main_v50
  let main_c_19 : IVec S_ 1 := constantI S_ 1 1#1
  let main_v52 : IVec S_ 1 := (fun x v => Host.reduce IntOp.andi x v reducesTo_S512x4_S_d0_1 h_S_) main_v51 main_c_19
  let main_v53 : IVec S_ 1 := andi main_v48 main_v52
  let main_v54 : FVec F S4x512 .f32 := Host.absf main_arg11
  let main_cst_20 : FVec F S_ .f32 := constant S_ .f32 0x7F800000#32
  let main_v55 : FVec F S4x512 .f32 := broadcastInDim S4x512 ![] bcast_S_S4x512 main_cst_20
  let main_v56 : IVec S4x512 1 := cmpf .olt main_v54 main_v55
  let main_c_21 : IVec S_ 1 := constantI S_ 1 1#1
  let main_v57 : IVec S_ 1 := (fun x v => Host.reduce IntOp.andi x v reducesTo_S4x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  main_v63

def fn_part2 {F : FTy → Type} [FloatOps F] (main_arg7 : FVec F S512x4 .f32) (main_arg8 : FVec F S4x512 .f32) (main_arg9 : FVec F S512 .f32) (main_arg10 : FVec F S512x4 .f32) (main_arg11 : FVec F S4x512 .f32) (main_arg12 : FVec F S512 .f32) (main_v33 : IVec S_ 1) : IVec S_ 1 :=
  let main_v34 : FVec F S512x4 .f32 := Host.absf main_arg7
  let main_cst_12 : FVec F S_ .f32 := constant S_ .f32 0x7F800000#32
  let main_v35 : FVec F S512x4 .f32 := broadcastInDim S512x4 ![] bcast_S_S512x4 main_cst_12
  let main_v36 : IVec S512x4 1 := cmpf .olt main_v34 main_v35
  let main_c_13 : IVec S_ 1 := constantI S_ 1 1#1
  let main_v37 : IVec S_ 1 := (fun x v => Host.reduce IntOp.andi x v reducesTo_S512x4_S_d0_1 h_S_) main_v36 main_c_13
  let main_v38 : IVec S_ 1 := andi main_v33 main_v37
  let main_v39 : FVec F S4x512 .f32 := Host.absf main_arg8
  let main_cst_14 : FVec F S_ .f32 := constant S_ .f32 0x7F800000#32
  let main_v40 : FVec F S4x512 .f32 := broadcastInDim S4x512 ![] bcast_S_S4x512 main_cst_14
  let main_v41 : IVec S4x512 1 := cmpf .olt main_v39 main_v40
  let main_c_15 : IVec S_ 1 := constantI S_ 1 1#1
  let main_v42 : IVec S_ 1 := (fun x v => Host.reduce IntOp.andi x v reducesTo_S4x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x4 .f32 := Host.absf main_arg10
  let main_cst_18 : FVec F S_ .f32 := constant S_ .f32 0x7F800000#32
  let main_v50 : FVec F S512x4 .f32 := broadcastInDim S512x4 ![] bcast_S_S512x4 main_cst_18
  fn_part3 (F := F) main_arg11 main_arg12 main_v48 main_v49 main_v50

def fn_part1 {F : FTy → Type} [FloatOps F] (main_arg4 : FVec F S512x4 .f32) (main_arg5 : FVec F S4x512 .f32) (main_arg6 : FVec F S512 .f32) (main_arg7 : FVec F S512x4 .f32) (main_arg8 : FVec F S4x512 .f32) (main_arg9 : FVec F S512 .f32) (main_arg10 : FVec F S512x4 .f32) (main_arg11 : FVec F S4x512 .f32) (main_arg12 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x4 .f32 := Host.absf main_arg4
  let main_cst_6 : FVec F S_ .f32 := constant S_ .f32 0x7F800000#32
  let main_v20 : FVec F S512x4 .f32 := broadcastInDim S512x4 ![] bcast_S_S512x4 main_cst_6
  let main_v21 : IVec S512x4 1 := cmpf .olt main_v19 main_v20
  let main_c_7 : IVec S_ 1 := constantI S_ 1 1#1
  let main_v22 : IVec S_ 1 := (fun x v => Host.reduce IntOp.andi x v reducesTo_S512x4_S_d0_1 h_S_) main_v21 main_c_7
  let main_v23 : IVec S_ 1 := andi main_v18 main_v22
  let main_v24 : FVec F S4x512 .f32 := Host.absf main_arg5
  let main_cst_8 : FVec F S_ .f32 := constant S_ .f32 0x7F800000#32
  let main_v25 : FVec F S4x512 .f32 := broadcastInDim S4x512 ![] bcast_S_S4x512 main_cst_8
  let main_v26 : IVec S4x512 1 := cmpf .olt main_v24 main_v25
  let main_c_9 : IVec S_ 1 := constantI S_ 1 1#1
  let main_v27 : IVec S_ 1 := (fun x v => Host.reduce IntOp.andi x v reducesTo_S4x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2x1024x512 .f32) (main_arg1 : FVec F S512x4 .f32) (main_arg2 : FVec F S4x512 .f32) (main_arg3 : FVec F S512 .f32) (main_arg4 : FVec F S512x4 .f32) (main_arg5 : FVec F S4x512 .f32) (main_arg6 : FVec F S512 .f32) (main_arg7 : FVec F S512x4 .f32) (main_arg8 : FVec F S4x512 .f32) (main_arg9 : FVec F S512 .f32) (main_arg10 : FVec F S512x4 .f32) (main_arg11 : FVec F S4x512 .f32) (main_arg12 : FVec F S512 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S512x4 .f32 := Host.absf main_arg1
  let main_cst_0 : FVec F S_ .f32 := constant S_ .f32 0x7F800000#32
  let main_v5 : FVec F S512x4 .f32 := broadcastInDim S512x4 ![] bcast_S_S512x4 main_cst_0
  let main_v6 : IVec S512x4 1 := cmpf .olt main_v4 main_v5
  let main_c_1 : IVec S_ 1 := constantI S_ 1 1#1
  let main_v7 : IVec S_ 1 := (fun x v => Host.reduce IntOp.andi x v reducesTo_S512x4_S_d0_1 h_S_) main_v6 main_c_1
  let main_v8 : IVec S_ 1 := andi main_v3 main_v7
  let main_v9 : FVec F S4x512 .f32 := Host.absf main_arg2
  let main_cst_2 : FVec F S_ .f32 := constant S_ .f32 0x7F800000#32
  let main_v10 : FVec F S4x512 .f32 := broadcastInDim S4x512 ![] bcast_S_S4x512 main_cst_2
  let main_v11 : IVec S4x512 1 := cmpf .olt main_v9 main_v10
  let main_c_3 : IVec S_ 1 := constantI S_ 1 1#1
  let main_v12 : IVec S_ 1 := (fun x v => Host.reduce IntOp.andi x v reducesTo_S4x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_v13 main_v16
-- ==== Kernel.lean ====
abbrev S2x1024x512 : Shape := ⟨3, ![2, 1024, 512]⟩
abbrev S512x4 : Shape := ⟨2, ![512, 4]⟩
abbrev S4x512 : Shape := ⟨2, ![4, 512]⟩
abbrev S512 : Shape := ⟨1, ![512]⟩
abbrev S512x512 : Shape := ⟨2, ![512, 512]⟩
abbrev S2048x512 : Shape := ⟨2, ![2048, 512]⟩
abbrev S1x512 : Shape := ⟨2, ![1, 512]⟩
abbrev S16384x64 : Shape := ⟨2, ![16384, 64]⟩
abbrev S1024x64 : Shape := ⟨2, ![1024, 64]⟩
abbrev S2048x64 : Shape := ⟨2, ![2048, 64]⟩
abbrev S1024x1 : Shape := ⟨2, ![1024, 1]⟩
abbrev S1024 : Shape := ⟨1, ![1024]⟩
abbrev S2048 : Shape := ⟨1, ![2048]⟩
abbrev S2048x1 : Shape := ⟨2, ![2048, 1]⟩
abbrev S64x2048 : Shape := ⟨2, ![64, 2048]⟩
abbrev S1024x2048 : Shape := ⟨2, ![1024, 2048]⟩

abbrev nBuf : Space → Nat
  | .hbm => 36
  | .vmem => 30
  | .smem => 0
  | _ => 0

abbrev bufTy : (tb : Table) → Fin (tcTables nBuf tb) → BufTy
  | .hbm, ⟨0, _⟩ => ⟨S2x1024x512, .f32⟩
  | .hbm, ⟨1, _⟩ => ⟨S512x4, .f32⟩
  | .hbm, ⟨2, _⟩ => ⟨S4x512, .f32⟩
  | .hbm, ⟨3, _⟩ => ⟨S512, .f32⟩
  | .hbm, ⟨4, _⟩ => ⟨S512x4, .f32⟩
  | .hbm, ⟨5, _⟩ => ⟨S4x512, .f32⟩
  | .hbm, ⟨6, _⟩ => ⟨S512, .f32⟩
  | .hbm, ⟨7, _⟩ => ⟨S512x4, .f32⟩
  | .hbm, ⟨8, _⟩ => ⟨S4x512, .f32⟩
  | .hbm, ⟨9, _⟩ => ⟨S512, .f32⟩
  | .hbm, ⟨10, _⟩ => ⟨S512x4, .f32⟩
  | .hbm, ⟨11, _⟩ => ⟨S4x512, .f32⟩
  | .hbm, ⟨12, _⟩ => ⟨S512, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S2048x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S2048x512, .f32⟩
  | .hbm, ⟨26, _⟩ => ⟨S2048x512, .f32⟩
  | .hbm, ⟨27, _⟩ => ⟨S2048x512, .bf16⟩
  | .hbm, ⟨28, _⟩ => ⟨S16384x64, .f32⟩
  | .hbm, ⟨29, _⟩ => ⟨S16384x64, .f32⟩
  | .hbm, ⟨30, _⟩ => ⟨S16384x64, .bf16⟩
  | .hbm, ⟨31, _⟩ => ⟨S16384x64, .f32⟩
  | .hbm, ⟨32, _⟩ => ⟨S2048x512, .f32⟩
  | .hbm, ⟨33, _⟩ => ⟨S1x512, .f32⟩
  | .hbm, ⟨34, _⟩ => ⟨S2048x512, .f32⟩
  | .hbm, ⟨35, _⟩ => ⟨S2x1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S1024x64, .f32⟩
  | .local _ .vmem, ⟨15, _⟩ => ⟨S1024x64, .f32⟩
  | .local _ .vmem, ⟨16, _⟩ => ⟨S2048x64, .f32⟩
  | .local _ .vmem, ⟨17, _⟩ => ⟨S2048x64, .f32⟩
  | .local _ .vmem, ⟨18, _⟩ => ⟨S2048x64, .bf16⟩
  | .local _ .vmem, ⟨19, _⟩ => ⟨S2048x64, .bf16⟩
  | .local _ .vmem, ⟨20, _⟩ => ⟨S1024x64, .f32⟩
  | .local _ .vmem, ⟨21, _⟩ => ⟨S1024x64, .f32⟩
  | .local _ .vmem, ⟨22, _⟩ => ⟨S1024x1, .f32⟩
  | .local _ .vmem, ⟨23, _⟩ => ⟨S1024x64, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S1x512, .f32⟩
  | .local _ .vmem, ⟨28, _⟩ => ⟨S512x512, .f32⟩
  | .local _ .vmem, ⟨29, _⟩ => ⟨S512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v48 : BitVec 1 := Scalar.cmpi .eq arg1 c7_i32
  let v49 : BitVec 32 := Scalar.extui v48
  let c0_i32_22 : BitVec 32 := 0#32
  let v50 : BitVec 1 := Scalar.cmpi .ne v49 c0_i32_22
  v50

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S512x512_S512x512_1_0 : S512x512.Transposes [1, 0] S512x512
  shapeCasts_S2x1024x512_S2048x512 : S2x1024x512.ShapeCasts S2048x512
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  packedbf16_S512x512_S512x512_0_0 : (Rect.unit (s := S512x512) ![0, 0] S512x512.size inb_S512x512_S512x512_0_0).PackedRows (EltTy.packing .bf16)
  shapeCasts_S2048x512_S16384x64 : S2048x512.ShapeCasts S16384x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S1024x64_S1024 : S1024x64.Reduces [1] S1024
  shapeCasts_S1024_S1024x1 : S1024.ShapeCasts S1024x1
  reduces_S2048x64_S2048 : S2048x64.Reduces [1] S2048
  shapeCasts_S2048_S2048x1 : S2048.ShapeCasts S2048x1
  broadcasts_S1024x1_S1024x64 : S1024x1.Broadcasts S1024x64
  broadcasts_S2048x1_S2048x64 : S2048x1.Broadcasts S2048x64
  transposes_S2048x64_p1_0_S64x2048 : S2048x64.Transposes [1, 0] S64x2048
  reduces_S1024x2048_S1024 : S1024x2048.Reduces [1] S1024
  shapeCasts_S16384x64_S2048x512 : S16384x64.ShapeCasts S2048x512
  shapeCasts_S2048x512_S2x1024x512 : S2048x512.ShapeCasts S2x1024x512
  dot_S512x4_S4x512_S512x512_1_0_0_1_n_n_wf : DotDims.WF S512x4 S4x512 S512x512 [1] [0] [0] [1] [] []
  dot_S512x512_S512x512_S512x512_1_0_0_1_n_n_wf : DotDims.WF S512x512 S512x512 S512x512 [1] [0] [0] [1] [] []
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x512.size a
  hwx0_0 : ∀ i : grid0.Coords, EltTy.bits .f32 = 32 ∨ (Rect.block (s := S2048x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S2048x512.size a
  hwx0_7 : ∀ i : grid0.Coords, EltTy.bits .f32 = 32 ∨ (Rect.block (s := S2048x512) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S2048x512.size a
  hwx0_8 : ∀ i : grid0.Coords, EltTy.bits .f32 = 32 ∨ (Rect.block (s := S2048x512) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S2048x512.size a
  hwx0_9 : ∀ i : grid0.Coords, EltTy.bits .bf16 = 32 ∨ (Rect.block (s := S2048x512) S512x512.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S16384x64.size a
  hwx1_0 : ∀ i : grid1.Coords, EltTy.bits .f32 = 32 ∨ (Rect.block (s := S16384x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S16384x64.size a
  hwx1_2 : ∀ i : grid1.Coords, EltTy.bits .bf16 = 32 ∨ (Rect.block (s := S16384x64) S2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S16384x64.size a
  hwx1_3 : ∀ i : grid1.Coords, EltTy.bits .f32 = 32 ∨ (Rect.block (s := S16384x64) S1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S2048x512.size a
  hwx2_0 : ∀ i : grid2.Coords, EltTy.bits .f32 = 32 ∨ (Rect.block (s := S2048x512) S512x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S2048x512.size a
  hwx2_3 : ∀ i : grid2.Coords, EltTy.bits .f32 = 32 ∨ (Rect.block (s := S2048x512) S512x512.size (cc2_transform_3 i) (hinb2_3 i)).WholeWords (EltTy.packing .f32)

variable [Facts₀]

def dot_S512x4_S4x512_S512x512_1_0_0_1_n_n : DotDims S512x4 S4x512 S512x512 where
  lhsContracting := [1]
  rhsContracting := [0]
  lhsNonContracting := [0]
  rhsNonContracting := [1]
  lhsBatch := []
  rhsBatch := []
  wf := dot_S512x4_S4x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v8) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12_0) S512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_1) S512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12_2) S512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v13) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v17) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x1024x512 : Shape := ⟨3, ![2, 1024, 512]⟩
abbrev S512x4 : Shape := ⟨2, ![512, 4]⟩
abbrev S4x512 : Shape := ⟨2, ![4, 512]⟩
abbrev S512 : Shape := ⟨1, ![512]⟩
abbrev S512x512 : Shape := ⟨2, ![512, 512]⟩
abbrev S1x1x512 : Shape := ⟨3, ![1, 1, 512]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S64x16384 : Shape := ⟨2, ![64, 16384]⟩
abbrev S16384x16384 : Shape := ⟨2, ![16384, 16384]⟩

abbrev nBuf : Space → Nat
  | .hbm => 86
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512x4, .f32⟩
  | .hbm, ⟨2, _⟩ => ⟨S4x512, .f32⟩
  | .hbm, ⟨3, _⟩ => ⟨S512, .f32⟩
  | .hbm, ⟨4, _⟩ => ⟨S512x4, .f32⟩
  | .hbm, ⟨5, _⟩ => ⟨S4x512, .f32⟩
  | .hbm, ⟨6, _⟩ => ⟨S512, .f32⟩
  | .hbm, ⟨7, _⟩ => ⟨S512x4, .f32⟩
  | .hbm, ⟨8, _⟩ => ⟨S4x512, .f32⟩
  | .hbm, ⟨9, _⟩ => ⟨S512, .f32⟩
  | .hbm, ⟨10, _⟩ => ⟨S512x4, .f32⟩
  | .hbm, ⟨11, _⟩ => ⟨S4x512, .f32⟩
  | .hbm, ⟨12, _⟩ => ⟨S512, .f32⟩
  | .hbm, ⟨13, _⟩ => ⟨S512x512, .f32⟩
  | .hbm, ⟨14, _⟩ => ⟨S2x1024x512, .f32⟩
  | .hbm, ⟨15, _⟩ => ⟨S1x1x512, .f32⟩
  | .hbm, ⟨16, _⟩ => ⟨S2x1024x512, .f32⟩
  | .hbm, ⟨17, _⟩ => ⟨S2x1024x512, .f32⟩
  | .hbm, ⟨18, _⟩ => ⟨S16384x64, .f32⟩
  | .hbm, ⟨19, _⟩ => ⟨S512x512, .f32⟩
  | .hbm, ⟨20, _⟩ => ⟨S2x1024x512, .f32⟩
  | .hbm, ⟨21, _⟩ => ⟨S1x1x512, .f32⟩
  | .hbm, ⟨22, _⟩ => ⟨S2x1024x512, .f32⟩
  | .hbm, ⟨23, _⟩ => ⟨S2x1024x512, .f32⟩
  | .hbm, ⟨24, _⟩ => ⟨S16384x64, .f32⟩
  | .hbm, ⟨25, _⟩ => ⟨S512x512, .f32⟩
  | .hbm, ⟨26, _⟩ => ⟨S2x1024x512, .f32⟩
  | .hbm, ⟨27, _⟩ => ⟨S1x1x512, .f32⟩
  | .hbm, ⟨28, _⟩ => ⟨S2x1024x512, .f32⟩
  | .hbm, ⟨29, _⟩ => ⟨S2x1024x512, .f32⟩
  | .hbm, ⟨30, _⟩ => ⟨S16384x64, .f32⟩
  | .hbm, ⟨31, _⟩ => ⟨S16384x64, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x64, .f32⟩
  | .hbm, ⟨40, _⟩ => ⟨S16384x64, .f32⟩
  | .hbm, ⟨41, _⟩ => ⟨S16384x64, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x64, .f32⟩
  | .hbm, ⟨50, _⟩ => ⟨S16384x64, .f32⟩
  | .hbm, ⟨51, _⟩ => ⟨S64x16384, .f32⟩
  | .hbm, ⟨52, _⟩ => ⟨S16384x16384, .f32⟩
  | .hbm, ⟨53, _⟩ => ⟨S_, .f32⟩
  | .hbm, ⟨54, _⟩ => ⟨S16384x16384, .f32⟩
  | .hbm, ⟨55, _⟩ => ⟨S16384x16384, .f32⟩
  | .hbm, ⟨56, _⟩ => ⟨S_, .f32⟩
  | .hbm, ⟨57, _⟩ => ⟨S16384, .f32⟩
  | .hbm, ⟨58, _⟩ => ⟨S_, .f32⟩
  | .hbm, ⟨59, _⟩ => ⟨S16384, .f32⟩
  | .hbm, ⟨60, _⟩ => ⟨S16384, .f32⟩
  | .hbm, ⟨61, _⟩ => ⟨S16384x1, .f32⟩
  | .hbm, ⟨62, _⟩ => ⟨S16384x16384, .f32⟩
  | .hbm, ⟨63, _⟩ => ⟨S16384x16384, .f32⟩
  | .hbm, ⟨64, _⟩ => ⟨S16384x16384, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S16384x16384, .f32⟩
  | .hbm, ⟨69, _⟩ => ⟨S16384x16384, .f32⟩
  | .hbm, ⟨70, _⟩ => ⟨S16384x64, .f32⟩
  | .hbm, ⟨71, _⟩ => ⟨S16384x64, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x64, .f32⟩
  | .hbm, ⟨79, _⟩ => ⟨S16384x64, .f32⟩
  | .hbm, ⟨80, _⟩ => ⟨S2x1024x512, .f32⟩
  | .hbm, ⟨81, _⟩ => ⟨S512x512, .f32⟩
  | .hbm, ⟨82, _⟩ => ⟨S2x1024x512, .f32⟩
  | .hbm, ⟨83, _⟩ => ⟨S1x1x512, .f32⟩
  | .hbm, ⟨84, _⟩ => ⟨S2x1024x512, .f32⟩
  | .hbm, ⟨85, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_call0_v2 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_call1_v2 : Ref sig .tc := ⟨.hbm, 44, rfl⟩
abbrev main_v23 : Ref sig .tc := ⟨.hbm, 45, rfl⟩
abbrev main_cst_0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_1 : Ref sig .tc := ⟨.hbm, 53, rfl⟩
abbrev main_v30 : Ref sig .tc := ⟨.hbm, 54, rfl⟩
abbrev main_v31 : Ref sig .tc := ⟨.hbm, 55, rfl⟩
abbrev main_cst_2 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_4 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S2x1024x512_0_1_2 : S1x1x512.BroadcastsInDim S2x1024x512 (![0, 1, 2] : Fin 3 → Fin S2x1024x512.rank)
  shapeCasts_S2x1024x512_S16384x64 : S2x1024x512.ShapeCasts S16384x64
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  transposes_S16384x64_S64x16384_1_0 : S16384x64.Transposes [1, 0] S64x16384
  bcast_S_S16384x16384 : S_.BroadcastsInDim S16384x16384 (![] : Fin 0 → Fin S16384x16384.rank)
  reducesTo_S16384x16384_S16384_d1 : S16384x16384.ReducesTo [1] S16384
  bcast_S_S16384 : S_.BroadcastsInDim S16384 (![] : Fin 0 → Fin S16384.rank)
  bcast_S16384x1_S16384x16384_0_1 : S16384x1.BroadcastsInDim S16384x16384 (![0, 1] : Fin 2 → Fin S16384x16384.rank)
  shapeCasts_S16384x64_S2x1024x512 : S16384x64.ShapeCasts S2x1024x512
  dot_S512x4_S4x512_S512x512_1_0_0_1_n_n_wf : DotDims.WF S512x4 S4x512 S512x512 [1] [0] [0] [1] [] []
  dot_S2x1024x512_S512x512_S2x1024x512_2_1_01_0_n_n_wf : DotDims.WF S2x1024x512 S512x512 S2x1024x512 [2] [1] [0, 1] [0] [] []
  dot_S16384x64_S64x16384_S16384x16384_1_0_0_1_n_n_wf : DotDims.WF S16384x64 S64x16384 S16384x16384 [1] [0] [0] [1] [] []
  dot_S16384x16384_S16384x64_S16384x64_1_0_0_1_n_n_wf : DotDims.WF S16384x16384 S16384x64 S16384x64 [1] [0] [0] [1] [] []

variable [Facts₀]

def dot_S512x4_S4x512_S512x512_1_0_0_1_n_n : DotDims S512x4 S4x512 S512x512 where
  lhsContracting := [1]
  rhsContracting := [0]
  lhsNonContracting := [0]
  rhsNonContracting := [1]
  lhsBatch := []
  rhsBatch := []
  wf := dot_S512x4_S4x512_S512x512_1_0_0_1_n_n_wf
def dot_S2x1024x512_S512x512_S2x1024x512_2_1_01_0_n_n : DotDims S2x1024x512 S512x512 S2x1024x512 where
  lhsContracting := [2]
  rhsContracting := [1]
  lhsNonContracting := [0, 1]
  rhsNonContracting := [0]
  lhsBatch := []
  rhsBatch := []
  wf := dot_S2x1024x512_S512x512_S2x1024x512_2_1_01_0_n_n_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.Bits.ProjRegion.lean ====
/-
  Region 0 of @main: the fused query/key/value projection on a grid of four points.

  At point i the body reads the i-th 512-row block of the activations x (window 0), the three 512x512 weight
  matrices (windows 1, 2, 3) and the three 1x512 biases (windows 4, 5, 6), each through the whole of its staging
  buffer, and writes the whole of three output staging buffers. Each projection rounds both factors to bf16,
  accumulates their product in f32 from zero and adds the f32 bias broadcast over the rows: q = x·Wq + bq and
  k = x·Wk + bk are stored in f32 (windows 7 and 8), v = x·Wv + bv is rounded once more to bf16 and stored (window
  9). Nothing is carried from point to point, so the region's
  invariant is the class invariant at every point; every input buffer holds its window's block at every point,
  fetched there or not (a constant index never moves), and every output buffer ends holding the one store's
  payload laid over the whole buffer.
-/
import proofs.«423754_j5703716569513_3_alg».proof.Proof.Gen.Kernel.Launch
import proofs.«423754_j5703716569513_3_alg».proof.Proof.Gen.Kernel.Skeleton
import proofs.«423754_j5703716569513_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every declaration below is stated at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and every store is of a whole staging buffer -/

/-- The whole of a 512x512 buffer. -/
abbrev r0_mat : Rect S512x512 := Rect.unit (s := S512x512) ![0, 0] S512x512.size inb_S512x512_S512x512_0_0
/-- The whole of a 1x512 buffer. -/
abbrev r0_bias : Rect S1x512 := Rect.unit (s := S1x512) ![0, 0] S1x512.size inb_S1x512_S1x512_0_0

/-! ## What the body leaves in each output window's buffer -/

/-- The query projection: the one store, over the whole buffer, of the f32 product of x and Wq (each rounded to
    bf16) plus the bias row bq. -/
def out0_7 (x0 w1 : Vec F S512x512 .f32) (b4 : Vec F S1x512 .f32) : Vec F S512x512 .f32 :=
  View.canon [⟨r0_mat, k0_pay2 (View.ld x0 r0_mat) (View.ld w1 r0_mat) (View.ld b4 r0_bias)⟩]

/-- The key projection: the one store, over the whole buffer, of the f32 product of x and Wk (each rounded to
    bf16) plus the bias row bk. -/
def out0_8 (x0 w2 : Vec F S512x512 .f32) (b5 : Vec F S1x512 .f32) : Vec F S512x512 .f32 :=
  View.canon [⟨r0_mat, k0_pay3 (View.ld x0 r0_mat) (View.ld w2 r0_mat) (View.ld b5 r0_bias)⟩]

/-- The value projection: the one store, over the whole buffer, of the f32 product of x and Wv (each rounded to
    bf16) plus the bias row bv, the sum rounded to bf16. -/
def out0_9 (x0 w3 : Vec F S512x512 .f32) (b6 : Vec F S1x512 .f32) : Vec F S512x512 .bf16 :=
  View.canon [⟨r0_mat, k0_pay4 (View.ld x0 r0_mat) (View.ld w3 r0_mat) (View.ld b6 r0_bias)⟩]

/-! ## The pipeline's proof data -/

/-- The proof data of the region on core `c`: the arrays as the region finds them; after the body at point `t`
    each input's buffer at its block and each output's at its projection of the input blocks; the class invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 4 t)
    | ⟨8, _⟩ => out0_8 (iblk0 V c 0 t) (iblk0 V c 2 t) (iblk0 V c 5 t)
    | ⟨9, _⟩ => out0_9 (iblk0 V c 0 t) (iblk0 V c 3 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 4 t) := by dsimp only [dat0]
theorem after0_8 (c : Dev nD) (t : Fin cfg0.N) : (dat0 V c).after 8 t = out0_8 (iblk0 V c 0 t) (iblk0 V c 2 t) (iblk0 V c 5 t) := by dsimp only [dat0]
theorem after0_9 (c : Dev nD) (t : Fin cfg0.N) : (dat0 V c).after 9 t = out0_9 (iblk0 V c 0 t) (iblk0 V c 3 t) (iblk0 V c 6 t) := by dsimp only [dat0]

/-! ## Each input's buffer holds its block at every point

An input window whose body leaves its block in place holds, at every point, what a fetch there would put in its
buffer, fetched there or not: a window not fetched at a point has not moved its block index since the point before.
Window 0's index follows the point (it is fetched everywhere); windows 1 to 6 have a constant index (fetched at the
first point only). No window is cut or idle, so what a fetch leaves is the block itself. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)

/-! ## The one store into each output buffer covers it -/

/-- A single piece over the whole of a 512x512 buffer tiles it, so it covers it. -/
theorem cover0_mat {e : EltTy} (p0 : r0_mat.shape.Idx → Elt F e) (y : S512x512.Idx) :
    ∃ pc ∈ ([⟨r0_mat, p0⟩] : List (View.Piece (Elt F) S512x512 e)), y ∈ pc.1.set :=
  View.cover_of_tiled [⟨r0_mat, p0⟩] S512x512.size (by rfl) y

/-! ## The body's triple -/

/-- The kernel body on whole staging memrefs, the seven inputs' at read contents and the three outputs' at anything,
    runs to the continuation holding the inputs' as they were and each output's at its projection: seven whole-buffer
    loads, then per output a load of the stale buffer (its value unused) and one whole-buffer store of the payload. -/
theorem sound_kernel0 (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S512x512 .f32) (harg8 : arg8.IsWhole)
    (arg9 : Memref sig .tc .vmem S512x512 .f32) (harg9 : arg9.IsWhole) (arg10 : Memref sig .tc .vmem S512x512 .bf16) (harg10 : arg10.IsWhole)
    (x0 w1 w2 w3 : Vec F S512x512 .f32) (b4 b5 b6 : Vec F S1x512 .f32) (K : PUnit → sProp 𝕄) :
    iprop(owns (c : Thread nD τ) arg1 fullShare x0 ∗ owns (c : Thread nD τ) arg2 fullShare w1
        ∗ owns (c : Thread nD τ) arg3 fullShare w2 ∗ owns (c : Thread nD τ) arg4 fullShare w3
        ∗ owns (c : Thread nD τ) arg5 fullShare b4 ∗ owns (c : Thread nD τ) arg6 fullShare b5
        ∗ owns (c : Thread nD τ) arg7 fullShare b6
        ∗ (∃ d, owns (c : Thread nD τ) arg8 fullShare d) ∗ (∃ d, owns (c : Thread nD τ) arg9 fullShare d)
        ∗ (∃ d, owns (c : Thread nD τ) arg10 fullShare d)
        ∗ (iprop(owns (c : Thread nD τ) arg1 fullShare x0 ∗ owns (c : Thread nD τ) arg2 fullShare w1
            ∗ owns (c : Thread nD τ) arg3 fullShare w2 ∗ owns (c : Thread nD τ) arg4 fullShare w3
            ∗ owns (c : Thread nD τ) arg5 fullShare b4 ∗ owns (c : Thread nD τ) arg6 fullShare b5
            ∗ owns (c : Thread nD τ) arg7 fullShare b6
            ∗ owns (c : Thread nD τ) arg8 fullShare (out0_7 x0 w1 b4)
            ∗ owns (c : Thread nD τ) arg9 fullShare (out0_8 x0 w2 b5)
            ∗ owns (c : Thread nD τ) arg10 fullShare (out0_9 x0 w3 b6)) -∗ K ⟨⟩))
      ⊢ wp frame (wpE (defs₀ (F := F)) Variants.none c none) E
          (cc0__qkv_dense_kernel i arg1 harg1 arg2 harg2 arg3 harg3 arg4 harg4 arg5 harg5 arg6 harg6 arg7 harg7 arg8 harg8 arg9 harg9 arg10 harg10) K := by
  simp only [cc0__qkv_dense_kernel_eq_skeleton]; unfold cc0__qkv_dense_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_mat _)
  isplitl [H9]
  · iexists _; isplitr
    swap; · iexact H9
    ipureintro
    exact View.read_writes_eq_canon _ _ _ (cover0_mat _)
  iexists _; isplitr
  swap; · iexact H10
  ipureintro
  exact View.read_writes_eq_canon _ _ _ (cover0_mat _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the body's triple applies; the invariant and the
    core's tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the pipeline, at every point: the windows opened one by one. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.AttnRegion.lean ====
/- Region 1 of the program: softmax attention over a 16 x 8 grid (flattened to 128 points; point t has
   coordinates (t / 8, t % 8)).  For each query tile the kernel carries two scratch buffers across its 8
   key/value tiles: the running row sums l [1024x1] and the accumulator acc [1024x64].  At a point whose second
   coordinate is 0 both are reset to zero before the update; at every point l := l + rowsum(p) and
   acc := acc + p · v, where p = exp(q̂ · k̂ᵀ − 13/100) is computed from the query and key blocks; at a point
   whose second coordinate is 7 the output block is computed from acc and l and stored.  This module states what
   the two scratch buffers hold after every point by recursion on the point, the region's invariant, the
   pipeline's proof data and the body obligation, generic in the float instance. -/
import proofs.«423754_j5703716569513_3_alg».proof.Proof.Gen.Kernel.Launch
import proofs.«423754_j5703716569513_3_alg».proof.Proof.Gen.Kernel.Skeleton
import proofs.«423754_j5703716569513_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every declaration below is stated at this parameter
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One update of the carried state at point `t`: the row sums grow by the row sums of p, the accumulator by p · v. -/
def scStep1 (c : Dev nD) (t : Fin cfg1.N) (l : Vec F S1024x1 .f32) (a : Vec F S1024x64 .f32) :
    Vec F S1024x1 .f32 × Vec F S1024x64 .f32 :=
  (k1_pay1 (k1_pay8 (iblk1 V c 0 t) (iblk1 V c 1 t) l), k1_pay2 (k1_pay6 (iblk1 V c 2 t)) (k1_pay7 (iblk1 V c 0 t) (iblk1 V c 1 t)) a)

/-- what the two scratch buffers hold after the body at flattened point n: (the row sums, the accumulator) -/
def scAt1 (c : Dev nD) : (n : ℕ) → n < cfg1.N → Vec F S1024x1 .f32 × Vec F S1024x64 .f32
  | 0, hn => scStep1 V c ⟨0, hn⟩ k1_pay4 k1_pay5
  | n + 1, hn =>
    if (n + 1) % 8 = 0 then scStep1 V c ⟨n + 1, hn⟩ k1_pay4 k1_pay5
    else scStep1 V c ⟨n + 1, hn⟩ (scAt1 c n (Nat.lt_of_succ_lt hn)).1 (scAt1 c n (Nat.lt_of_succ_lt hn)).2

theorem scAt1_first (c : Dev nD) (t : Fin cfg1.N) (h : t.val % 8 = 0) :
    scAt1 V c t.val t.isLt = (k1_pay1 (k1_pay8 (iblk1 V c 0 t) (iblk1 V c 1 t) k1_pay4), k1_pay2 (k1_pay6 (iblk1 V c 2 t)) (k1_pay7 (iblk1 V c 0 t) (iblk1 V c 1 t)) k1_pay5) := by
  obtain ⟨n, hn⟩ := t
  cases n with
  | zero => rfl
  | succ n => exact (if_pos h).trans rfl

theorem scAt1_next (c : Dev nD) (t : Fin cfg1.N) (h : t.val % 8 ≠ 0) :
    scAt1 V c t.val t.isLt = (k1_pay1 (k1_pay8 (iblk1 V c 0 t) (iblk1 V c 1 t) (scAt1 V c (t.val - 1) (Nat.lt_of_le_of_lt (Nat.sub_le _ _) t.isLt)).1), k1_pay2 (k1_pay6 (iblk1 V c 2 t)) (k1_pay7 (iblk1 V c 0 t) (iblk1 V c 1 t)) (scAt1 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The scratch operands and the region's invariant -/

/-- The row sums' buffer, passed whole beside the windows. -/
abbrev scL1 : Memref sig .tc .vmem S1024x1 .f32 := Memref.whole cc1_scratch0
/-- The accumulator's buffer, passed whole beside the windows. -/
abbrev scA1 : Memref sig .tc .vmem S1024x64 .f32 := Memref.whole cc1_scratch1

/-- The core's scoped buffers that are neither a staging buffer of this region nor one of its two scratch
    buffers (the other regions' staging buffers), each whole at some contents: the body never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The region invariant before position `n`: before the first point every scoped buffer outside the staging
    buffers is at anything; afterwards the two scratch buffers are at what the point before left in them, the
    other buffers still at anything, and the generator register at some state. -/
def PhiS1 (c : Dev nD) : (n : ℕ) → n ≤ cfg1.N → sProp 𝕄
  | 0, _ => Pipeline.ΦA spec1 c
  | n + 1, hn => iprop(iprop(owns (c : Thread nD τ) scL1 fullShare (scAt1 V c n hn).1 ∗ owns (c : Thread nD τ) scA1 fullShare (scAt1 V c n hn).2 ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scL1 fullShare (scAt1 V c n hn).1 ∗ owns (c : Thread nD τ) scA1 fullShare (scAt1 V c n hn).2 ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scL1 fullShare (scAt1 V c (n - 1) (by omega)).1 ∗ owns (c : Thread nD τ) scA1 fullShare (scAt1 V c (n - 1) (by omega)).2 ∗ others1 (F := F) c) ∗ (∃ r, prngReg c r)) := by
  cases n with
  | zero => exact absurd rfl hz
  | succ n => rfl

/-! ## The pipeline's proof data -/

/-- The proof data of region 1 on core `c`: the arrays as the region finds them; after the body at point `t` each
    input's buffer at its block and the output's at the block computed from the carried state at `t` (what is
    stored where the second coordinate is 7; elsewhere the window is idle and nothing consults it); the tracked
    invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (scAt1 V c t.val t.isLt).2 (scAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) (h : t.val % 8 = 7) : (dat1 V c).after 3 t = k1_pay3 (scAt1 V c t.val t.isLt).2 (scAt1 V c t.val t.isLt).1 := by
  dsimp only [dat1]

/-! ## The body's two conditions on the coordinates -/

/-- The reset condition of the body (its first conditional): the second coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The output condition of the body (its second conditional): the second coordinate is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Whole-buffer accesses: the unit rectangle at zero offsets -/

/-- The zero offsets of a rank-2 access, as the printed program spells them. -/
theorem hz2 : (![0, 0] : Fin 2 → ℕ) = fun _ => 0 := by
  funext a; fin_cases a <;> rfl

section Whole

variable {S : Shape} {e : EltTy} {off : Fin S.rank → Nat}

/-- A load through the whole-shape rectangle at zero offsets reads the contents. -/
theorem ld_whole (h : off = fun _ => 0) (inb : ∀ a, off a + S.size a ≤ S.size a) (X : S.Idx → Elt F e) :
    View.ld X (Rect.unit off S.size inb) = X := by
  subst h; funext x; show X ((Rect.whole S).emb x) = X x; rw [Rect.emb_whole_apply]

/-- Every index lies in the whole-shape rectangle. -/
theorem mem_whole (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A whole-shape store, the last of a list of stores, leaves its payload whatever the earlier stores were. -/
theorem canon_whole_last (h : off = fun _ => 0) (inb : ∀ a, off a + S.size a ≤ S.size a) (w : S.Idx → Elt F e)
    (L : List (View.Piece (Elt F) S e)) :
    View.canon ((⟨Rect.unit off S.size inb, w⟩ : View.Piece (Elt F) S e) :: L) = w := by
  subst h; funext y
  have e := View.canon_cons_emb (Val := Elt F) (Rect.whole S) w L y
  rw [Rect.emb_whole_apply] at e
  exact e

/-- Read back through any view, the contents after a whole-shape store (the last of a list) are its payload,
    whatever the buffer held before. -/
theorem read_writes_whole_last {sg : RefSig} {κ : Kind} {sp : Space} (v : View sg κ sp S e) (f : v.ty.Contents (Elt F))
    (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., mem_whole h inb y⟩), canon_whole_last h inb]

/-- A whole-shape load after a whole-shape store (the last of a list) reads the store's payload. -/
theorem readCov_whole_last {sg : RefSig} {κ : Kind} {sp : Space} (v : View sg κ sp S e)
    (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self .., mem_whole h inb y⟩), canon_whole_last h inb, ld_whole h inb]

end Whole

/-! ## The body's triple in each of its three control cases

Stated over arbitrary whole memrefs and read contents; the two conditions are decided by the case's hypotheses. -/

set_option maxHeartbeats 1000000 in
/-- The body at a point whose second coordinate is 0 (and not 7), on whole memrefs: the inputs at their contents, the
    output buffer at contents it hands back untouched, the two scratch buffers at anything. Both scratch buffers are
    zeroed, then updated from the query, key and value blocks: the row sums end at the update of the zero column, the
    accumulator at the update of the zero block. Each whole-buffer store overwrites what the buffer held, and each
    whole-buffer load after it reads the stored payload. -/
theorem attn_first (c : Dev nD) (E : Set ℕ) (i : grid1.Coords)
    (arg2 : Memref sig .tc .vmem S1024x64 .f32) (harg2 : arg2.IsWhole) (arg3 : Memref sig .tc .vmem S2048x64 .f32) (harg3 : arg3.IsWhole)
    (arg4 : Memref sig .tc .vmem S2048x64 .bf16) (harg4 : arg4.IsWhole) (arg5 : Memref sig .tc .vmem S1024x64 .f32) (harg5 : arg5.IsWhole)
    (arg6 : Memref sig .tc .vmem S1024x1 .f32) (harg6 : arg6.IsWhole) (arg7 : Memref sig .tc .vmem S1024x64 .f32) (harg7 : arg7.IsWhole)
    (hc0 : cond1_0 i) (hc1 : ¬cond1_1 i)
    (xq : Vec F S1024x64 .f32) (xk : Vec F S2048x64 .f32) (xv : Vec F S2048x64 .bf16) (xo : Vec F S1024x64 .f32) (K : PUnit → sProp 𝕄) :
    iprop(owns (c : Thread nD τ) arg2 fullShare xq ∗ owns (c : Thread nD τ) arg3 fullShare xk ∗ owns (c : Thread nD τ) arg4 fullShare xv
        ∗ owns (c : Thread nD τ) arg5 fullShare xo ∗ (∃ d, owns (c : Thread nD τ) arg6 fullShare d) ∗ (∃ d, owns (c : Thread nD τ) arg7 fullShare d)
        ∗ (iprop(owns (c : Thread nD τ) arg2 fullShare xq ∗ owns (c : Thread nD τ) arg3 fullShare xk ∗ owns (c : Thread nD τ) arg4 fullShare xv
            ∗ owns (c : Thread nD τ) arg5 fullShare xo
            ∗ owns (c : Thread nD τ) arg6 fullShare (k1_pay1 (k1_pay8 xq xk k1_pay4))
            ∗ owns (c : Thread nD τ) arg7 fullShare (k1_pay2 (k1_pay6 xv) (k1_pay7 xq xk) k1_pay5)) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf2 hf3 hf4 hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [read_writes_whole_last _ _ hz2]
    simp only [View.readAt_eq_ld, ld_whole (S := S1024x64) hz2, ld_whole (S := S2048x64) hz2, ld_whole (S := S1024x1) hz2, readCov_whole_last (S := S1024x64) _ hz2, readCov_whole_last (S := S1024x1) _ hz2]
  iexists _; isplitr
  swap; · iexact H7
  ipureintro
  sl_unfold_words
  rw [read_writes_whole_last _ _ hz2]
  simp only [View.readAt_eq_ld, ld_whole (S := S1024x64) hz2, ld_whole (S := S2048x64) hz2, ld_whole (S := S1024x1) hz2, readCov_whole_last (S := S1024x64) _ hz2, readCov_whole_last (S := S1024x1) _ hz2]

set_option maxHeartbeats 1000000 in
/-- The body at a point whose second coordinate is neither 0 nor 7, on whole memrefs: the inputs at their contents,
    the output buffer handed back untouched, the row sums at `l` and the accumulator at `a` as the point before left
    them. They end at one update of `l` and `a` from the query, key and value blocks. -/
theorem attn_mid (c : Dev nD) (E : Set ℕ) (i : grid1.Coords)
    (arg2 : Memref sig .tc .vmem S1024x64 .f32) (harg2 : arg2.IsWhole) (arg3 : Memref sig .tc .vmem S2048x64 .f32) (harg3 : arg3.IsWhole)
    (arg4 : Memref sig .tc .vmem S2048x64 .bf16) (harg4 : arg4.IsWhole) (arg5 : Memref sig .tc .vmem S1024x64 .f32) (harg5 : arg5.IsWhole)
    (arg6 : Memref sig .tc .vmem S1024x1 .f32) (harg6 : arg6.IsWhole) (arg7 : Memref sig .tc .vmem S1024x64 .f32) (harg7 : arg7.IsWhole)
    (hc0 : ¬cond1_0 i) (hc1 : ¬cond1_1 i)
    (xq : Vec F S1024x64 .f32) (xk : Vec F S2048x64 .f32) (xv : Vec F S2048x64 .bf16) (xo : Vec F S1024x64 .f32) (l : Vec F S1024x1 .f32) (a : Vec F S1024x64 .f32) (K : PUnit → sProp 𝕄) :
    iprop(owns (c : Thread nD τ) arg2 fullShare xq ∗ owns (c : Thread nD τ) arg3 fullShare xk ∗ owns (c : Thread nD τ) arg4 fullShare xv
        ∗ owns (c : Thread nD τ) arg5 fullShare xo ∗ owns (c : Thread nD τ) arg6 fullShare l ∗ owns (c : Thread nD τ) arg7 fullShare a
        ∗ (iprop(owns (c : Thread nD τ) arg2 fullShare xq ∗ owns (c : Thread nD τ) arg3 fullShare xk ∗ owns (c : Thread nD τ) arg4 fullShare xv
            ∗ owns (c : Thread nD τ) arg5 fullShare xo
            ∗ owns (c : Thread nD τ) arg6 fullShare (k1_pay1 (k1_pay8 xq xk l))
            ∗ owns (c : Thread nD τ) arg7 fullShare (k1_pay2 (k1_pay6 xv) (k1_pay7 xq xk) a)) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2 hf3 hf4 hf5 hf6 hf7
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [read_writes_whole_last _ _ hz2]
    simp only [View.readAt_eq_ld, ld_whole (S := S1024x64) hz2, ld_whole (S := S2048x64) hz2, ld_whole (S := S1024x1) hz2, readCov_whole_last (S := S1024x64) _ hz2, readCov_whole_last (S := S1024x1) _ hz2]
  iexists _; isplitr
  swap; · iexact H7
  ipureintro
  sl_unfold_words
  rw [read_writes_whole_last _ _ hz2]
  simp only [View.readAt_eq_ld, ld_whole (S := S1024x64) hz2, ld_whole (S := S2048x64) hz2, ld_whole (S := S1024x1) hz2, readCov_whole_last (S := S1024x64) _ hz2, readCov_whole_last (S := S1024x1) _ hz2]

set_option maxHeartbeats 1000000 in
/-- The body at a point whose second coordinate is 7 (and not 0), on whole memrefs: the inputs at their contents,
    the output buffer at anything, the row sums at `l` and the accumulator at `a`. The scratch buffers end at one
    update of `l` and `a`, and the output buffer at the block computed from the updated accumulator and row sums
    (loaded back after their stores, so read as the stored payloads). -/
theorem attn_last (c : Dev nD) (E : Set ℕ) (i : grid1.Coords)
    (arg2 : Memref sig .tc .vmem S1024x64 .f32) (harg2 : arg2.IsWhole) (arg3 : Memref sig .tc .vmem S2048x64 .f32) (harg3 : arg3.IsWhole)
    (arg4 : Memref sig .tc .vmem S2048x64 .bf16) (harg4 : arg4.IsWhole) (arg5 : Memref sig .tc .vmem S1024x64 .f32) (harg5 : arg5.IsWhole)
    (arg6 : Memref sig .tc .vmem S1024x1 .f32) (harg6 : arg6.IsWhole) (arg7 : Memref sig .tc .vmem S1024x64 .f32) (harg7 : arg7.IsWhole)
    (hc0 : ¬cond1_0 i) (hc1 : cond1_1 i)
    (xq : Vec F S1024x64 .f32) (xk : Vec F S2048x64 .f32) (xv : Vec F S2048x64 .bf16) (l : Vec F S1024x1 .f32) (a : Vec F S1024x64 .f32) (K : PUnit → sProp 𝕄) :
    iprop(owns (c : Thread nD τ) arg2 fullShare xq ∗ owns (c : Thread nD τ) arg3 fullShare xk ∗ owns (c : Thread nD τ) arg4 fullShare xv
        ∗ (∃ d, owns (c : Thread nD τ) arg5 fullShare d) ∗ owns (c : Thread nD τ) arg6 fullShare l ∗ owns (c : Thread nD τ) arg7 fullShare a
        ∗ (iprop(owns (c : Thread nD τ) arg2 fullShare xq ∗ owns (c : Thread nD τ) arg3 fullShare xk ∗ owns (c : Thread nD τ) arg4 fullShare xv
            ∗ owns (c : Thread nD τ) arg5 fullShare (k1_pay3 (k1_pay2 (k1_pay6 xv) (k1_pay7 xq xk) a) (k1_pay1 (k1_pay8 xq xk l)))
            ∗ owns (c : Thread nD τ) arg6 fullShare (k1_pay1 (k1_pay8 xq xk l))
            ∗ owns (c : Thread nD τ) arg7 fullShare (k1_pay2 (k1_pay6 xv) (k1_pay7 xq xk) a)) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf2 hf3 hf4 hf6 hf7
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [read_writes_whole_last _ _ hz2]
    simp only [View.readAt_eq_ld, ld_whole (S := S1024x64) hz2, ld_whole (S := S2048x64) hz2, ld_whole (S := S1024x1) hz2, readCov_whole_last (S := S1024x64) _ hz2, readCov_whole_last (S := S1024x1) _ hz2]
  isplitl [H6]
  · iexists _; isplitr
    swap; · iexact H6
    ipureintro
    sl_unfold_words
    rw [read_writes_whole_last _ _ hz2]
    simp only [View.readAt_eq_ld, ld_whole (S := S1024x64) hz2, ld_whole (S := S2048x64) hz2, ld_whole (S := S1024x1) hz2, readCov_whole_last (S := S1024x64) _ hz2, readCov_whole_last (S := S1024x1) _ hz2]
  iexists _; isplitr
  swap; · iexact H7
  ipureintro
  sl_unfold_words
  rw [read_writes_whole_last _ _ hz2]
  simp only [View.readAt_eq_ld, ld_whole (S := S1024x64) hz2, ld_whole (S := S2048x64) hz2, ld_whole (S := S1024x1) hz2, readCov_whole_last (S := S1024x64) _ hz2, readCov_whole_last (S := S1024x1) _ hz2]

/-- What the launch hands the region, with the two scratch buffers singled out as memrefs owned at some contents
    and the other scoped buffers gathered. -/
theorem PhiA1_eq (c : Dev nD) :
    (Pipeline.ΦA spec1 c : sProp 𝕄)
      = iprop(iprop((∃ d, owns (c : Thread nD τ) scL1 fullShare d) ∗ (∃ d, owns (c : Thread nD τ) scA1 fullShare d) ∗ others1 (F := F) c) ∗ (∃ r, prngReg c r)) := by
  unfold Pipeline.ΦA; rw [scopedRest1_eq]; simp only [scL1, scA1, owns_whole]; unfold others1
  refine BI.equiv_iff.mp ⟨?_, ?_⟩
  · show (_ : sProp 𝕄) ⊢ (_ : sProp 𝕄)
    iintro ⟨⟨B1, B2, B3, B4, B5, B6, B7, B8, B9, B10, B11, B12, B13, B14, HL, HA, C1, C2, C3, C4, C5, C6⟩, Hg⟩
    isplitr [Hg]
    · isplitl [HL]; · iexact HL
      isplitl [HA]; · iexact HA
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      isplitl [B13]; · iexact B13
      isplitl [B14]; · iexact B14
      isplitl [C1]; · iexact C1
      isplitl [C2]; · iexact C2
      isplitl [C3]; · iexact C3
      isplitl [C4]; · iexact C4
      isplitl [C5]; · iexact C5
      iexact C6
    · iexact Hg
  · show (_ : sProp 𝕄) ⊢ (_ : sProp 𝕄)
    iintro ⟨⟨HL, HA, B1, B2, B3, B4, B5, B6, B7, B8, B9, B10, B11, B12, B13, B14, C1, C2, C3, C4, C5, C6⟩, Hg⟩
    isplitr [Hg]
    · isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      isplitl [B13]; · iexact B13
      isplitl [B14]; · iexact B14
      isplitl [HL]; · iexact HL
      isplitl [HA]; · iexact HA
      isplitl [C1]; · iexact C1
      isplitl [C2]; · iexact C2
      isplitl [C3]; · iexact C3
      isplitl [C4]; · iexact C4
      isplitl [C5]; · iexact C5
      iexact C6
    · iexact Hg

/-! ## What the body finds in the windows' buffers, and where the output window is idle -/

/-- Each input's current staging buffer holds its block at every point, fetched there or not (unfetched, the
    block index has not moved: the query block is fetched only where the second coordinate is 0). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second coordinate is not 7 the output window is idle (the body stores nothing into it) -/
theorem idleAt1_3 : ∀ t : Fin cfg1.N, ¬cond1_1 (grid1.coords t) → cfg1.idle 3 (grid1.coords t) = true := by decide +kernel
/-- and its block is not written back; -/
theorem noFlush1_3 : ∀ t : Fin cfg1.N, ¬cond1_1 (grid1.coords t) → (cfg1.win 3).flush t = false := by decide +kernel
/-- where it is 7 the window is live. -/
theorem liveAt1_3 : ∀ t : Fin cfg1.N, cond1_1 (grid1.coords t) → cfg1.idle 3 (grid1.coords t) = false := by decide +kernel

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' buffers hold their blocks; the closed forms of the two conditions say
    which of the three cases the point is in; the invariant hands the body the two scratch buffers (at anything
    at the first point, else at what the point before left) and takes them back at this point's contents; the
    output window is handed back untouched where it is idle and at the stored block where the second
    coordinate is 7; the other scoped buffers, the generator register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 128 := lt_of_lt_of_eq t.isLt (show cfg1.N = 128 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [scAt1_first V c t h0]; dsimp only
    by_cases hz : t.val = 0
    · rw [PhiS1_castSucc V c t, PhiS1_zero V c _ _ hz, PhiA1_eq]
      iintro ⟨⟨⟨HL, HA, HR⟩, Hg⟩, Ho, ⟨%d0, H0⟩, ⟨%d1, H1⟩, ⟨%d2, H2⟩, ⟨%d3, H3⟩⟩
      iapply (attn_first c Set.univ (grid1.coords t) _ _ _ _ _ _ _ _ _ _ _ _ hc0 hc1 (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HL]; · iexact HL
      isplitl [HA]; · iexact HA
      iintro ⟨H0, H1, H2, H3, HL, HA⟩
      isplitl [HL HA HR Hg]
      · isplitr [Hg]
        · isplitl [HL]; · iexact HL
          isplitl [HA]; · iexact HA
          iexact HR
        · iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HL, HA, HR⟩, Hg⟩, Ho, ⟨%d0, H0⟩, ⟨%d1, H1⟩, ⟨%d2, H2⟩, ⟨%d3, H3⟩⟩
      iapply (attn_first c Set.univ (grid1.coords t) _ _ _ _ _ _ _ _ _ _ _ _ hc0 hc1 (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HL]; · iexists _; iexact HL
      isplitl [HA]; · iexists _; iexact HA
      iintro ⟨H0, H1, H2, H3, HL, HA⟩
      isplitl [HL HA HR Hg]
      · isplitr [Hg]
        · isplitl [HL]; · iexact HL
          isplitl [HA]; · iexact HA
          iexact HR
        · iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3 V c t h1]
      rw [scAt1_next V c t h0]; dsimp only
      rw [PhiS1_castSucc V c t, PhiS1_pos V c _ _ hz]
      iintro ⟨⟨⟨HL, HA, HR⟩, Hg⟩, Ho, ⟨%d0, H0⟩, ⟨%d1, H1⟩, ⟨%d2, H2⟩, ⟨%d3, H3⟩⟩
      iapply (attn_last c Set.univ (grid1.coords t) _ _ _ _ _ _ _ _ _ _ _ _ hc0 hc1 (iblk1 V c 0 t) (iblk1 V c 1 t) (iblk1 V c 2 t) _ _ _)
      isplitl [H0]; · iexact H0
      isplitl [H1]; · iexact H1
      isplitl [H2]; · iexact H2
      isplitl [H3]; · iexists _; iexact H3
      isplitl [HL]; · iexact HL
      isplitl [HA]; · iexact HA
      iintro ⟨H0, H1, H2, H3, HL, HA⟩
      isplitl [HL HA HR Hg]
      · isplitr [Hg]
        · isplitl [HL]; · iexact HL
          isplitl [HA]; · iexact HA
          iexact HR
        · iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      rw [scAt1_next V c t h0]; dsimp only
      rw [PhiS1_castSucc V c t, PhiS1_pos V c _ _ hz]
      iintro ⟨⟨⟨HL, HA, HR⟩, Hg⟩, Ho, ⟨%d0, H0⟩, ⟨%d1, H1⟩, ⟨%d2, H2⟩, ⟨%d3, H3⟩⟩
      iapply (attn_mid c Set.univ (grid1.coords t) _ _ _ _ _ _ _ _ _ _ _ _ hc0 hc1 (iblk1 V c 0 t) (iblk1 V c 1 t) (iblk1 V c 2 t) ((dat1 V c).before 3 t d3) _ _ _)
      isplitl [H0]; · iexact H0
      isplitl [H1]; · iexact H1
      isplitl [H2]; · iexact H2
      isplitl [H3]; · iexact H3
      isplitl [HL]; · iexact HL
      isplitl [HA]; · iexact HA
      iintro ⟨H0, H1, H2, H3, HL, HA⟩
      isplitl [HL HA HR Hg]
      · isplitr [Hg]
        · isplitl [HL]; · iexact HL
          isplitl [HA]; · iexact HA
          iexact HR
        · iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA (U := UR sig nD τ) spec1 c ⊢ (dat1 (F := F) V c).Φ 0 := by
  rw [show (dat1 V c).Φ 0 = PhiS1 V c 0 (Nat.zero_le _) from rfl, PhiS1_zero V c 0 _ rfl]

/-- After any point the invariant gives the launch's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HL, HA, HR⟩, Hg⟩
  isplitr [Hg]
  · isplitl [HL]; · iexists _; iexact HL
    isplitl [HA]; · iexists _; iexact HA
    iexact HR
  · iexact Hg

/-- The same after the last point. -/
theorem hout1 (c : Dev nD) : (dat1 (F := F) V c).Φ (Fin.last cfg1.N) ⊢ Pipeline.ΦA (U := UR sig nD τ) spec1 c :=
  Phi_out1 V c _ (by rw [Fin.val_last]; have : cfg1.N = 128 := N_1; omega)

end Cert.Kernel.Hand

end
-- ==== Proof.Bits.OutRegion.lean ====
/- REGION 2 of @main: the output projection. At each of the 4 grid points the body reads a 512-row block of the
   attended rows, the whole 512x512 weight matrix and the 1x512 bias from their staging buffers, forms
   (rows rounded to bf16) · (weights rounded to bf16) accumulated in f32 plus the bias broadcast down the rows,
   and stores that 512x512 block whole into the output's staging buffer. Stated at the buffer contents V that the
   region is entered with, generically in the float instance. -/
import proofs.«423754_j5703716569513_3_alg».proof.Proof.Gen.Kernel.Launch
import proofs.«423754_j5703716569513_3_alg».proof.Proof.Gen.Kernel.Skeleton
import proofs.«423754_j5703716569513_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every declaration below is stated at this parameter
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The attended rows' current staging buffer holds their block at every point (it is fetched at every point), for
    any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix's staging buffer holds the matrix at every point: fetched at the first point, and at a later
    one the block index has not moved (it is constant), so what the body left in place is still that block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row's staging buffer holds the row at every point, for the same reason. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole -/

/-- The whole 512x512 buffer as a rectangle. -/
abbrev rSq : Rect S512x512 := Rect.unit (s := S512x512) ![0, 0] S512x512.size inb_S512x512_S512x512_0_0
/-- The whole 1x512 buffer as a rectangle. -/
abbrev rRow : Rect S1x512 := Rect.unit (s := S1x512) ![0, 0] S1x512.size inb_S1x512_S1x512_0_0

/-! ## What the body leaves in the output window's buffer -/

/-- The output's staging buffer after the body, from the three input blocks: its one whole-buffer store of
    bf16(rows) · bf16(weights) + bias. -/
def out2_3 (x0 w1 : Vec F S512x512 .f32) (b2 : Vec F S1x512 .f32) : Vec F S512x512 .f32 :=
  View.canon [⟨rSq, k2_pay1 (View.ld x0 rSq) (View.ld w1 rSq) (View.ld b2 rRow)⟩]

/-- The one store is the whole buffer, so it covers it. -/
theorem cover2_3 (p0 : Vec F S512x512 .f32) (y : S512x512.Idx) :
    ∃ pc ∈ ([⟨rSq, p0⟩] : List (View.Piece (Elt F) S512x512 .f32)), y ∈ pc.1.set :=
  View.cover_of_tiled [⟨rSq, p0⟩] S512x512.size (by rfl) y

/-! ## The body's triple -/

set_option maxHeartbeats 1000000 in
/-- The body on whole staging memrefs, the three inputs' at read contents and the output's at anything, runs to the
    continuation holding the inputs' as they were and the output's at `out2_3` of the inputs'. -/
theorem sound_kernel2 (c : Dev nD) (E : Set ℕ) (i : grid2.Coords)
    (arg1 : Memref sig .tc .vmem S512x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (x0 w1 : Vec F S512x512 .f32) (b2 : Vec F S1x512 .f32) (K : PUnit → sProp 𝕄) :
    iprop(owns (c : Thread nD τ) arg1 fullShare x0 ∗ owns (c : Thread nD τ) arg2 fullShare w1 ∗ owns (c : Thread nD τ) arg3 fullShare b2
        ∗ (∃ d, owns (c : Thread nD τ) arg4 fullShare d)
        ∗ (iprop(owns (c : Thread nD τ) arg1 fullShare x0 ∗ owns (c : Thread nD τ) arg2 fullShare w1 ∗ owns (c : Thread nD τ) arg3 fullShare b2
            ∗ owns (c : Thread nD τ) arg4 fullShare (out2_3 x0 w1 b2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region on core `c`: the arrays as the region finds them; after the body at point `t`
    each input's buffer at its block and the output's at `out2_3` of the three input blocks; the class invariant;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by
  dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Bits.Segments.lean ====
/-
  @main's run, region by region. Between two items of @main every unscoped buffer of the TensorCore holds a known
  array: the launch memory, then what each stretch of host operations computes from it, then — for the arrays a
  kernel region writes — what the region's write-backs leave (every other buffer as the region found it). The three
  kernel regions enter the pipeline with their arrays split out of those buffers and leave with them put back; the
  carried scratch of the attention region is named only inside that region. The run ends with every unscoped buffer
  at the last of these valuations, from which both "the arguments are unchanged" and the result's contents are read.
-/
import proofs.«423754_j5703716569513_3_alg».proof.Proof.Bits.ProjRegion
import proofs.«423754_j5703716569513_3_alg».proof.Proof.Bits.AttnRegion
import proofs.«423754_j5703716569513_3_alg».proof.Proof.Bits.OutRegion
import proofs.«423754_j5703716569513_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- At launch. -/
abbrev W0 : Dev nD → Valuation τ sig (Elt F) := fun c b => (s₀ m ρ).mem ((c : Dev nD), b)
/-- After the first host stretch: the four rank-4 weights multiplied out and transposed, x and the biases reshaped. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its three outputs at what its write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: q, k, v read as 16384 rows of 64. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region: the attended rows at what its write-backs leave. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch: the attended rows read as 2048 rows of 512, the output bias reshaped. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the output-projection region. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the result reshaped to [2, 1024, 512]. -/
abbrev W7 : Dev nD → Valuation τ sig (Elt F) := fun c => StableHlo.after hostOps3 (W6 m ρ c)

/-- A buffer that no host stretch writes and that is no array of any region holds its launch contents at the end. -/
theorem W7_untouched (c : Dev nD) (b : Ref sig .tc)
    (h0 : b ∉ hostOps0_W) (h1 : ∀ w, Pipeline.arrRef spec0 w ≠ b) (h2 : b ∉ hostOps1_W) (h3 : ∀ w, Pipeline.arrRef spec1 w ≠ b)
    (h4 : b ∉ hostOps2_W) (h5 : ∀ w, Pipeline.arrRef spec2 w ≠ b) (h6 : b ∉ hostOps3_W) :
    W7 m ρ c (Proc.devRef .tc b) = m ((c : Thread nD τ).loc b) :=
  calc W7 m ρ c (Proc.devRef .tc b)
    _ = W6 m ρ c (Proc.devRef .tc b) := StableHlo.after_of_writes_sub hostOps3 _ hostOps3_writes h6
    _ = W5 m ρ c (Proc.devRef .tc b) := W6_of_ne m ρ c b h5
    _ = W4 m ρ c (Proc.devRef .tc b) := StableHlo.after_of_writes_sub hostOps2 _ hostOps2_writes h4
    _ = W3 m ρ c (Proc.devRef .tc b) := W4_of_ne m ρ c b h3
    _ = W2 m ρ c (Proc.devRef .tc b) := StableHlo.after_of_writes_sub hostOps1 _ hostOps1_writes h2
    _ = W1 m ρ c (Proc.devRef .tc b) := W2_of_ne m ρ c b h1
    _ = W0 m ρ c (Proc.devRef .tc b) := StableHlo.after_of_writes_sub hostOps0 _ hostOps0_writes h0
    _ = m ((c : Thread nD τ).loc b) := rfl

theorem W7_main_arg0 (c : Dev nD) : W7 m ρ c (Proc.devRef .tc main_arg0) = m ((c : Thread nD τ).loc main_arg0) :=
  W7_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_untouched m ρ c main_arg5 (by decide) (by decide) (by decide) (by decide) (by decide) (by decide) (by decide)
theorem W7_main_arg6 (c : Dev nD) : W7 m ρ c (Proc.devRef .tc main_arg6) = m ((c : Thread nD τ).loc main_arg6) :=
  W7_untouched m ρ c main_arg6 (by decide) (by decide) (by decide) (by decide) (by decide) (by decide) (by decide)
theorem W7_main_arg7 (c : Dev nD) : W7 m ρ c (Proc.devRef .tc main_arg7) = m ((c : Thread nD τ).loc main_arg7) :=
  W7_untouched m ρ c main_arg7 (by decide) (by decide) (by decide) (by decide) (by decide) (by decide) (by decide)
theorem W7_main_arg8 (c : Dev nD) : W7 m ρ c (Proc.devRef .tc main_arg8) = m ((c : Thread nD τ).loc main_arg8) :=
  W7_untouched m ρ c main_arg8 (by decide) (by decide) (by decide) (by decide) (by decide) (by decide) (by decide)
theorem W7_main_arg9 (c : Dev nD) : W7 m ρ c (Proc.devRef .tc main_arg9) = m ((c : Thread nD τ).loc main_arg9) :=
  W7_untouched m ρ c main_arg9 (by decide) (by decide) (by decide) (by decide) (by decide) (by decide) (by decide)
theorem W7_main_arg10 (c : Dev nD) : W7 m ρ c (Proc.devRef .tc main_arg10) = m ((c : Thread nD τ).loc main_arg10) :=
  W7_untouched m ρ c main_arg10 (by decide) (by decide) (by decide) (by decide) (by decide) (by decide) (by decide)
theorem W7_main_arg11 (c : Dev nD) : W7 m ρ c (Proc.devRef .tc main_arg11) = m ((c : Thread nD τ).loc main_arg11) :=
  W7_untouched m ρ c main_arg11 (by decide) (by decide) (by decide) (by decide) (by decide) (by decide) (by decide)
theorem W7_main_arg12 (c : Dev nD) : W7 m ρ c (Proc.devRef .tc main_arg12) = m ((c : Thread nD τ).loc main_arg12) :=
  W7_untouched m ρ c main_arg12 (by decide) (by decide) (by decide) (by decide) (by decide) (by decide) (by decide)

/-! ## The proof data of the three pipelines and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The projection region: entered from `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from `W3`, left at `W4`; inside, the invariant names what the two scratch buffers
    hold after each point, from the class invariant before the first point back to it after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    exact (hout1 (V3 m ρ) c).trans (show Pipeline.ΦA (U := UR sig nD τ) spec1 c ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output-projection region: entered from `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch, leaving the thread state the run ends at. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every unscoped buffer of every core at the last valuation `W7`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: the thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c)⟩) (run_main m ρ)

/-- The run with the result named: the result array ends at `W7`'s contents, the arguments as launched. -/
theorem run_value : θ_run defs (onTc (τ := τ) (main (F := F))) ⟨m, fun _ => 0, ρ⟩ (fun r => ∀ c : Dev nD,
      r.2.mem ((c.tc : Thread nD τ).loc main_v20) = W7 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v20 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c)⟩) (run_main m ρ)

end Cert.Kernel.Hand

end
-- ==== Proof.ProjRegion.lean ====
/-
  Region 0 of @main: the fused query/key/value projection on a grid of four points.

  At point i the body reads the i-th 512-row block of the activations x (window 0), the three 512x512 weight
  matrices (windows 1, 2, 3) and the three 1x512 biases (windows 4, 5, 6), each through the whole of its staging
  buffer, and writes the whole of three output staging buffers. Each projection rounds both factors to bf16,
  accumulates their product in f32 from zero and adds the f32 bias broadcast over the rows: q = x·Wq + bq and
  k = x·Wk + bk are stored in f32 (windows 7 and 8), v = x·Wv + bv is rounded once more to bf16 and stored (window
  9). Nothing is carried from point to point, so the region's
  invariant is the class invariant at every point; every input buffer holds its window's block at every point,
  fetched there or not (a constant index never moves), and every output buffer ends holding the one store's
  payload laid over the whole buffer.
-/
import proofs.«423754_j5703716569513_3_alg».proof.Proof.Gen.KernelIdeal.Launch
import proofs.«423754_j5703716569513_3_alg».proof.Proof.Gen.KernelIdeal.Skeleton
import proofs.«423754_j5703716569513_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: every declaration below is stated at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and every store is of a whole staging buffer -/

/-- The whole of a 512x512 buffer. -/
abbrev r0_mat : Rect S512x512 := Rect.unit (s := S512x512) ![0, 0] S512x512.size inb_S512x512_S512x512_0_0
/-- The whole of a 1x512 buffer. -/
abbrev r0_bias : Rect S1x512 := Rect.unit (s := S1x512) ![0, 0] S1x512.size inb_S1x512_S1x512_0_0

/-! ## What the body leaves in each output window's buffer -/

/-- The query projection: the one store, over the whole buffer, of the f32 product of x and Wq (each rounded to
    bf16) plus the bias row bq. -/
def out0_7 (x0 w1 : Vec F S512x512 .f32) (b4 : Vec F S1x512 .f32) : Vec F S512x512 .f32 :=
  View.canon [⟨r0_mat, k0_pay2 (View.ld x0 r0_mat) (View.ld w1 r0_mat) (View.ld b4 r0_bias)⟩]

/-- The key projection: the one store, over the whole buffer, of the f32 product of x and Wk (each rounded to
    bf16) plus the bias row bk. -/
def out0_8 (x0 w2 : Vec F S512x512 .f32) (b5 : Vec F S1x512 .f32) : Vec F S512x512 .f32 :=
  View.canon [⟨r0_mat, k0_pay3 (View.ld x0 r0_mat) (View.ld w2 r0_mat) (View.ld b5 r0_bias)⟩]

/-- The value projection: the one store, over the whole buffer, of the f32 product of x and Wv (each rounded to
    bf16) plus the bias row bv, the sum rounded to bf16. -/
def out0_9 (x0 w3 : Vec F S512x512 .f32) (b6 : Vec F S1x512 .f32) : Vec F S512x512 .bf16 :=
  View.canon [⟨r0_mat, k0_pay4 (View.ld x0 r0_mat) (View.ld w3 r0_mat) (View.ld b6 r0_bias)⟩]

/-! ## The pipeline's proof data -/

/-- The proof data of the region on core `c`: the arrays as the region finds them; after the body at point `t`
    each input's buffer at its block and each output's at its projection of the input blocks; the class invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 4 t)
    | ⟨8, _⟩ => out0_8 (iblk0 V c 0 t) (iblk0 V c 2 t) (iblk0 V c 5 t)
    | ⟨9, _⟩ => out0_9 (iblk0 V c 0 t) (iblk0 V c 3 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 4 t) := by dsimp only [dat0]
theorem after0_8 (c : Dev nD) (t : Fin cfg0.N) : (dat0 V c).after 8 t = out0_8 (iblk0 V c 0 t) (iblk0 V c 2 t) (iblk0 V c 5 t) := by dsimp only [dat0]
theorem after0_9 (c : Dev nD) (t : Fin cfg0.N) : (dat0 V c).after 9 t = out0_9 (iblk0 V c 0 t) (iblk0 V c 3 t) (iblk0 V c 6 t) := by dsimp only [dat0]

/-! ## Each input's buffer holds its block at every point

An input window whose body leaves its block in place holds, at every point, what a fetch there would put in its
buffer, fetched there or not: a window not fetched at a point has not moved its block index since the point before.
Window 0's index follows the point (it is fetched everywhere); windows 1 to 6 have a constant index (fetched at the
first point only). No window is cut or idle, so what a fetch leaves is the block itself. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)

/-! ## The one store into each output buffer covers it -/

/-- A single piece over the whole of a 512x512 buffer tiles it, so it covers it. -/
theorem cover0_mat {e : EltTy} (p0 : r0_mat.shape.Idx → Elt F e) (y : S512x512.Idx) :
    ∃ pc ∈ ([⟨r0_mat, p0⟩] : List (View.Piece (Elt F) S512x512 e)), y ∈ pc.1.set :=
  View.cover_of_tiled [⟨r0_mat, p0⟩] S512x512.size (by rfl) y

/-! ## The body's triple -/

/-- The kernel body on whole staging memrefs, the seven inputs' at read contents and the three outputs' at anything,
    runs to the continuation holding the inputs' as they were and each output's at its projection: seven whole-buffer
    loads, then per output a load of the stale buffer (its value unused) and one whole-buffer store of the payload. -/
theorem sound_kernel0 (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S512x512 .f32) (harg8 : arg8.IsWhole)
    (arg9 : Memref sig .tc .vmem S512x512 .f32) (harg9 : arg9.IsWhole) (arg10 : Memref sig .tc .vmem S512x512 .bf16) (harg10 : arg10.IsWhole)
    (x0 w1 w2 w3 : Vec F S512x512 .f32) (b4 b5 b6 : Vec F S1x512 .f32) (K : PUnit → sProp 𝕄) :
    iprop(owns (c : Thread nD τ) arg1 fullShare x0 ∗ owns (c : Thread nD τ) arg2 fullShare w1
        ∗ owns (c : Thread nD τ) arg3 fullShare w2 ∗ owns (c : Thread nD τ) arg4 fullShare w3
        ∗ owns (c : Thread nD τ) arg5 fullShare b4 ∗ owns (c : Thread nD τ) arg6 fullShare b5
        ∗ owns (c : Thread nD τ) arg7 fullShare b6
        ∗ (∃ d, owns (c : Thread nD τ) arg8 fullShare d) ∗ (∃ d, owns (c : Thread nD τ) arg9 fullShare d)
        ∗ (∃ d, owns (c : Thread nD τ) arg10 fullShare d)
        ∗ (iprop(owns (c : Thread nD τ) arg1 fullShare x0 ∗ owns (c : Thread nD τ) arg2 fullShare w1
            ∗ owns (c : Thread nD τ) arg3 fullShare w2 ∗ owns (c : Thread nD τ) arg4 fullShare w3
            ∗ owns (c : Thread nD τ) arg5 fullShare b4 ∗ owns (c : Thread nD τ) arg6 fullShare b5
            ∗ owns (c : Thread nD τ) arg7 fullShare b6
            ∗ owns (c : Thread nD τ) arg8 fullShare (out0_7 x0 w1 b4)
            ∗ owns (c : Thread nD τ) arg9 fullShare (out0_8 x0 w2 b5)
            ∗ owns (c : Thread nD τ) arg10 fullShare (out0_9 x0 w3 b6)) -∗ K ⟨⟩))
      ⊢ wp frame (wpE (defs₀ (F := F)) Variants.none c none) E
          (cc0__qkv_dense_kernel i arg1 harg1 arg2 harg2 arg3 harg3 arg4 harg4 arg5 harg5 arg6 harg6 arg7 harg7 arg8 harg8 arg9 harg9 arg10 harg10) K := by
  simp only [cc0__qkv_dense_kernel_eq_skeleton]; unfold cc0__qkv_dense_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_mat _)
  isplitl [H9]
  · iexists _; isplitr
    swap; · iexact H9
    ipureintro
    exact View.read_writes_eq_canon _ _ _ (cover0_mat _)
  iexists _; isplitr
  swap; · iexact H10
  ipureintro
  exact View.read_writes_eq_canon _ _ _ (cover0_mat _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the body's triple applies; the invariant and the
    core's tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the pipeline, at every point: the windows opened one by one. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AttnRegion.lean ====
/- Region 1 of the program: softmax attention over a 16 x 8 grid (flattened to 128 points; point t has
   coordinates (t / 8, t % 8)).  For each query tile the kernel carries two scratch buffers across its 8
   key/value tiles: the running row sums l [1024x1] and the accumulator acc [1024x64].  At a point whose second
   coordinate is 0 both are reset to zero before the update; at every point l := l + rowsum(p) and
   acc := acc + p · v, where p = exp(q̂ · k̂ᵀ − 13/100) is computed from the query and key blocks; at a point
   whose second coordinate is 7 the output block is computed from acc and l and stored.  This module states what
   the two scratch buffers hold after every point by recursion on the point, the region's invariant, the
   pipeline's proof data and the body obligation, generic in the float instance. -/
import proofs.«423754_j5703716569513_3_alg».proof.Proof.Gen.KernelIdeal.Launch
import proofs.«423754_j5703716569513_3_alg».proof.Proof.Gen.KernelIdeal.Skeleton
import proofs.«423754_j5703716569513_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: every declaration below is stated at this parameter
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One update of the carried state at point `t`: the row sums grow by the row sums of p, the accumulator by p · v. -/
def scStep1 (c : Dev nD) (t : Fin cfg1.N) (l : Vec F S1024x1 .f32) (a : Vec F S1024x64 .f32) :
    Vec F S1024x1 .f32 × Vec F S1024x64 .f32 :=
  (k1_pay1 (k1_pay8 (iblk1 V c 0 t) (iblk1 V c 1 t) l), k1_pay2 (k1_pay6 (iblk1 V c 2 t)) (k1_pay7 (iblk1 V c 0 t) (iblk1 V c 1 t)) a)

/-- what the two scratch buffers hold after the body at flattened point n: (the row sums, the accumulator) -/
def scAt1 (c : Dev nD) : (n : ℕ) → n < cfg1.N → Vec F S1024x1 .f32 × Vec F S1024x64 .f32
  | 0, hn => scStep1 V c ⟨0, hn⟩ k1_pay4 k1_pay5
  | n + 1, hn =>
    if (n + 1) % 8 = 0 then scStep1 V c ⟨n + 1, hn⟩ k1_pay4 k1_pay5
    else scStep1 V c ⟨n + 1, hn⟩ (scAt1 c n (Nat.lt_of_succ_lt hn)).1 (scAt1 c n (Nat.lt_of_succ_lt hn)).2

theorem scAt1_first (c : Dev nD) (t : Fin cfg1.N) (h : t.val % 8 = 0) :
    scAt1 V c t.val t.isLt = (k1_pay1 (k1_pay8 (iblk1 V c 0 t) (iblk1 V c 1 t) k1_pay4), k1_pay2 (k1_pay6 (iblk1 V c 2 t)) (k1_pay7 (iblk1 V c 0 t) (iblk1 V c 1 t)) k1_pay5) := by
  obtain ⟨n, hn⟩ := t
  cases n with
  | zero => rfl
  | succ n => exact (if_pos h).trans rfl

theorem scAt1_next (c : Dev nD) (t : Fin cfg1.N) (h : t.val % 8 ≠ 0) :
    scAt1 V c t.val t.isLt = (k1_pay1 (k1_pay8 (iblk1 V c 0 t) (iblk1 V c 1 t) (scAt1 V c (t.val - 1) (Nat.lt_of_le_of_lt (Nat.sub_le _ _) t.isLt)).1), k1_pay2 (k1_pay6 (iblk1 V c 2 t)) (k1_pay7 (iblk1 V c 0 t) (iblk1 V c 1 t)) (scAt1 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The scratch operands and the region's invariant -/

/-- The row sums' buffer, passed whole beside the windows. -/
abbrev scL1 : Memref sig .tc .vmem S1024x1 .f32 := Memref.whole cc1_scratch0
/-- The accumulator's buffer, passed whole beside the windows. -/
abbrev scA1 : Memref sig .tc .vmem S1024x64 .f32 := Memref.whole cc1_scratch1

/-- The core's scoped buffers that are neither a staging buffer of this region nor one of its two scratch
    buffers (the other regions' staging buffers), each whole at some contents: the body never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The region invariant before position `n`: before the first point every scoped buffer outside the staging
    buffers is at anything; afterwards the two scratch buffers are at what the point before left in them, the
    other buffers still at anything, and the generator register at some state. -/
def PhiS1 (c : Dev nD) : (n : ℕ) → n ≤ cfg1.N → sProp 𝕄
  | 0, _ => Pipeline.ΦA spec1 c
  | n + 1, hn => iprop(iprop(owns (c : Thread nD τ) scL1 fullShare (scAt1 V c n hn).1 ∗ owns (c : Thread nD τ) scA1 fullShare (scAt1 V c n hn).2 ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scL1 fullShare (scAt1 V c n hn).1 ∗ owns (c : Thread nD τ) scA1 fullShare (scAt1 V c n hn).2 ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scL1 fullShare (scAt1 V c (n - 1) (by omega)).1 ∗ owns (c : Thread nD τ) scA1 fullShare (scAt1 V c (n - 1) (by omega)).2 ∗ others1 (F := F) c) ∗ (∃ r, prngReg c r)) := by
  cases n with
  | zero => exact absurd rfl hz
  | succ n => rfl

/-! ## The pipeline's proof data -/

/-- The proof data of region 1 on core `c`: the arrays as the region finds them; after the body at point `t` each
    input's buffer at its block and the output's at the block computed from the carried state at `t` (what is
    stored where the second coordinate is 7; elsewhere the window is idle and nothing consults it); the tracked
    invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (scAt1 V c t.val t.isLt).2 (scAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) (h : t.val % 8 = 7) : (dat1 V c).after 3 t = k1_pay3 (scAt1 V c t.val t.isLt).2 (scAt1 V c t.val t.isLt).1 := by
  dsimp only [dat1]

/-! ## The body's two conditions on the coordinates -/

/-- The reset condition of the body (its first conditional): the second coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The output condition of the body (its second conditional): the second coordinate is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Whole-buffer accesses: the unit rectangle at zero offsets -/

/-- The zero offsets of a rank-2 access, as the printed program spells them. -/
theorem hz2 : (![0, 0] : Fin 2 → ℕ) = fun _ => 0 := by
  funext a; fin_cases a <;> rfl

section Whole

variable {S : Shape} {e : EltTy} {off : Fin S.rank → Nat}

/-- A load through the whole-shape rectangle at zero offsets reads the contents. -/
theorem ld_whole (h : off = fun _ => 0) (inb : ∀ a, off a + S.size a ≤ S.size a) (X : S.Idx → Elt F e) :
    View.ld X (Rect.unit off S.size inb) = X := by
  subst h; funext x; show X ((Rect.whole S).emb x) = X x; rw [Rect.emb_whole_apply]

/-- Every index lies in the whole-shape rectangle. -/
theorem mem_whole (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A whole-shape store, the last of a list of stores, leaves its payload whatever the earlier stores were. -/
theorem canon_whole_last (h : off = fun _ => 0) (inb : ∀ a, off a + S.size a ≤ S.size a) (w : S.Idx → Elt F e)
    (L : List (View.Piece (Elt F) S e)) :
    View.canon ((⟨Rect.unit off S.size inb, w⟩ : View.Piece (Elt F) S e) :: L) = w := by
  subst h; funext y
  have e := View.canon_cons_emb (Val := Elt F) (Rect.whole S) w L y
  rw [Rect.emb_whole_apply] at e
  exact e

/-- Read back through any view, the contents after a whole-shape store (the last of a list) are its payload,
    whatever the buffer held before. -/
theorem read_writes_whole_last {sg : RefSig} {κ : Kind} {sp : Space} (v : View sg κ sp S e) (f : v.ty.Contents (Elt F))
    (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., mem_whole h inb y⟩), canon_whole_last h inb]

/-- A whole-shape load after a whole-shape store (the last of a list) reads the store's payload. -/
theorem readCov_whole_last {sg : RefSig} {κ : Kind} {sp : Space} (v : View sg κ sp S e)
    (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self .., mem_whole h inb y⟩), canon_whole_last h inb, ld_whole h inb]

end Whole

/-! ## The body's triple in each of its three control cases

Stated over arbitrary whole memrefs and read contents; the two conditions are decided by the case's hypotheses. -/

set_option maxHeartbeats 1000000 in
/-- The body at a point whose second coordinate is 0 (and not 7), on whole memrefs: the inputs at their contents, the
    output buffer at contents it hands back untouched, the two scratch buffers at anything. Both scratch buffers are
    zeroed, then updated from the query, key and value blocks: the row sums end at the update of the zero column, the
    accumulator at the update of the zero block. Each whole-buffer store overwrites what the buffer held, and each
    whole-buffer load after it reads the stored payload. -/
theorem attn_first (c : Dev nD) (E : Set ℕ) (i : grid1.Coords)
    (arg2 : Memref sig .tc .vmem S1024x64 .f32) (harg2 : arg2.IsWhole) (arg3 : Memref sig .tc .vmem S2048x64 .f32) (harg3 : arg3.IsWhole)
    (arg4 : Memref sig .tc .vmem S2048x64 .bf16) (harg4 : arg4.IsWhole) (arg5 : Memref sig .tc .vmem S1024x64 .f32) (harg5 : arg5.IsWhole)
    (arg6 : Memref sig .tc .vmem S1024x1 .f32) (harg6 : arg6.IsWhole) (arg7 : Memref sig .tc .vmem S1024x64 .f32) (harg7 : arg7.IsWhole)
    (hc0 : cond1_0 i) (hc1 : ¬cond1_1 i)
    (xq : Vec F S1024x64 .f32) (xk : Vec F S2048x64 .f32) (xv : Vec F S2048x64 .bf16) (xo : Vec F S1024x64 .f32) (K : PUnit → sProp 𝕄) :
    iprop(owns (c : Thread nD τ) arg2 fullShare xq ∗ owns (c : Thread nD τ) arg3 fullShare xk ∗ owns (c : Thread nD τ) arg4 fullShare xv
        ∗ owns (c : Thread nD τ) arg5 fullShare xo ∗ (∃ d, owns (c : Thread nD τ) arg6 fullShare d) ∗ (∃ d, owns (c : Thread nD τ) arg7 fullShare d)
        ∗ (iprop(owns (c : Thread nD τ) arg2 fullShare xq ∗ owns (c : Thread nD τ) arg3 fullShare xk ∗ owns (c : Thread nD τ) arg4 fullShare xv
            ∗ owns (c : Thread nD τ) arg5 fullShare xo
            ∗ owns (c : Thread nD τ) arg6 fullShare (k1_pay1 (k1_pay8 xq xk k1_pay4))
            ∗ owns (c : Thread nD τ) arg7 fullShare (k1_pay2 (k1_pay6 xv) (k1_pay7 xq xk) k1_pay5)) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf2 hf3 hf4 hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [read_writes_whole_last _ _ hz2]
    simp only [View.readAt_eq_ld, ld_whole (S := S1024x64) hz2, ld_whole (S := S2048x64) hz2, ld_whole (S := S1024x1) hz2, readCov_whole_last (S := S1024x64) _ hz2, readCov_whole_last (S := S1024x1) _ hz2]
  iexists _; isplitr
  swap; · iexact H7
  ipureintro
  sl_unfold_words
  rw [read_writes_whole_last _ _ hz2]
  simp only [View.readAt_eq_ld, ld_whole (S := S1024x64) hz2, ld_whole (S := S2048x64) hz2, ld_whole (S := S1024x1) hz2, readCov_whole_last (S := S1024x64) _ hz2, readCov_whole_last (S := S1024x1) _ hz2]

set_option maxHeartbeats 1000000 in
/-- The body at a point whose second coordinate is neither 0 nor 7, on whole memrefs: the inputs at their contents,
    the output buffer handed back untouched, the row sums at `l` and the accumulator at `a` as the point before left
    them. They end at one update of `l` and `a` from the query, key and value blocks. -/
theorem attn_mid (c : Dev nD) (E : Set ℕ) (i : grid1.Coords)
    (arg2 : Memref sig .tc .vmem S1024x64 .f32) (harg2 : arg2.IsWhole) (arg3 : Memref sig .tc .vmem S2048x64 .f32) (harg3 : arg3.IsWhole)
    (arg4 : Memref sig .tc .vmem S2048x64 .bf16) (harg4 : arg4.IsWhole) (arg5 : Memref sig .tc .vmem S1024x64 .f32) (harg5 : arg5.IsWhole)
    (arg6 : Memref sig .tc .vmem S1024x1 .f32) (harg6 : arg6.IsWhole) (arg7 : Memref sig .tc .vmem S1024x64 .f32) (harg7 : arg7.IsWhole)
    (hc0 : ¬cond1_0 i) (hc1 : ¬cond1_1 i)
    (xq : Vec F S1024x64 .f32) (xk : Vec F S2048x64 .f32) (xv : Vec F S2048x64 .bf16) (xo : Vec F S1024x64 .f32) (l : Vec F S1024x1 .f32) (a : Vec F S1024x64 .f32) (K : PUnit → sProp 𝕄) :
    iprop(owns (c : Thread nD τ) arg2 fullShare xq ∗ owns (c : Thread nD τ) arg3 fullShare xk ∗ owns (c : Thread nD τ) arg4 fullShare xv
        ∗ owns (c : Thread nD τ) arg5 fullShare xo ∗ owns (c : Thread nD τ) arg6 fullShare l ∗ owns (c : Thread nD τ) arg7 fullShare a
        ∗ (iprop(owns (c : Thread nD τ) arg2 fullShare xq ∗ owns (c : Thread nD τ) arg3 fullShare xk ∗ owns (c : Thread nD τ) arg4 fullShare xv
            ∗ owns (c : Thread nD τ) arg5 fullShare xo
            ∗ owns (c : Thread nD τ) arg6 fullShare (k1_pay1 (k1_pay8 xq xk l))
            ∗ owns (c : Thread nD τ) arg7 fullShare (k1_pay2 (k1_pay6 xv) (k1_pay7 xq xk) a)) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2 hf3 hf4 hf5 hf6 hf7
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [read_writes_whole_last _ _ hz2]
    simp only [View.readAt_eq_ld, ld_whole (S := S1024x64) hz2, ld_whole (S := S2048x64) hz2, ld_whole (S := S1024x1) hz2, readCov_whole_last (S := S1024x64) _ hz2, readCov_whole_last (S := S1024x1) _ hz2]
  iexists _; isplitr
  swap; · iexact H7
  ipureintro
  sl_unfold_words
  rw [read_writes_whole_last _ _ hz2]
  simp only [View.readAt_eq_ld, ld_whole (S := S1024x64) hz2, ld_whole (S := S2048x64) hz2, ld_whole (S := S1024x1) hz2, readCov_whole_last (S := S1024x64) _ hz2, readCov_whole_last (S := S1024x1) _ hz2]

set_option maxHeartbeats 1000000 in
/-- The body at a point whose second coordinate is 7 (and not 0), on whole memrefs: the inputs at their contents,
    the output buffer at anything, the row sums at `l` and the accumulator at `a`. The scratch buffers end at one
    update of `l` and `a`, and the output buffer at the block computed from the updated accumulator and row sums
    (loaded back after their stores, so read as the stored payloads). -/
theorem attn_last (c : Dev nD) (E : Set ℕ) (i : grid1.Coords)
    (arg2 : Memref sig .tc .vmem S1024x64 .f32) (harg2 : arg2.IsWhole) (arg3 : Memref sig .tc .vmem S2048x64 .f32) (harg3 : arg3.IsWhole)
    (arg4 : Memref sig .tc .vmem S2048x64 .bf16) (harg4 : arg4.IsWhole) (arg5 : Memref sig .tc .vmem S1024x64 .f32) (harg5 : arg5.IsWhole)
    (arg6 : Memref sig .tc .vmem S1024x1 .f32) (harg6 : arg6.IsWhole) (arg7 : Memref sig .tc .vmem S1024x64 .f32) (harg7 : arg7.IsWhole)
    (hc0 : ¬cond1_0 i) (hc1 : cond1_1 i)
    (xq : Vec F S1024x64 .f32) (xk : Vec F S2048x64 .f32) (xv : Vec F S2048x64 .bf16) (l : Vec F S1024x1 .f32) (a : Vec F S1024x64 .f32) (K : PUnit → sProp 𝕄) :
    iprop(owns (c : Thread nD τ) arg2 fullShare xq ∗ owns (c : Thread nD τ) arg3 fullShare xk ∗ owns (c : Thread nD τ) arg4 fullShare xv
        ∗ (∃ d, owns (c : Thread nD τ) arg5 fullShare d) ∗ owns (c : Thread nD τ) arg6 fullShare l ∗ owns (c : Thread nD τ) arg7 fullShare a
        ∗ (iprop(owns (c : Thread nD τ) arg2 fullShare xq ∗ owns (c : Thread nD τ) arg3 fullShare xk ∗ owns (c : Thread nD τ) arg4 fullShare xv
            ∗ owns (c : Thread nD τ) arg5 fullShare (k1_pay3 (k1_pay2 (k1_pay6 xv) (k1_pay7 xq xk) a) (k1_pay1 (k1_pay8 xq xk l)))
            ∗ owns (c : Thread nD τ) arg6 fullShare (k1_pay1 (k1_pay8 xq xk l))
            ∗ owns (c : Thread nD τ) arg7 fullShare (k1_pay2 (k1_pay6 xv) (k1_pay7 xq xk) a)) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf2 hf3 hf4 hf6 hf7
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [read_writes_whole_last _ _ hz2]
    simp only [View.readAt_eq_ld, ld_whole (S := S1024x64) hz2, ld_whole (S := S2048x64) hz2, ld_whole (S := S1024x1) hz2, readCov_whole_last (S := S1024x64) _ hz2, readCov_whole_last (S := S1024x1) _ hz2]
  isplitl [H6]
  · iexists _; isplitr
    swap; · iexact H6
    ipureintro
    sl_unfold_words
    rw [read_writes_whole_last _ _ hz2]
    simp only [View.readAt_eq_ld, ld_whole (S := S1024x64) hz2, ld_whole (S := S2048x64) hz2, ld_whole (S := S1024x1) hz2, readCov_whole_last (S := S1024x64) _ hz2, readCov_whole_last (S := S1024x1) _ hz2]
  iexists _; isplitr
  swap; · iexact H7
  ipureintro
  sl_unfold_words
  rw [read_writes_whole_last _ _ hz2]
  simp only [View.readAt_eq_ld, ld_whole (S := S1024x64) hz2, ld_whole (S := S2048x64) hz2, ld_whole (S := S1024x1) hz2, readCov_whole_last (S := S1024x64) _ hz2, readCov_whole_last (S := S1024x1) _ hz2]

/-- What the launch hands the region, with the two scratch buffers singled out as memrefs owned at some contents
    and the other scoped buffers gathered. -/
theorem PhiA1_eq (c : Dev nD) :
    (Pipeline.ΦA spec1 c : sProp 𝕄)
      = iprop(iprop((∃ d, owns (c : Thread nD τ) scL1 fullShare d) ∗ (∃ d, owns (c : Thread nD τ) scA1 fullShare d) ∗ others1 (F := F) c) ∗ (∃ r, prngReg c r)) := by
  unfold Pipeline.ΦA; rw [scopedRest1_eq]; simp only [scL1, scA1, owns_whole]; unfold others1
  refine BI.equiv_iff.mp ⟨?_, ?_⟩
  · show (_ : sProp 𝕄) ⊢ (_ : sProp 𝕄)
    iintro ⟨⟨B1, B2, B3, B4, B5, B6, B7, B8, B9, B10, B11, B12, B13, B14, HL, HA, C1, C2, C3, C4, C5, C6⟩, Hg⟩
    isplitr [Hg]
    · isplitl [HL]; · iexact HL
      isplitl [HA]; · iexact HA
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      isplitl [B13]; · iexact B13
      isplitl [B14]; · iexact B14
      isplitl [C1]; · iexact C1
      isplitl [C2]; · iexact C2
      isplitl [C3]; · iexact C3
      isplitl [C4]; · iexact C4
      isplitl [C5]; · iexact C5
      iexact C6
    · iexact Hg
  · show (_ : sProp 𝕄) ⊢ (_ : sProp 𝕄)
    iintro ⟨⟨HL, HA, B1, B2, B3, B4, B5, B6, B7, B8, B9, B10, B11, B12, B13, B14, C1, C2, C3, C4, C5, C6⟩, Hg⟩
    isplitr [Hg]
    · isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      isplitl [B13]; · iexact B13
      isplitl [B14]; · iexact B14
      isplitl [HL]; · iexact HL
      isplitl [HA]; · iexact HA
      isplitl [C1]; · iexact C1
      isplitl [C2]; · iexact C2
      isplitl [C3]; · iexact C3
      isplitl [C4]; · iexact C4
      isplitl [C5]; · iexact C5
      iexact C6
    · iexact Hg

/-! ## What the body finds in the windows' buffers, and where the output window is idle -/

/-- Each input's current staging buffer holds its block at every point, fetched there or not (unfetched, the
    block index has not moved: the query block is fetched only where the second coordinate is 0). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second coordinate is not 7 the output window is idle (the body stores nothing into it) -/
theorem idleAt1_3 : ∀ t : Fin cfg1.N, ¬cond1_1 (grid1.coords t) → cfg1.idle 3 (grid1.coords t) = true := by decide +kernel
/-- and its block is not written back; -/
theorem noFlush1_3 : ∀ t : Fin cfg1.N, ¬cond1_1 (grid1.coords t) → (cfg1.win 3).flush t = false := by decide +kernel
/-- where it is 7 the window is live. -/
theorem liveAt1_3 : ∀ t : Fin cfg1.N, cond1_1 (grid1.coords t) → cfg1.idle 3 (grid1.coords t) = false := by decide +kernel

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' buffers hold their blocks; the closed forms of the two conditions say
    which of the three cases the point is in; the invariant hands the body the two scratch buffers (at anything
    at the first point, else at what the point before left) and takes them back at this point's contents; the
    output window is handed back untouched where it is idle and at the stored block where the second
    coordinate is 7; the other scoped buffers, the generator register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 128 := lt_of_lt_of_eq t.isLt (show cfg1.N = 128 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [scAt1_first V c t h0]; dsimp only
    by_cases hz : t.val = 0
    · rw [PhiS1_castSucc V c t, PhiS1_zero V c _ _ hz, PhiA1_eq]
      iintro ⟨⟨⟨HL, HA, HR⟩, Hg⟩, Ho, ⟨%d0, H0⟩, ⟨%d1, H1⟩, ⟨%d2, H2⟩, ⟨%d3, H3⟩⟩
      iapply (attn_first c Set.univ (grid1.coords t) _ _ _ _ _ _ _ _ _ _ _ _ hc0 hc1 (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HL]; · iexact HL
      isplitl [HA]; · iexact HA
      iintro ⟨H0, H1, H2, H3, HL, HA⟩
      isplitl [HL HA HR Hg]
      · isplitr [Hg]
        · isplitl [HL]; · iexact HL
          isplitl [HA]; · iexact HA
          iexact HR
        · iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HL, HA, HR⟩, Hg⟩, Ho, ⟨%d0, H0⟩, ⟨%d1, H1⟩, ⟨%d2, H2⟩, ⟨%d3, H3⟩⟩
      iapply (attn_first c Set.univ (grid1.coords t) _ _ _ _ _ _ _ _ _ _ _ _ hc0 hc1 (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HL]; · iexists _; iexact HL
      isplitl [HA]; · iexists _; iexact HA
      iintro ⟨H0, H1, H2, H3, HL, HA⟩
      isplitl [HL HA HR Hg]
      · isplitr [Hg]
        · isplitl [HL]; · iexact HL
          isplitl [HA]; · iexact HA
          iexact HR
        · iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3 V c t h1]
      rw [scAt1_next V c t h0]; dsimp only
      rw [PhiS1_castSucc V c t, PhiS1_pos V c _ _ hz]
      iintro ⟨⟨⟨HL, HA, HR⟩, Hg⟩, Ho, ⟨%d0, H0⟩, ⟨%d1, H1⟩, ⟨%d2, H2⟩, ⟨%d3, H3⟩⟩
      iapply (attn_last c Set.univ (grid1.coords t) _ _ _ _ _ _ _ _ _ _ _ _ hc0 hc1 (iblk1 V c 0 t) (iblk1 V c 1 t) (iblk1 V c 2 t) _ _ _)
      isplitl [H0]; · iexact H0
      isplitl [H1]; · iexact H1
      isplitl [H2]; · iexact H2
      isplitl [H3]; · iexists _; iexact H3
      isplitl [HL]; · iexact HL
      isplitl [HA]; · iexact HA
      iintro ⟨H0, H1, H2, H3, HL, HA⟩
      isplitl [HL HA HR Hg]
      · isplitr [Hg]
        · isplitl [HL]; · iexact HL
          isplitl [HA]; · iexact HA
          iexact HR
        · iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      rw [scAt1_next V c t h0]; dsimp only
      rw [PhiS1_castSucc V c t, PhiS1_pos V c _ _ hz]
      iintro ⟨⟨⟨HL, HA, HR⟩, Hg⟩, Ho, ⟨%d0, H0⟩, ⟨%d1, H1⟩, ⟨%d2, H2⟩, ⟨%d3, H3⟩⟩
      iapply (attn_mid c Set.univ (grid1.coords t) _ _ _ _ _ _ _ _ _ _ _ _ hc0 hc1 (iblk1 V c 0 t) (iblk1 V c 1 t) (iblk1 V c 2 t) ((dat1 V c).before 3 t d3) _ _ _)
      isplitl [H0]; · iexact H0
      isplitl [H1]; · iexact H1
      isplitl [H2]; · iexact H2
      isplitl [H3]; · iexact H3
      isplitl [HL]; · iexact HL
      isplitl [HA]; · iexact HA
      iintro ⟨H0, H1, H2, H3, HL, HA⟩
      isplitl [HL HA HR Hg]
      · isplitr [Hg]
        · isplitl [HL]; · iexact HL
          isplitl [HA]; · iexact HA
          iexact HR
        · iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA (U := UR sig nD τ) spec1 c ⊢ (dat1 (F := F) V c).Φ 0 := by
  rw [show (dat1 V c).Φ 0 = PhiS1 V c 0 (Nat.zero_le _) from rfl, PhiS1_zero V c 0 _ rfl]

/-- After any point the invariant gives the launch's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HL, HA, HR⟩, Hg⟩
  isplitr [Hg]
  · isplitl [HL]; · iexists _; iexact HL
    isplitl [HA]; · iexists _; iexact HA
    iexact HR
  · iexact Hg

/-- The same after the last point. -/
theorem hout1 (c : Dev nD) : (dat1 (F := F) V c).Φ (Fin.last cfg1.N) ⊢ Pipeline.ΦA (U := UR sig nD τ) spec1 c :=
  Phi_out1 V c _ (by rw [Fin.val_last]; have : cfg1.N = 128 := N_1; omega)

end Cert.KernelIdeal.Hand

end
-- ==== Proof.OutRegion.lean ====
/- REGION 2 of @main: the output projection. At each of the 4 grid points the body reads a 512-row block of the
   attended rows, the whole 512x512 weight matrix and the 1x512 bias from their staging buffers, forms
   (rows rounded to bf16) · (weights rounded to bf16) accumulated in f32 plus the bias broadcast down the rows,
   and stores that 512x512 block whole into the output's staging buffer. Stated at the buffer contents V that the
   region is entered with, generically in the float instance. -/
import proofs.«423754_j5703716569513_3_alg».proof.Proof.Gen.KernelIdeal.Launch
import proofs.«423754_j5703716569513_3_alg».proof.Proof.Gen.KernelIdeal.Skeleton
import proofs.«423754_j5703716569513_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: every declaration below is stated at this parameter
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The attended rows' current staging buffer holds their block at every point (it is fetched at every point), for
    any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix's staging buffer holds the matrix at every point: fetched at the first point, and at a later
    one the block index has not moved (it is constant), so what the body left in place is still that block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row's staging buffer holds the row at every point, for the same reason. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole -/

/-- The whole 512x512 buffer as a rectangle. -/
abbrev rSq : Rect S512x512 := Rect.unit (s := S512x512) ![0, 0] S512x512.size inb_S512x512_S512x512_0_0
/-- The whole 1x512 buffer as a rectangle. -/
abbrev rRow : Rect S1x512 := Rect.unit (s := S1x512) ![0, 0] S1x512.size inb_S1x512_S1x512_0_0

/-! ## What the body leaves in the output window's buffer -/

/-- The output's staging buffer after the body, from the three input blocks: its one whole-buffer store of
    bf16(rows) · bf16(weights) + bias. -/
def out2_3 (x0 w1 : Vec F S512x512 .f32) (b2 : Vec F S1x512 .f32) : Vec F S512x512 .f32 :=
  View.canon [⟨rSq, k2_pay1 (View.ld x0 rSq) (View.ld w1 rSq) (View.ld b2 rRow)⟩]

/-- The one store is the whole buffer, so it covers it. -/
theorem cover2_3 (p0 : Vec F S512x512 .f32) (y : S512x512.Idx) :
    ∃ pc ∈ ([⟨rSq, p0⟩] : List (View.Piece (Elt F) S512x512 .f32)), y ∈ pc.1.set :=
  View.cover_of_tiled [⟨rSq, p0⟩] S512x512.size (by rfl) y

/-! ## The body's triple -/

set_option maxHeartbeats 1000000 in
/-- The body on whole staging memrefs, the three inputs' at read contents and the output's at anything, runs to the
    continuation holding the inputs' as they were and the output's at `out2_3` of the inputs'. -/
theorem sound_kernel2 (c : Dev nD) (E : Set ℕ) (i : grid2.Coords)
    (arg1 : Memref sig .tc .vmem S512x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (x0 w1 : Vec F S512x512 .f32) (b2 : Vec F S1x512 .f32) (K : PUnit → sProp 𝕄) :
    iprop(owns (c : Thread nD τ) arg1 fullShare x0 ∗ owns (c : Thread nD τ) arg2 fullShare w1 ∗ owns (c : Thread nD τ) arg3 fullShare b2
        ∗ (∃ d, owns (c : Thread nD τ) arg4 fullShare d)
        ∗ (iprop(owns (c : Thread nD τ) arg1 fullShare x0 ∗ owns (c : Thread nD τ) arg2 fullShare w1 ∗ owns (c : Thread nD τ) arg3 fullShare b2
            ∗ owns (c : Thread nD τ) arg4 fullShare (out2_3 x0 w1 b2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region on core `c`: the arrays as the region finds them; after the body at point `t`
    each input's buffer at its block and the output's at `out2_3` of the three input blocks; the class invariant;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by
  dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Segments.lean ====
/-
  @main's run, region by region. Between two items of @main every unscoped buffer of the TensorCore holds a known
  array: the launch memory, then what each stretch of host operations computes from it, then — for the arrays a
  kernel region writes — what the region's write-backs leave (every other buffer as the region found it). The three
  kernel regions enter the pipeline with their arrays split out of those buffers and leave with them put back; the
  carried scratch of the attention region is named only inside that region. The run ends with every unscoped buffer
  at the last of these valuations, from which both "the arguments are unchanged" and the result's contents are read.
-/
import proofs.«423754_j5703716569513_3_alg».proof.Proof.ProjRegion
import proofs.«423754_j5703716569513_3_alg».proof.Proof.AttnRegion
import proofs.«423754_j5703716569513_3_alg».proof.Proof.OutRegion
import proofs.«423754_j5703716569513_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- At launch. -/
abbrev W0 : Dev nD → Valuation τ sig (Elt F) := fun c b => (s₀ m ρ).mem ((c : Dev nD), b)
/-- After the first host stretch: the four rank-4 weights multiplied out and transposed, x and the biases reshaped. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its three outputs at what its write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: q, k, v read as 16384 rows of 64. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region: the attended rows at what its write-backs leave. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch: the attended rows read as 2048 rows of 512, the output bias reshaped. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the output-projection region. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the result reshaped to [2, 1024, 512]. -/
abbrev W7 : Dev nD → Valuation τ sig (Elt F) := fun c => StableHlo.after hostOps3 (W6 m ρ c)

/-- A buffer that no host stretch writes and that is no array of any region holds its launch contents at the end. -/
theorem W7_untouched (c : Dev nD) (b : Ref sig .tc)
    (h0 : b ∉ hostOps0_W) (h1 : ∀ w, Pipeline.arrRef spec0 w ≠ b) (h2 : b ∉ hostOps1_W) (h3 : ∀ w, Pipeline.arrRef spec1 w ≠ b)
    (h4 : b ∉ hostOps2_W) (h5 : ∀ w, Pipeline.arrRef spec2 w ≠ b) (h6 : b ∉ hostOps3_W) :
    W7 m ρ c (Proc.devRef .tc b) = m ((c : Thread nD τ).loc b) :=
  calc W7 m ρ c (Proc.devRef .tc b)
    _ = W6 m ρ c (Proc.devRef .tc b) := StableHlo.after_of_writes_sub hostOps3 _ hostOps3_writes h6
    _ = W5 m ρ c (Proc.devRef .tc b) := W6_of_ne m ρ c b h5
    _ = W4 m ρ c (Proc.devRef .tc b) := StableHlo.after_of_writes_sub hostOps2 _ hostOps2_writes h4
    _ = W3 m ρ c (Proc.devRef .tc b) := W4_of_ne m ρ c b h3
    _ = W2 m ρ c (Proc.devRef .tc b) := StableHlo.after_of_writes_sub hostOps1 _ hostOps1_writes h2
    _ = W1 m ρ c (Proc.devRef .tc b) := W2_of_ne m ρ c b h1
    _ = W0 m ρ c (Proc.devRef .tc b) := StableHlo.after_of_writes_sub hostOps0 _ hostOps0_writes h0
    _ = m ((c : Thread nD τ).loc b) := rfl

theorem W7_main_arg0 (c : Dev nD) : W7 m ρ c (Proc.devRef .tc main_arg0) = m ((c : Thread nD τ).loc main_arg0) :=
  W7_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_untouched m ρ c main_arg5 (by decide) (by decide) (by decide) (by decide) (by decide) (by decide) (by decide)
theorem W7_main_arg6 (c : Dev nD) : W7 m ρ c (Proc.devRef .tc main_arg6) = m ((c : Thread nD τ).loc main_arg6) :=
  W7_untouched m ρ c main_arg6 (by decide) (by decide) (by decide) (by decide) (by decide) (by decide) (by decide)
theorem W7_main_arg7 (c : Dev nD) : W7 m ρ c (Proc.devRef .tc main_arg7) = m ((c : Thread nD τ).loc main_arg7) :=
  W7_untouched m ρ c main_arg7 (by decide) (by decide) (by decide) (by decide) (by decide) (by decide) (by decide)
theorem W7_main_arg8 (c : Dev nD) : W7 m ρ c (Proc.devRef .tc main_arg8) = m ((c : Thread nD τ).loc main_arg8) :=
  W7_untouched m ρ c main_arg8 (by decide) (by decide) (by decide) (by decide) (by decide) (by decide) (by decide)
theorem W7_main_arg9 (c : Dev nD) : W7 m ρ c (Proc.devRef .tc main_arg9) = m ((c : Thread nD τ).loc main_arg9) :=
  W7_untouched m ρ c main_arg9 (by decide) (by decide) (by decide) (by decide) (by decide) (by decide) (by decide)
theorem W7_main_arg10 (c : Dev nD) : W7 m ρ c (Proc.devRef .tc main_arg10) = m ((c : Thread nD τ).loc main_arg10) :=
  W7_untouched m ρ c main_arg10 (by decide) (by decide) (by decide) (by decide) (by decide) (by decide) (by decide)
theorem W7_main_arg11 (c : Dev nD) : W7 m ρ c (Proc.devRef .tc main_arg11) = m ((c : Thread nD τ).loc main_arg11) :=
  W7_untouched m ρ c main_arg11 (by decide) (by decide) (by decide) (by decide) (by decide) (by decide) (by decide)
theorem W7_main_arg12 (c : Dev nD) : W7 m ρ c (Proc.devRef .tc main_arg12) = m ((c : Thread nD τ).loc main_arg12) :=
  W7_untouched m ρ c main_arg12 (by decide) (by decide) (by decide) (by decide) (by decide) (by decide) (by decide)

/-! ## The proof data of the three pipelines and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The projection region: entered from `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from `W3`, left at `W4`; inside, the invariant names what the two scratch buffers
    hold after each point, from the class invariant before the first point back to it after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    exact (hout1 (V3 m ρ) c).trans (show Pipeline.ΦA (U := UR sig nD τ) spec1 c ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output-projection region: entered from `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch, leaving the thread state the run ends at. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every unscoped buffer of every core at the last valuation `W7`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: the thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c)⟩) (run_main m ρ)

/-- The run with the result named: the result array ends at `W7`'s contents, the arguments as launched. -/
theorem run_value : θ_run defs (onTc (τ := τ) (main (F := F))) ⟨m, fun _ => 0, ρ⟩ (fun r => ∀ c : Dev nD,
      r.2.mem ((c.tc : Thread nD τ).loc main_v20) = W7 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v20 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c)⟩) (run_main m ρ)

end Cert.KernelIdeal.Hand

end
-- ==== Proof.Spec.lean ====
/-
  The mathematics both programs compute, stated once over the extended reals, index by index, with matrices as
  curried functions of their coordinates.

  A rank-4 weight is W[o,d] = Σ_k A[o,k]·B[k,d]; a projection is y[r,o] = Σ_d x[r,d]·W[o,d] + b[o] over the 2048
  rows r = batch·1024 + position. The three projections q, k, v are read as 16384 rows of 64 entries (row n is the
  h-th group of 64 columns of row n / 8, h = n % 8). Every row is divided by its Euclidean norm plus ε. Row n
  attends to every row j with weight proportional to exp(score n j), where the score is the inner product of the
  two normalised rows divided by 8; the attended row is the weighted mean of the value rows. Two spellings of
  that mean are stated: the kernel's, which folds the 1/8 into the normalised query, subtracts the fixed shift
  13/100 inside the exponential and divides the weighted sum by the sum of the weights at the end; and the
  reference's, which divides the inner product by 8, subtracts a per-row shift (its row maximum) and normalises
  the weights before summing. The attended row is then squared entrywise and divided by its sum plus ε, the rows
  are read back as 2048 rows of 512, and projected once more.
-/
import Idealize.ShloMosaic.PureOps.Ideal

noncomputable section

namespace Cert.Spec

open Idealize.ShloMosaic

/-- The three float constants the programs spell, as the extended reals their patterns denote. -/
abbrev eps : EReal := Ideal.ofBits .f32 0x322BCC77#32
abbrev eighth : EReal := Ideal.ofBits .f32 0x3E000000#32
abbrev eight : EReal := Ideal.ofBits .f32 0x41000000#32
/-- The kernel's fixed shift inside the exponential. -/
abbrev shift : EReal := ((13 / 100 : ℝ) : EReal)

/-- W[o,d] = Σ_k A[o,k]·B[k,d]. -/
def weight (A : Fin 512 → Fin 4 → EReal) (B : Fin 4 → Fin 512 → EReal) (o d : Fin 512) : EReal :=
  ∑ k : Fin 4, A o k * B k d

/-- y[r,o] = Σ_d x[r,d]·W[o,d] + b[o]. -/
def proj (x : Fin 2048 → Fin 512 → EReal) (A : Fin 512 → Fin 4 → EReal) (B : Fin 4 → Fin 512 → EReal)
    (b : Fin 512 → EReal) (r : Fin 2048) (o : Fin 512) : EReal :=
  (∑ d : Fin 512, x r d * weight A B o d) + b o

/-- 2048 rows of 512 read as 16384 rows of 64. -/
def heads (y : Fin 2048 → Fin 512 → EReal) (n : Fin 16384) (e : Fin 64) : EReal :=
  y ⟨n.val / 8, by have := n.isLt; omega⟩ ⟨(n.val % 8) * 64 + e.val, by have := e.isLt; omega⟩

/-- 16384 rows of 64 read back as 2048 rows of 512. -/
def unheads (a : Fin 16384 → Fin 64 → EReal) (r : Fin 2048) (o : Fin 512) : EReal :=
  a ⟨r.val * 8 + o.val / 64, by have := r.isLt; have := o.isLt; omega⟩ ⟨o.val % 64, Nat.mod_lt _ (by norm_num)⟩

/-- The Euclidean norm of row n, plus ε. -/
def norm (q : Fin 16384 → Fin 64 → EReal) (n : Fin 16384) : EReal :=
  Ideal.sqrt (∑ e : Fin 64, q n e * q n e) + eps

/-- The kernel's score: the 1/8 folded into the normalised query row. -/
def scoreK (q k : Fin 16384 → Fin 64 → EReal) (n j : Fin 16384) : EReal :=
  ∑ e : Fin 64, (Ideal.div (q n e) (norm q n) * eighth) * Ideal.div (k j e) (norm k j)

/-- The kernel's unnormalised weight of row j for row n. -/
def weightK (q k : Fin 16384 → Fin 64 → EReal) (n j : Fin 16384) : EReal :=
  Ideal.exp (scoreK q k n j - shift)

/-- The kernel's attended row: the weighted sum of the value rows divided by the sum of the weights. -/
def attendK (q k v : Fin 16384 → Fin 64 → EReal) (n : Fin 16384) (e : Fin 64) : EReal :=
  Ideal.div (∑ j : Fin 16384, weightK q k n j * v j e) (∑ j : Fin 16384, weightK q k n j)

/-- The reference's score: the inner product of the normalised rows divided by 8. -/
def scoreR (q k : Fin 16384 → Fin 64 → EReal) (n j : Fin 16384) : EReal :=
  Ideal.div (∑ e : Fin 64, Ideal.div (q n e) (norm q n) * Ideal.div (k j e) (norm k j)) eight

/-- The reference's attended row, at a per-row shift mx: each weight normalised by the row's sum first. -/
def attendR (q k v : Fin 16384 → Fin 64 → EReal) (mx : Fin 16384 → EReal) (n : Fin 16384) (e : Fin 64) : EReal :=
  ∑ j : Fin 16384, Ideal.div (Ideal.exp (scoreR q k n j - mx n)) (∑ j' : Fin 16384, Ideal.exp (scoreR q k n j' - mx n)) * v j e

/-- Squared entries divided by their sum plus ε. -/
def measure (a : Fin 16384 → Fin 64 → EReal) (n : Fin 16384) (e : Fin 64) : EReal :=
  Ideal.div (a n e * a n e) ((∑ e' : Fin 64, a n e' * a n e') + eps)

/-- The whole computation with the kernel's spelling of the attended rows. -/
def outK (x : Fin 2048 → Fin 512 → EReal)
    (qA : Fin 512 → Fin 4 → EReal) (qB : Fin 4 → Fin 512 → EReal) (qb : Fin 512 → EReal)
    (kA : Fin 512 → Fin 4 → EReal) (kB : Fin 4 → Fin 512 → EReal) (kb : Fin 512 → EReal)
    (vA : Fin 512 → Fin 4 → EReal) (vB : Fin 4 → Fin 512 → EReal) (vb : Fin 512 → EReal)
    (oA : Fin 512 → Fin 4 → EReal) (oB : Fin 4 → Fin 512 → EReal) (ob : Fin 512 → EReal) :
    Fin 2048 → Fin 512 → EReal :=
  proj (unheads (measure (attendK (heads (proj x qA qB qb)) (heads (proj x kA kB kb)) (heads (proj x vA vB vb))))) oA oB ob

/-- The whole computation with the reference's spelling, at a per-row shift. -/
def outR (x : Fin 2048 → Fin 512 → EReal)
    (qA : Fin 512 → Fin 4 → EReal) (qB : Fin 4 → Fin 512 → EReal) (qb : Fin 512 → EReal)
    (kA : Fin 512 → Fin 4 → EReal) (kB : Fin 4 → Fin 512 → EReal) (kb : Fin 512 → EReal)
    (vA : Fin 512 → Fin 4 → EReal) (vB : Fin 4 → Fin 512 → EReal) (vb : Fin 512 → EReal)
    (oA : Fin 512 → Fin 4 → EReal) (oB : Fin 4 → Fin 512 → EReal) (ob : Fin 512 → EReal)
    (mx : Fin 16384 → EReal) : Fin 2048 → Fin 512 → EReal :=
  proj (unheads (measure (attendR (heads (proj x qA qB qb)) (heads (proj x kA kB kb)) (heads (proj x vA vB vb)) mx))) oA oB ob

/-- An array of reals: every entry is a real number (neither infinity). -/
def Real2 {a b : ℕ} (f : Fin a → Fin b → EReal) : Prop := ∀ i j, ∃ r : ℝ, f i j = (r : EReal)
def Real1 {a : ℕ} (f : Fin a → EReal) : Prop := ∀ i, ∃ r : ℝ, f i = (r : EReal)

end Cert.Spec

end
-- ==== Proof.Layout.lean ====
/-
  How the programs' arrays are read as the specification's matrices: the input x, an array [2, 1024, 512], as 2048
  rows r = batch·1024 + position of 512 entries; a rank-2 array by its two coordinates; a rank-1 array by its one
  coordinate; and 2048 rows of 512 written back as an array [2, 1024, 512].
-/
import proofs.«423754_j5703716569513_3_alg».proof.Proof.Spec
import Idealize.ShloMosaic.Lib.ValueIdx

noncomputable section

namespace Cert.Spec

open Idealize.ShloMosaic Idealize.ShloMosaic.ValueIdx

/-- An array [2, 1024, 512] read as 2048 rows of 512: row r is (r / 1024, r % 1024). -/
def rows3 (x : (⟨3, ![2, 1024, 512]⟩ : Shape).Idx → EReal) (r : Fin 2048) (d : Fin 512) : EReal :=
  x (ix3 (⟨r.val / 1024, by have := r.isLt; omega⟩ : Fin 2) (⟨r.val % 1024, Nat.mod_lt _ (by norm_num)⟩ : Fin 1024) d)

/-- A rank-2 array by its coordinates. -/
def mat {a b : ℕ} (A : (⟨2, ![a, b]⟩ : Shape).Idx → EReal) (i : Fin a) (j : Fin b) : EReal := A (ix2 i j)

/-- A rank-1 array by its coordinate. -/
def vec {a : ℕ} (v : (⟨1, ![a]⟩ : Shape).Idx → EReal) (i : Fin a) : EReal := v (ix1 i)

/-- 2048 rows of 512 as an array [2, 1024, 512]: entry (b, s, o) is row b·1024 + s, column o. -/
def unrows3 (f : Fin 2048 → Fin 512 → EReal) : (⟨3, ![2, 1024, 512]⟩ : Shape).Idx → EReal :=
  fun i => f ⟨(i 0).val * 1024 + (i 1).val, by have h0 : (i 0).val < 2 := (i 0).isLt; have h1 : (i 1).val < 1024 := (i 1).isLt; omega⟩
    ⟨(i 2).val, (i 2).isLt⟩

end Cert.Spec

end
-- ==== Proof.Dense.lean ====
/-
  One projection as the kernel's regions compute it: y[r,o] = Σ_d x[r,d]·Wt[d,o] + b[o], with the weight already
  transposed (Wt[d,o] = W[o,d]). With Wt the transposed rank-4 weight this is the specification's projection.
-/
import proofs.«423754_j5703716569513_3_alg».proof.Proof.Layout

noncomputable section

namespace Cert.Spec

/-- y[r,o] = Σ_d x[r,d]·Wt[d,o] + b[o]. -/
def dense2 (x : Fin 2048 → Fin 512 → EReal) (wt : Fin 512 → Fin 512 → EReal) (b : Fin 512 → EReal)
    (r : Fin 2048) (o : Fin 512) : EReal :=
  (∑ d : Fin 512, x r d * wt d o) + b o

/-- With the transposed rank-4 weight, it is the specification's projection. -/
theorem dense2_weight (x : Fin 2048 → Fin 512 → EReal) (A : Fin 512 → Fin 4 → EReal) (B : Fin 4 → Fin 512 → EReal)
    (b : Fin 512 → EReal) : dense2 x (fun d o => weight A B o d) b = proj x A B b := rfl

end Cert.Spec

end
-- ==== Proof.ProjValue.lean ====
/-
  What the projection region leaves in its three output arrays, read over the extended reals: each is the rows of
  its input times the (already transposed) weight plus the bias, row by row and column by column — the 512-row
  blocks the grid points write tile the 2048 rows.
-/
import proofs.«423754_j5703716569513_3_alg».proof.Proof.ProjRegion
import proofs.«423754_j5703716569513_3_alg».proof.Proof.Dense
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat Cfg Window)

-- the TensorCore's buffer contents when the region is entered, at the ideal instance
variable (V : (c : Dev nD) → (b : Ref sig .tc) → Buf (Elt Ideal) ((c : Thread nD τ).loc b))

/-! ## One entry of a projection's payload

The matrix unit contracts axis 1 of its left factor with axis 0 of its right factor: at output entry (p, q) and
contraction coordinate d it reads the left factor at (p, d) and the right factor at (d, q). -/

theorem proj_lhs_axis0 (i : S512x512.Idx) (k : dot_S512x512_S512x512_S512x512_1_0_0_1_n_n.contr.Idx) :
    (dot_S512x512_S512x512_S512x512_1_0_0_1_n_n.lhsIdx i k 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem proj_lhs_axis1 (i : S512x512.Idx) (k : dot_S512x512_S512x512_S512x512_1_0_0_1_n_n.contr.Idx) :
    (dot_S512x512_S512x512_S512x512_1_0_0_1_n_n.lhsIdx i k 1).val = (k ⟨0, by decide⟩).val :=
  dot_S512x512_S512x512_S512x512_1_0_0_1_n_n.lhsIdx_val_of_single rfl i k
theorem proj_rhs_axis0 (i : S512x512.Idx) (k : dot_S512x512_S512x512_S512x512_1_0_0_1_n_n.contr.Idx) :
    (dot_S512x512_S512x512_S512x512_1_0_0_1_n_n.rhsIdx i k 0).val = (k ⟨0, by decide⟩).val :=
  dot_S512x512_S512x512_S512x512_1_0_0_1_n_n.rhsIdx_val_of_single rfl i k
theorem proj_rhs_axis1 (i : S512x512.Idx) (k : dot_S512x512_S512x512_S512x512_1_0_0_1_n_n.contr.Idx) :
    (dot_S512x512_S512x512_S512x512_1_0_0_1_n_n.rhsIdx i k 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- One entry of a projection, over the extended reals: rounding to the narrower format changes nothing, the
    accumulator starts at zero, and the bias row is broadcast over the rows, so entry (p, q) is
    Σ_d x[p,d]·w[d,q] + b[0,q]. -/
theorem proj_entry (x w : Vec Ideal S512x512 .f32) (b : Vec Ideal S1x512 .f32) (p q : Fin 512) :
    k0_pay2 (F := Ideal) x w b (ix2 p q) = (∑ d : Fin 512, x (ix2 p d) * w (ix2 d q)) + b (ix2 (0 : Fin 1) q) := by
  unfold k0_pay2 k0_pay1
  simp only [shapeCast_self]
  rw [addf_apply]
  refine congrArg₂ (· + ·) ?_ ?_
  · refine (Ideal.matmul_constant_zero_apply dot_S512x512_S512x512_S512x512_1_0_0_1_n_n none _ _ (ix2 p q)).trans ?_
    rw [← Equiv.sum_comp (contrEquiv1 dot_S512x512_S512x512_S512x512_1_0_0_1_n_n 512 rfl rfl).symm]
    refine Finset.sum_congr rfl fun k _ => ?_
    have hk := contrEquiv1_symm_val dot_S512x512_S512x512_S512x512_1_0_0_1_n_n 512 rfl rfl k
    have el : dot_S512x512_S512x512_S512x512_1_0_0_1_n_n.lhsIdx (ix2 p q) ((contrEquiv1 dot_S512x512_S512x512_S512x512_1_0_0_1_n_n 512 rfl rfl).symm k) = ix2 p k := funext fun a => Fin.ext (by
      match a with
      | ⟨0, _⟩ => exact proj_lhs_axis0 _ _
      | ⟨1, _⟩ => exact (proj_lhs_axis1 _ _).trans hk)
    have er : dot_S512x512_S512x512_S512x512_1_0_0_1_n_n.rhsIdx (ix2 p q) ((contrEquiv1 dot_S512x512_S512x512_S512x512_1_0_0_1_n_n 512 rfl rfl).symm k) = ix2 k q := funext fun a => Fin.ext (by
      match a with
      | ⟨0, _⟩ => exact (proj_rhs_axis0 _ _).trans hk
      | ⟨1, _⟩ => exact proj_rhs_axis1 _ _)
    rw [el, er, truncf_apply, truncf_apply]
  · refine broadcastTo_apply b _ (ix2 p q) (ix2 (0 : Fin 1) q) fun ax => ?_
    match ax with
    | ⟨0, _⟩ => rfl
    | ⟨1, _⟩ =>
      show q.val = if (512 : ℕ) = 1 then 0 else q.val
      rw [if_neg (by decide)]

/-- The key projection's payload is the same function of its three blocks. -/
theorem proj_entry_k (x w : Vec Ideal S512x512 .f32) (b : Vec Ideal S1x512 .f32) :
    k0_pay3 (F := Ideal) x w b = k0_pay2 (F := Ideal) x w b := rfl

/-- The value projection's payload is that function rounded to the narrower format, which over the extended reals
    is the same number. -/
theorem proj_entry_v (x w : Vec Ideal S512x512 .f32) (b : Vec Ideal S1x512 .f32) (j : S512x512.Idx) :
    k0_pay4 (F := Ideal) x w b j = k0_pay2 (F := Ideal) x w b j := rfl

/-! ## The whole-array function, and the blocks as restrictions of it -/

/-- The zero offsets of a whole-buffer access, however spelt. -/
theorem proj_zero_off : (![0, 0] : Fin 2 → Nat) = fun _ => 0 := funext fun a => by fin_cases a <;> rfl

/-- The projection of all 2048 rows at once: entry (r, o) is Σ_d X[r,d]·Wt[d,o] + B[0,o]. -/
def projArr (X : S2048x512.Idx → EReal) (Wt : S512x512.Idx → EReal) (B : S1x512.Idx → EReal) : S2048x512.Idx → EReal :=
  fun i => (∑ d : Fin 512, X (ix2 (⟨(i 0).val, idx2_lt0 i⟩ : Fin 2048) d) * Wt (ix2 d (⟨(i 1).val, idx2_lt1 i⟩ : Fin 512)))
    + B (ix2 (0 : Fin 1) (⟨(i 1).val, idx2_lt1 i⟩ : Fin 512))

/-- The windows' block indices at the four grid points: the row-block windows (the input x and the three outputs) sit
    at block (t, 0); the weight and bias windows stay at block (0, 0). -/
theorem proj_idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The input's block at point t is rows 512·t … 512·t + 511 of the array. -/
theorem proj_xblk (c : Dev nD) (t : Fin cfg0.N) (p d : Fin 512) (r : Fin 2048) (hr : r.val = t.val * 512 + p.val) :
    iblk0 V c 0 t (ix2 p d) = (V c main_v8 : S2048x512.Idx → EReal) (ix2 r d) := by
  obtain ⟨e0, e1, -⟩ := proj_idx_facts t
  unfold iblk0
  rw [View.read_apply]
  show (V c main_v8 : S2048x512.Idx → EReal) (((cfg0.win 0).blk t).view.emb (ix2 p d)) = _
  refine congrArg _ (funext fun a => Fin.ext ?_)
  match a with
  | ⟨0, _⟩ => show win0_0.index t (0 : Fin 2) * 512 + 1 * p.val = r.val; omega
  | ⟨1, _⟩ => show win0_0.index t (1 : Fin 2) * 512 + 1 * d.val = d.val; omega

/-- A weight window's block is the whole weight matrix at every point, and a bias window's the whole bias row: their
    block index never leaves (0, 0). -/
theorem proj_wblk1 (c : Dev nD) (t : Fin cfg0.N) : (iblk0 V c 1 t : S512x512.Idx → EReal) = V c main_v1 := by
  obtain ⟨-, -, -, -, -, -, -, -, e0, e1, -⟩ := proj_idx_facts t
  funext j; unfold iblk0; rw [View.read_apply]
  show (V c main_v1 : S512x512.Idx → EReal) (((cfg0.win 1).blk t).view.emb j) = _
  refine congrArg _ (funext fun a => Fin.ext ?_)
  match a with
  | ⟨0, _⟩ => show win0_1.index t (0 : Fin 2) * 512 + 1 * (j 0).val = (j 0).val; omega
  | ⟨1, _⟩ => show win0_1.index t (1 : Fin 2) * 512 + 1 * (j 1).val = (j 1).val; omega
theorem proj_wblk2 (c : Dev nD) (t : Fin cfg0.N) : (iblk0 V c 2 t : S512x512.Idx → EReal) = V c main_v3 := by
  obtain ⟨-, -, -, -, -, -, -, -, -, -, e0, e1, -⟩ := proj_idx_facts t
  funext j; unfold iblk0; rw [View.read_apply]
  show (V c main_v3 : S512x512.Idx → EReal) (((cfg0.win 2).blk t).view.emb j) = _
  refine congrArg _ (funext fun a => Fin.ext ?_)
  match a with
  | ⟨0, _⟩ => show win0_2.index t (0 : Fin 2) * 512 + 1 * (j 0).val = (j 0).val; omega
  | ⟨1, _⟩ => show win0_2.index t (1 : Fin 2) * 512 + 1 * (j 1).val = (j 1).val; omega
theorem proj_wblk3 (c : Dev nD) (t : Fin cfg0.N) : (iblk0 V c 3 t : S512x512.Idx → EReal) = V c main_v5 := by
  obtain ⟨-, -, -, -, -, -, -, -, -, -, -, -, e0, e1, -⟩ := proj_idx_facts t
  funext j; unfold iblk0; rw [View.read_apply]
  show (V c main_v5 : S512x512.Idx → EReal) (((cfg0.win 3).blk t).view.emb j) = _
  refine congrArg _ (funext fun a => Fin.ext ?_)
  match a with
  | ⟨0, _⟩ => show win0_3.index t (0 : Fin 2) * 512 + 1 * (j 0).val = (j 0).val; omega
  | ⟨1, _⟩ => show win0_3.index t (1 : Fin 2) * 512 + 1 * (j 1).val = (j 1).val; omega
theorem proj_bblk4 (c : Dev nD) (t : Fin cfg0.N) : (iblk0 V c 4 t : S1x512.Idx → EReal) = V c main_v9 := by
  obtain ⟨-, -, -, -, -, -, -, -, -, -, -, -, -, -, e0, e1, -⟩ := proj_idx_facts t
  funext j; unfold iblk0; rw [View.read_apply]
  show (V c main_v9 : S1x512.Idx → EReal) (((cfg0.win 4).blk t).view.emb j) = _
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 512 + 1 * (j 1).val = (j 1).val; omega
theorem proj_bblk5 (c : Dev nD) (t : Fin cfg0.N) : (iblk0 V c 5 t : S1x512.Idx → EReal) = V c main_v10 := by
  obtain ⟨-, -, -, -, -, -, -, -, -, -, -, -, -, -, -, -, e0, e1, -⟩ := proj_idx_facts t
  funext j; unfold iblk0; rw [View.read_apply]
  show (V c main_v10 : S1x512.Idx → EReal) (((cfg0.win 5).blk t).view.emb j) = _
  refine congrArg _ (funext fun a => Fin.ext ?_)
  match a with
  | ⟨0, _⟩ => show win0_5.index t (0 : Fin 2) * 1 + 1 * (j 0).val = (j 0).val; omega
  | ⟨1, _⟩ => show win0_5.index t (1 : Fin 2) * 512 + 1 * (j 1).val = (j 1).val; omega
theorem proj_bblk6 (c : Dev nD) (t : Fin cfg0.N) : (iblk0 V c 6 t : S1x512.Idx → EReal) = V c main_v11 := by
  obtain ⟨-, -, -, -, -, -, -, -, -, -, -, -, -, -, -, -, -, -, e0, e1⟩ := proj_idx_facts t
  funext j; unfold iblk0; rw [View.read_apply]
  show (V c main_v11 : S1x512.Idx → EReal) (((cfg0.win 6).blk t).view.emb j) = _
  refine congrArg _ (funext fun a => Fin.ext ?_)
  match a with
  | ⟨0, _⟩ => show win0_6.index t (0 : Fin 2) * 1 + 1 * (j 0).val = (j 0).val; omega
  | ⟨1, _⟩ => show win0_6.index t (1 : Fin 2) * 512 + 1 * (j 1).val = (j 1).val; omega

/-- The core, whatever the weight and the bias: entry (p, q) of the payload at point t is the whole-array projection
    at the entry of the array that sits at row 512·t + p, column q. -/
theorem proj_block_entry (c : Dev nD) (t : Fin cfg0.N) (Wt : S512x512.Idx → EReal) (B : S1x512.Idx → EReal) (p q : Fin 512)
    (i : S2048x512.Idx) (hi0 : (i 0).val = t.val * 512 + p.val) (hi1 : (i 1).val = q.val) :
    k0_pay2 (F := Ideal) (iblk0 V c 0 t) Wt B (ix2 p q) = projArr (V c main_v8) Wt B i := by
  rw [proj_entry]
  unfold projArr
  have hq : (⟨(i 1).val, idx2_lt1 i⟩ : Fin 512) = q := Fin.ext hi1
  rw [hq]
  refine congrArg₂ (· + ·) (Finset.sum_congr rfl fun d _ => ?_) rfl
  rw [proj_xblk V c t p d ⟨(i 0).val, idx2_lt0 i⟩ hi0]

/-! ## What each point writes back, and the cover -/

/-- What point t writes back of the query projection is block t of the whole-array projection. -/
theorem proj_flushed_q (c : Dev nD) (t : Fin cfg0.N) :
    (dat0 (F := Ideal) V c).flushed 7 t
      = ((cfg0.win 7).blk t).view.read (Elt Ideal) (projArr (V c main_v8) (V c main_v1) (V c main_v9)) := by
  show (cfg0.win 7).cut (grid0.coords t) ((dat0 V c).after 7 t) = _
  rw [after0_7]
  unfold out0_7
  rw [View.canon_unit_zero proj_zero_off]
  simp only [View.ld_unit_zero (S := S512x512) proj_zero_off, View.ld_unit_zero (S := S1x512) proj_zero_off]
  rw [proj_wblk1, proj_bblk4]
  obtain ⟨-, -, e0, e1, -⟩ := proj_idx_facts t
  funext j
  obtain ⟨p, q, rfl⟩ : ∃ (p : Fin 512) (q : Fin 512), j = ix2 p q := ⟨j 0, j 1, eq_ix2 j⟩
  rw [View.read_apply]
  refine proj_block_entry V c t _ _ p q _ ?_ ?_
  · show win0_7.index t (0 : Fin 2) * 512 + 1 * p.val = t.val * 512 + p.val; omega
  · show win0_7.index t (1 : Fin 2) * 512 + 1 * q.val = q.val; omega

/-- Every entry of the query array lies in the block of the point its row falls to: row r in block r / 512. -/
theorem proj_cover_q (i : S2048x512.Idx) :
    ∃ t : Fin cfg0.N, (cfg0.win 7).flush t = true ∧ i ∈ ((cfg0.win 7).blk t).view.set := by
  have h0 : (i 0).val < 2048 := idx2_lt0 i
  have h1 : (i 1).val < 512 := idx2_lt1 i
  have hN : grid0.N = 4 := N_0
  have ht : (i 0).val / 512 < cfg0.N := by show (i 0).val / 512 < grid0.N; rw [hN]; omega
  obtain ⟨-, -, e0, e1, -⟩ := proj_idx_facts ⟨(i 0).val / 512, ht⟩
  refine ⟨⟨(i 0).val / 512, ht⟩, flush0_7 _, ?_⟩
  show i ∈ ((View.whole main_v12_0).slice (win0_7.rect ⟨(i 0).val / 512, ht⟩)).set
  rw [View.set_slice_whole, Rect.mem_set_unit]
  intro a
  match a with
  | ⟨0, _⟩ =>
    show win0_7.index ⟨(i 0).val / 512, ht⟩ (0 : Fin 2) * 512 ≤ (i 0).val ∧ (i 0).val < win0_7.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_7.index ⟨(i 0).val / 512, ht⟩ (1 : Fin 2) * 512 ≤ (i 1).val ∧ (i 1).val < win0_7.index ⟨(i 0).val / 512, ht⟩ (1 : Fin 2) * 512 + 512
    rw [e1]; omega

/-- So the query array ends holding the whole-array projection. -/
theorem proj_array_q (c : Dev nD) :
    ((dat0 (F := Ideal) V c).arrAt 7 cfg0.N : S2048x512.Idx → EReal) = projArr (V c main_v8) (V c main_v1) (V c main_v9) :=
  (dat0 (F := Ideal) V c).arrAt_eq_of_cover 7 (projArr (V c main_v8) (V c main_v1) (V c main_v9))
    (fun t _ => proj_flushed_q V c t) proj_cover_q

/-- What point t writes back of the key projection is block t of the whole-array projection. -/
theorem proj_flushed_k (c : Dev nD) (t : Fin cfg0.N) :
    (dat0 (F := Ideal) V c).flushed 8 t
      = ((cfg0.win 8).blk t).view.read (Elt Ideal) (projArr (V c main_v8) (V c main_v3) (V c main_v10)) := by
  show (cfg0.win 8).cut (grid0.coords t) ((dat0 V c).after 8 t) = _
  rw [after0_8]
  unfold out0_8
  rw [View.canon_unit_zero proj_zero_off]
  simp only [View.ld_unit_zero (S := S512x512) proj_zero_off, View.ld_unit_zero (S := S1x512) proj_zero_off]
  rw [proj_wblk2, proj_bblk5, proj_entry_k]
  obtain ⟨-, -, -, -, e0, e1, -⟩ := proj_idx_facts t
  funext j
  obtain ⟨p, q, rfl⟩ : ∃ (p : Fin 512) (q : Fin 512), j = ix2 p q := ⟨j 0, j 1, eq_ix2 j⟩
  rw [View.read_apply]
  refine proj_block_entry V c t _ _ p q _ ?_ ?_
  · show win0_8.index t (0 : Fin 2) * 512 + 1 * p.val = t.val * 512 + p.val; omega
  · show win0_8.index t (1 : Fin 2) * 512 + 1 * q.val = q.val; omega

/-- Every entry of the key array lies in the block of the point its row falls to. -/
theorem proj_cover_k (i : S2048x512.Idx) :
    ∃ t : Fin cfg0.N, (cfg0.win 8).flush t = true ∧ i ∈ ((cfg0.win 8).blk t).view.set := by
  have h0 : (i 0).val < 2048 := idx2_lt0 i
  have h1 : (i 1).val < 512 := idx2_lt1 i
  have hN : grid0.N = 4 := N_0
  have ht : (i 0).val / 512 < cfg0.N := by show (i 0).val / 512 < grid0.N; rw [hN]; omega
  obtain ⟨-, -, -, -, e0, e1, -⟩ := proj_idx_facts ⟨(i 0).val / 512, ht⟩
  refine ⟨⟨(i 0).val / 512, ht⟩, flush0_8 _, ?_⟩
  show i ∈ ((View.whole main_v12_1).slice (win0_8.rect ⟨(i 0).val / 512, ht⟩)).set
  rw [View.set_slice_whole, Rect.mem_set_unit]
  intro a
  match a with
  | ⟨0, _⟩ =>
    show win0_8.index ⟨(i 0).val / 512, ht⟩ (0 : Fin 2) * 512 ≤ (i 0).val ∧ (i 0).val < win0_8.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_8.index ⟨(i 0).val / 512, ht⟩ (1 : Fin 2) * 512 ≤ (i 1).val ∧ (i 1).val < win0_8.index ⟨(i 0).val / 512, ht⟩ (1 : Fin 2) * 512 + 512
    rw [e1]; omega

/-- So the key array ends holding the whole-array projection. -/
theorem proj_array_k (c : Dev nD) :
    ((dat0 (F := Ideal) V c).arrAt 8 cfg0.N : S2048x512.Idx → EReal) = projArr (V c main_v8) (V c main_v3) (V c main_v10) :=
  (dat0 (F := Ideal) V c).arrAt_eq_of_cover 8 (projArr (V c main_v8) (V c main_v3) (V c main_v10))
    (fun t _ => proj_flushed_k V c t) proj_cover_k

/-- What point t writes back of the value projection is block t of the whole-array projection: the store's rounding
    to the narrower format leaves the extended real as it is. -/
theorem proj_flushed_v (c : Dev nD) (t : Fin cfg0.N) :
    (dat0 (F := Ideal) V c).flushed 9 t
      = ((cfg0.win 9).blk t).view.read (Elt Ideal) (projArr (V c main_v8) (V c main_v5) (V c main_v11)) := by
  show (cfg0.win 9).cut (grid0.coords t) ((dat0 V c).after 9 t) = _
  rw [after0_9]
  unfold out0_9
  rw [View.canon_unit_zero proj_zero_off]
  simp only [View.ld_unit_zero (S := S512x512) proj_zero_off, View.ld_unit_zero (S := S1x512) proj_zero_off]
  rw [proj_wblk3, proj_bblk6]
  obtain ⟨-, -, -, -, -, -, e0, e1, -⟩ := proj_idx_facts t
  funext j
  obtain ⟨p, q, rfl⟩ : ∃ (p : Fin 512) (q : Fin 512), j = ix2 p q := ⟨j 0, j 1, eq_ix2 j⟩
  rw [View.read_apply]
  refine (proj_entry_v _ _ _ (ix2 p q)).trans (proj_block_entry V c t _ _ p q _ ?_ ?_)
  · show win0_9.index t (0 : Fin 2) * 512 + 1 * p.val = t.val * 512 + p.val; omega
  · show win0_9.index t (1 : Fin 2) * 512 + 1 * q.val = q.val; omega

/-- Every entry of the value array lies in the block of the point its row falls to. -/
theorem proj_cover_v (i : S2048x512.Idx) :
    ∃ t : Fin cfg0.N, (cfg0.win 9).flush t = true ∧ i ∈ ((cfg0.win 9).blk t).view.set := by
  have h0 : (i 0).val < 2048 := idx2_lt0 i
  have h1 : (i 1).val < 512 := idx2_lt1 i
  have hN : grid0.N = 4 := N_0
  have ht : (i 0).val / 512 < cfg0.N := by show (i 0).val / 512 < grid0.N; rw [hN]; omega
  obtain ⟨-, -, -, -, -, -, e0, e1, -⟩ := proj_idx_facts ⟨(i 0).val / 512, ht⟩
  refine ⟨⟨(i 0).val / 512, ht⟩, flush0_9 _, ?_⟩
  show i ∈ ((View.whole main_v12_2).slice (win0_9.rect ⟨(i 0).val / 512, ht⟩)).set
  rw [View.set_slice_whole, Rect.mem_set_unit]
  intro a
  match a with
  | ⟨0, _⟩ =>
    show win0_9.index ⟨(i 0).val / 512, ht⟩ (0 : Fin 2) * 512 ≤ (i 0).val ∧ (i 0).val < win0_9.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_9.index ⟨(i 0).val / 512, ht⟩ (1 : Fin 2) * 512 ≤ (i 1).val ∧ (i 1).val < win0_9.index ⟨(i 0).val / 512, ht⟩ (1 : Fin 2) * 512 + 512
    rw [e1]; omega

/-- So the value array ends holding the whole-array projection. -/
theorem proj_array_v (c : Dev nD) :
    ((dat0 (F := Ideal) V c).arrAt 9 cfg0.N : S2048x512.Idx → EReal) = projArr (V c main_v8) (V c main_v5) (V c main_v11) :=
  (dat0 (F := Ideal) V c).arrAt_eq_of_cover 9 (projArr (V c main_v8) (V c main_v5) (V c main_v11))
    (fun t _ => proj_flushed_v V c t) proj_cover_v

/-! ## The three arrays as matrices -/

/-- The whole-array projection read by its coordinates is the dense layer of the three matrices. -/
theorem projArr_mat (X : S2048x512.Idx → EReal) (Wt : S512x512.Idx → EReal) (B : S1x512.Idx → EReal) :
    mat (projArr X Wt B) = dense2 (mat X) (mat Wt) (fun o => mat B 0 o) := rfl

/-- The q projection. -/
theorem proj_value_q (c : Dev nD) :
    mat (((dat0 (F := Ideal) V c).arrAt 7 cfg0.N : S2048x512.Idx → EReal))
      = dense2 (mat (V c main_v8 : S2048x512.Idx → EReal)) (mat (V c main_v1 : S512x512.Idx → EReal)) (fun o => mat (V c main_v9 : S1x512.Idx → EReal) 0 o) := by
  rw [proj_array_q]; exact projArr_mat _ _ _

/-- The k projection. -/
theorem proj_value_k (c : Dev nD) :
    mat (((dat0 (F := Ideal) V c).arrAt 8 cfg0.N : S2048x512.Idx → EReal))
      = dense2 (mat (V c main_v8 : S2048x512.Idx → EReal)) (mat (V c main_v3 : S512x512.Idx → EReal)) (fun o => mat (V c main_v10 : S1x512.Idx → EReal) 0 o) := by
  rw [proj_array_k]; exact projArr_mat _ _ _

/-- The v projection (stored in the narrower float format, which is the same extended real). -/
theorem proj_value_v (c : Dev nD) :
    mat (((dat0 (F := Ideal) V c).arrAt 9 cfg0.N : S2048x512.Idx → EReal))
      = dense2 (mat (V c main_v8 : S2048x512.Idx → EReal)) (mat (V c main_v5 : S512x512.Idx → EReal)) (fun o => mat (V c main_v11 : S1x512.Idx → EReal) 0 o) := by
  rw [proj_array_v]; exact projArr_mat _ _ _

end Cert.KernelIdeal.Hand

end
-- ==== Proof.AttnPayload.lean ====
/-
  The attention region's arithmetic read at an index, over the extended reals. For a query block q [1024 x 64], a key
  block k [2048 x 64] and a value block v [2048 x 64]: the weight of key row j for query row p is the exponential of
  the inner product of the two rows, each divided by its Euclidean norm plus ε and the query row by 8 besides, minus
  13/100; the row sums grow by the sum of the weights over the 2048 key rows; the accumulator grows by the weights
  times the value rows; and the stored block is the accumulator divided by the row sums, squared entrywise and
  divided by the row's sum of squares plus ε.
-/
import proofs.«423754_j5703716569513_3_alg».proof.Proof.Gen.KernelIdeal.Skeleton
import proofs.«423754_j5703716569513_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx

/-! ## Layout operations with a trailing unit axis, read at coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum over the lanes of an `[a, b]` array of extended reals, read at row `r`: the sum of the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun c => Fin.ext ?_)
  match c with
  | ⟨0, _⟩ => rfl
  | ⟨1, _⟩ => rfl

/-! ## The two products, read at an index -/

theorem lhs_qk_0 (i : S1024x2048.Idx) (q : dot_S1024x64_S64x2048_S1024x2048_1_0_0_1_n_n.contr.Idx) :
    (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl
theorem lhs_qk_1 (i : S1024x2048.Idx) (q : dot_S1024x64_S64x2048_S1024x2048_1_0_0_1_n_n.contr.Idx) :
    (dot_S1024x64_S64x2048_S1024x2048_1_0_0_1_n_n.lhsIdx i q 1).val = (q ⟨0, by decide⟩).val :=
  dot_S1024x64_S64x2048_S1024x2048_1_0_0_1_n_n.lhsIdx_val_of_single rfl i q
theorem rhs_qk_0 (i : S1024x2048.Idx) (q : dot_S1024x64_S64x2048_S1024x2048_1_0_0_1_n_n.contr.Idx) :
    (dot_S1024x64_S64x2048_S1024x2048_1_0_0_1_n_n.rhsIdx i q 0).val = (q ⟨0, by decide⟩).val :=
  dot_S1024x64_S64x2048_S1024x2048_1_0_0_1_n_n.rhsIdx_val_of_single rfl i q
theorem rhs_qk_1 (i : S1024x2048.Idx) (q : dot_S1024x64_S64x2048_S1024x2048_1_0_0_1_n_n.contr.Idx) :
    (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl

/-- The product of a [1024 x 64] array with a [64 x 2048] array into the zero array, at (p, j): the sum over the 64
    shared coordinates. -/
theorem matmul_qk_apply (x : FVec Ideal S1024x64 .bf16) (y : FVec Ideal S64x2048 .bf16) (p : Fin 1024) (j : Fin 2048) :
    matmul dot_S1024x64_S64x2048_S1024x2048_1_0_0_1_n_n none x y (constant (F := Ideal) S1024x2048 .f32 0x00000000#32) (ix2 p j)
      = ∑ e : Fin 64, x (ix2 p e) * y (ix2 e j) := by
  simp only [matmul]
  rw [Ideal.matmul_constant_zero_apply, ← Equiv.sum_comp (ValueIdx.contrEquiv1 dot_S1024x64_S64x2048_S1024x2048_1_0_0_1_n_n 64 rfl rfl).symm]
  refine Finset.sum_congr rfl fun k _ => ?_
  have hk := ValueIdx.contrEquiv1_symm_val dot_S1024x64_S64x2048_S1024x2048_1_0_0_1_n_n 64 rfl rfl k
  have el : dot_S1024x64_S64x2048_S1024x2048_1_0_0_1_n_n.lhsIdx (ix2 p j) ((ValueIdx.contrEquiv1 dot_S1024x64_S64x2048_S1024x2048_1_0_0_1_n_n 64 rfl rfl).symm k) = ix2 p k := funext fun a => Fin.ext (by
    match a with
    | ⟨0, _⟩ => exact lhs_qk_0 _ _
    | ⟨1, _⟩ => exact (lhs_qk_1 _ _).trans hk)
  have er : dot_S1024x64_S64x2048_S1024x2048_1_0_0_1_n_n.rhsIdx (ix2 p j) ((ValueIdx.contrEquiv1 dot_S1024x64_S64x2048_S1024x2048_1_0_0_1_n_n 64 rfl rfl).symm k) = ix2 k j := funext fun a => Fin.ext (by
    match a with
    | ⟨0, _⟩ => exact (rhs_qk_0 _ _).trans hk
    | ⟨1, _⟩ => exact rhs_qk_1 _ _)
  rw [el, er]

theorem lhs_pv_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_pv_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_pv_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_pv_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The product of a [1024 x 2048] array with a [2048 x 64] array into the zero array, at (p, e): the sum over the
    2048 shared coordinates. -/
theorem matmul_pv_apply (x : FVec Ideal S1024x2048 .bf16) (y : FVec Ideal S2048x64 .bf16) (p : Fin 1024) (e : Fin 64) :
    matmul dot_S1024x2048_S2048x64_S1024x64_1_0_0_1_n_n none x y (constant (F := Ideal) S1024x64 .f32 0x00000000#32) (ix2 p e)
      = ∑ j : Fin 2048, x (ix2 p j) * y (ix2 j e) := by
  simp only [matmul]
  rw [Ideal.matmul_constant_zero_apply, ← Equiv.sum_comp (ValueIdx.contrEquiv1 dot_S1024x2048_S2048x64_S1024x64_1_0_0_1_n_n 2048 rfl rfl).symm]
  refine Finset.sum_congr rfl fun k _ => ?_
  have hk := ValueIdx.contrEquiv1_symm_val dot_S1024x2048_S2048x64_S1024x64_1_0_0_1_n_n 2048 rfl rfl k
  have el : dot_S1024x2048_S2048x64_S1024x64_1_0_0_1_n_n.lhsIdx (ix2 p e) ((ValueIdx.contrEquiv1 dot_S1024x2048_S2048x64_S1024x64_1_0_0_1_n_n 2048 rfl rfl).symm k) = ix2 p k := funext fun a => Fin.ext (by
    match a with
    | ⟨0, _⟩ => exact lhs_pv_0 _ _
    | ⟨1, _⟩ => exact (lhs_pv_1 _ _).trans hk)
  have er : dot_S1024x2048_S2048x64_S1024x64_1_0_0_1_n_n.rhsIdx (ix2 p e) ((ValueIdx.contrEquiv1 dot_S1024x2048_S2048x64_S1024x64_1_0_0_1_n_n 2048 rfl rfl).symm k) = ix2 k e := funext fun a => Fin.ext (by
    match a with
    | ⟨0, _⟩ => exact (rhs_pv_0 _ _).trans hk
    | ⟨1, _⟩ => exact rhs_pv_1 _ _)
  rw [el, er]

/-! ## A row's Euclidean norm plus ε, and the row divided by it -/

/-- The column of norms of an `[a, 64]` array, read at row `p`: the square root of the row's sum of squares, plus ε. -/
theorem normCol_apply {a : ℕ} (x : FVec Ideal ⟨2, ![a, 64]⟩ .f32) (hr : (⟨2, ![a, 64]⟩ : Shape).Reduces [1] ⟨1, ![a]⟩)
    (hφ : FKind.Formats .f32) (hacc : (0x00000000#32 : BitVec 32) = 0x00000000#32)
    (hs : (⟨1, ![a]⟩ : Shape).ShapeCasts ⟨2, ![a, 1]⟩) (p : Fin a) (u : Fin 1) :
    addf (sqrt (shapeCast ⟨2, ![a, 1]⟩ (multiReduction (F := Ideal) .add [1] ⟨1, ![a]⟩ (mulf x x) 0x00000000#32 hr hφ hacc) hs))
        (broadcast ⟨2, ![a, 1]⟩ (Scalar.ofBits .f32 0x322BCC77#32)) (ix2 p u)
      = Ideal.sqrt (∑ e : Fin 64, x (ix2 p e) * x (ix2 p e)) + eps := by
  show Ideal.sqrt (shapeCast ⟨2, ![a, 1]⟩ _ hs (ix2 p u)) + eps = _
  rw [shapeCast_a_a1_apply, rowSum_apply]
  rfl

/-- An `[a, 64]` array with each row divided by its norm plus ε, read at (p, e). -/
theorem normalized_apply {a : ℕ} (x : FVec Ideal ⟨2, ![a, 64]⟩ .f32) (hr : (⟨2, ![a, 64]⟩ : Shape).Reduces [1] ⟨1, ![a]⟩)
    (hφ : FKind.Formats .f32) (hacc : (0x00000000#32 : BitVec 32) = 0x00000000#32)
    (hs : (⟨1, ![a]⟩ : Shape).ShapeCasts ⟨2, ![a, 1]⟩) (hb : (⟨2, ![a, 1]⟩ : Shape).Broadcasts ⟨2, ![a, 64]⟩) (p : Fin a) (e : Fin 64) :
    divf x (broadcastTo ⟨2, ![a, 64]⟩ (addf (sqrt (shapeCast ⟨2, ![a, 1]⟩ (multiReduction (F := Ideal) .add [1] ⟨1, ![a]⟩ (mulf x x) 0x00000000#32 hr hφ hacc) hs))
        (broadcast ⟨2, ![a, 1]⟩ (Scalar.ofBits .f32 0x322BCC77#32))) hb) (ix2 p e)
      = Ideal.div (x (ix2 p e)) (Ideal.sqrt (∑ e' : Fin 64, x (ix2 p e') * x (ix2 p e')) + eps) := by
  show Ideal.div (x (ix2 p e)) (broadcastTo ⟨2, ![a, 64]⟩ _ hb (ix2 p e)) = _
  rw [broadcastTo_a1_ab_apply, normCol_apply]

/-! ## The payloads at an index -/

/-- The fixed shift inside the exponential is the rational 13/100. -/
theorem named_shift : Named.named (F := Ideal) κ "c_13_100" (φ := .f32) 0x3E051EB8#32 = shift :=
  IdealRules.named_const.ideal_named_scalar _ _ _ _ rfl

/-- The weight of key row j for query row p. -/
theorem pay7_apply (qb : Vec Ideal S1024x64 .f32) (kb : Vec Ideal S2048x64 .f32) (p : Fin 1024) (j : Fin 2048) :
    k1_pay7 qb kb (ix2 p j)
      = Ideal.exp ((∑ e : Fin 64, (Ideal.div (qb (ix2 p e)) (Ideal.sqrt (∑ e' : Fin 64, qb (ix2 p e') * qb (ix2 p e')) + eps) * eighth)
          * Ideal.div (kb (ix2 j e)) (Ideal.sqrt (∑ e' : Fin 64, kb (ix2 j e') * kb (ix2 j e')) + eps)) - shift) := by
  unfold k1_pay7
  simp only [shapeCast_self]
  show Ideal.exp (matmul dot_S1024x64_S64x2048_S1024x2048_1_0_0_1_n_n none _ _ (constant (F := Ideal) S1024x2048 .f32 0x00000000#32) (ix2 p j)
    - Named.named (F := Ideal) κ "c_13_100" (φ := .f32) 0x3E051EB8#32) = _
  rw [matmul_qk_apply, named_shift]
  refine congrArg (fun s => Ideal.exp (s - shift)) (Finset.sum_congr rfl fun e _ => ?_)
  rw [transpose_ix2_apply]
  refine congrArg₂ (· * ·) ?_ ?_
  · show Ideal.div (qb (ix2 p e)) (broadcastTo S1024x64 _ broadcasts_S1024x1_S1024x64 (ix2 p e)) * eighth = _
    rw [broadcastTo_a1_ab_apply, normCol_apply]
  · show Ideal.div (kb (ix2 j e)) (broadcastTo S2048x64 _ broadcasts_S2048x1_S2048x64 (ix2 j e)) = _
    rw [broadcastTo_a1_ab_apply, normCol_apply]

/-- The row sums grow by the sum of the row's weights. -/
theorem pay8_apply (qb : Vec Ideal S1024x64 .f32) (kb : Vec Ideal S2048x64 .f32) (l : Vec Ideal S1024x1 .f32) (p : Fin 1024) (u : Fin 1) :
    k1_pay8 qb kb l (ix2 p u) = l (ix2 p u) + ∑ j : Fin 2048, k1_pay7 qb kb (ix2 p j) := by
  unfold k1_pay8
  show l (ix2 p u) + shapeCast S1024x1 _ shapeCasts_S1024_S1024x1 (ix2 p u) = _
  rw [shapeCast_a_a1_apply, rowSum_apply]

/-- The accumulator grows by the weights times the value rows. -/
theorem pay2_apply (vb : FVec Ideal S2048x64 .bf16) (w : FVec Ideal S1024x2048 .f32) (acc : Vec Ideal S1024x64 .f32) (p : Fin 1024) (e : Fin 64) :
    k1_pay2 vb w acc (ix2 p e) = acc (ix2 p e) + ∑ j : Fin 2048, w (ix2 p j) * vb (ix2 j e) := by
  unfold k1_pay2
  simp only [shapeCast_self]
  show acc (ix2 p e) + matmul dot_S1024x2048_S2048x64_S1024x64_1_0_0_1_n_n none _ vb (constant (F := Ideal) S1024x64 .f32 0x00000000#32) (ix2 p e) = _
  rw [matmul_pv_apply]
  rfl

/-- The stored block: the accumulator divided by the row sums, squared entrywise, divided by the row's sum of squares plus ε. -/
theorem pay3_apply (acc : Vec Ideal S1024x64 .f32) (l : Vec Ideal S1024x1 .f32) (p : Fin 1024) (e : Fin 64) :
    k1_pay3 acc l (ix2 p e)
      = Ideal.div (Ideal.div (acc (ix2 p e)) (l (ix2 p (0 : Fin 1))) * Ideal.div (acc (ix2 p e)) (l (ix2 p (0 : Fin 1))))
          ((∑ e' : Fin 64, Ideal.div (acc (ix2 p e')) (l (ix2 p (0 : Fin 1))) * Ideal.div (acc (ix2 p e')) (l (ix2 p (0 : Fin 1)))) + eps) := by
  unfold k1_pay3
  have hd : ∀ e' : Fin 64, (divf (F := Ideal) (s := S1024x64) (φ := .f32) acc (broadcastTo S1024x64 l broadcasts_S1024x1_S1024x64)) (ix2 p e')
      = Ideal.div (acc (ix2 p e')) (l (ix2 p (0 : Fin 1))) := fun e' => by
    show Ideal.div (acc (ix2 p e')) (broadcastTo S1024x64 l broadcasts_S1024x1_S1024x64 (ix2 p e')) = _
    rw [broadcastTo_a1_ab_apply]
  show Ideal.div ((divf (F := Ideal) (s := S1024x64) (φ := .f32) acc (broadcastTo S1024x64 l broadcasts_S1024x1_S1024x64)) (ix2 p e)
      * (divf (F := Ideal) (s := S1024x64) (φ := .f32) acc (broadcastTo S1024x64 l broadcasts_S1024x1_S1024x64)) (ix2 p e))
    (broadcastTo S1024x64 _ broadcasts_S1024x1_S1024x64 (ix2 p e)) = _
  rw [broadcastTo_a1_ab_apply, hd]
  refine congrArg (Ideal.div _) ?_
  show shapeCast S1024x1 _ shapeCasts_S1024_S1024x1 (ix2 p (0 : Fin 1)) + eps = _
  rw [shapeCast_a_a1_apply, rowSum_apply]
  refine congrArg (· + eps) (Finset.sum_congr rfl fun e' _ => ?_)
  show (divf (F := Ideal) (s := S1024x64) (φ := .f32) acc (broadcastTo S1024x64 l broadcasts_S1024x1_S1024x64)) (ix2 p e')
      * (divf (F := Ideal) (s := S1024x64) (φ := .f32) acc (broadcastTo S1024x64 l broadcasts_S1024x1_S1024x64)) (ix2 p e') = _
  rw [hd]

/-- The three casts to the same shape change nothing; the two resets are zero arrays. -/
theorem pay1_eq (l : FVec Ideal S1024x1 .f32) : k1_pay1 l = l := by
  unfold k1_pay1
  exact shapeCast_self _ _

theorem pay6_eq (vb : Vec Ideal S2048x64 .bf16) : k1_pay6 vb = vb := by
  unfold k1_pay6
  exact shapeCast_self _ _

theorem pay4_apply (p : Fin 1024) (u : Fin 1) : (k1_pay4 (F := Ideal)) (ix2 p u) = 0 := by
  unfold k1_pay4
  simp only [shapeCast_self]
  exact Ideal.ofBits_zero_f32

theorem pay5_apply (p : Fin 1024) (e : Fin 64) : (k1_pay5 (F := Ideal)) (ix2 p e) = 0 := by
  unfold k1_pay5
  simp only [shapeCast_self]
  exact Ideal.ofBits_zero_f32

/-! ## One update of the carried state, in the specification's terms -/

section Step
variable (Q K W : Fin 16384 → Fin 64 → EReal) (qr : Fin 1024 → Fin 16384) (kr : Fin 2048 → Fin 16384)
variable (qb : Vec Ideal S1024x64 .f32) (kb : Vec Ideal S2048x64 .f32) (vb : Vec Ideal S2048x64 .bf16)

/-- Where the query block holds rows `qr` of Q and the key block rows `kr` of K, the block of weights holds the
    specification's weights of those rows. -/
theorem weight_eq (hq : ∀ p e, qb (ix2 p e) = Q (qr p) e) (hk : ∀ j e, kb (ix2 j e) = K (kr j) e) (p : Fin 1024) (j : Fin 2048) :
    k1_pay7 qb kb (ix2 p j) = weightK Q K (qr p) (kr j) := by
  rw [pay7_apply]
  unfold weightK scoreK Cert.Spec.norm
  simp only [hq, hk]

/-- The row sums after the update: what they were plus the weights of the block's 2048 key rows. -/
theorem rowsum_step (hq : ∀ p e, qb (ix2 p e) = Q (qr p) e) (hk : ∀ j e, kb (ix2 j e) = K (kr j) e)
    (l : Vec Ideal S1024x1 .f32) (p : Fin 1024) :
    k1_pay1 (k1_pay8 qb kb l) (ix2 p (0 : Fin 1)) = l (ix2 p (0 : Fin 1)) + ∑ j : Fin 2048, weightK Q K (qr p) (kr j) := by
  rw [pay1_eq, pay8_apply]
  exact congrArg (l (ix2 p (0 : Fin 1)) + ·) (Finset.sum_congr rfl fun j _ => weight_eq Q K qr kr qb kb hq hk p j)

/-- The accumulator after the update: what it was plus the weights times the block's 2048 value rows. -/
theorem acc_step (hq : ∀ p e, qb (ix2 p e) = Q (qr p) e) (hk : ∀ j e, kb (ix2 j e) = K (kr j) e)
    (hv : ∀ j e, vb (ix2 j e) = W (kr j) e) (acc : Vec Ideal S1024x64 .f32) (p : Fin 1024) (e : Fin 64) :
    k1_pay2 (k1_pay6 vb) (k1_pay7 qb kb) acc (ix2 p e) = acc (ix2 p e) + ∑ j : Fin 2048, weightK Q K (qr p) (kr j) * W (kr j) e := by
  rw [pay6_eq, pay2_apply]
  refine congrArg (acc (ix2 p e) + ·) (Finset.sum_congr rfl fun j _ => ?_)
  rw [weight_eq Q K qr kr qb kb hq hk p j, hv]

end Step

/-- The stored block where row p of the accumulator is `a` and of the row sums `d`. -/
theorem stored_eq (acc : Vec Ideal S1024x64 .f32) (l : Vec Ideal S1024x1 .f32) (a : Fin 64 → EReal) (d : EReal) (p : Fin 1024)
    (hacc : ∀ e, acc (ix2 p e) = a e) (hl : l (ix2 p (0 : Fin 1)) = d) (e : Fin 64) :
    k1_pay3 acc l (ix2 p e) = Ideal.div (Ideal.div (a e) d * Ideal.div (a e) d) ((∑ e' : Fin 64, Ideal.div (a e') d * Ideal.div (a e') d) + eps) := by
  rw [pay3_apply]
  simp only [hacc, hl]

/-! ## Sums over the 16384 rows, tile of 2048 by tile -/

/-- Row j of the tile numbered a (mod 8). -/
def tileRow (a : ℕ) (j : Fin 2048) : Fin 16384 :=
  ⟨2048 * (a % 8) + j.val, by have := j.isLt; have := Nat.mod_lt a (show 0 < 8 by norm_num); omega⟩

theorem tileRow_mod (a : ℕ) (j : Fin 2048) : tileRow (a % 8) j = tileRow a j :=
  Fin.ext (by show 2048 * (a % 8 % 8) + j.val = 2048 * (a % 8) + j.val; rw [Nat.mod_mod])

theorem sum_fin_mul {M : Type*} [AddCommMonoid M] (m n : ℕ) (f : Fin (m * n) → M) :
    ∑ i, f i = ∑ a : Fin m, ∑ j : Fin n, f (finProdFinEquiv (a, j)) := by
  rw [← finProdFinEquiv.sum_comp, Fintype.sum_prod_type]

/-- The eight tiles are all the rows. -/
theorem sum_tiles {M : Type*} [AddCommMonoid M] (f : Fin 16384 → M) :
    ∑ a ∈ Finset.range 8, ∑ j : Fin 2048, f (tileRow a j) = ∑ i : Fin 16384, f i := by
  rw [Finset.sum_range]
  refine ((sum_fin_mul 8 2048 f).trans (Finset.sum_congr rfl fun a _ => Finset.sum_congr rfl fun j _ => congrArg f (Fin.ext ?_))).symm
  show j.val + 2048 * a.val = 2048 * (a.val % 8) + j.val
  rw [Nat.mod_eq_of_lt a.isLt]; omega

/-- The sum of f over the first k tiles. -/
def partSum {M : Type*} [AddCommMonoid M] (f : Fin 16384 → M) (k : ℕ) : M :=
  ∑ a ∈ Finset.range k, ∑ j : Fin 2048, f (tileRow a j)

theorem partSum_zero {M : Type*} [AddCommMonoid M] (f : Fin 16384 → M) : partSum f 0 = 0 :=
  Finset.sum_range_zero _

/-- One more tile: the tile numbered n (mod 8) after the first n % 8. -/
theorem partSum_succ_mod {M : Type*} [AddCommMonoid M] (f : Fin 16384 → M) (n : ℕ) :
    partSum f (n % 8 + 1) = partSum f (n % 8) + ∑ j : Fin 2048, f (tileRow n j) := by
  unfold partSum
  rw [Finset.sum_range_succ]
  simp only [tileRow_mod]

theorem partSum_eight {M : Type*} [AddCommMonoid M] (f : Fin 16384 → M) : partSum f 8 = ∑ i : Fin 16384, f i :=
  sum_tiles f

end Cert.KernelIdeal.Hand

end
-- ==== Proof.AttnBlocks.lean ====
/-
  The attention region's blocks read at a coordinate, and the step from blocks to the array, over the extended
  reals. Point t of the flattened 16 x 8 grid has coordinates (t / 8, t % 8): its query block is rows
  1024·(t / 8) .. of the query array, its key and value blocks are rows 2048·(t % 8) .. of the key and value arrays,
  and its output block, written back only where t % 8 = 7, is rows 1024·(t / 8) .. of the output array. The sixteen
  written blocks tile the output array, so if each is the matching rows of one function G the array ends at G.
-/
import proofs.«423754_j5703716569513_3_alg».proof.Proof.AttnRegion
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

-- the TensorCore's buffer contents when the region is entered, at the ideal instance
variable (V : (c : Dev nD) → (b : Ref sig .tc) → Buf (Elt Ideal) ((c : Thread nD τ).loc b))

/-- The printed index maps, decided over the 128 points: the query and output windows' block index is
    (t / 8, 0), the key and value windows' is (t % 8, 0). -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

/-! ## The input windows' blocks at a coordinate -/

/-- The query block at point `t`, read at a coordinate: the query array at row 1024 · (t / 8) + p. -/
theorem qblock_apply (c : Dev nD) (t : Fin cfg1.N) (p : Fin 1024) (e : Fin 64) :
    (iblk1 V c 0 t : S1024x64.Idx → EReal) (ix2 p e) = (V c main_v13 : S16384x64.Idx → EReal) (ix2 ⟨1024 * (t.val / 8) + p.val, by have := lt_of_lt_of_eq t.isLt (show cfg1.N = 128 from N_1); have := p.isLt; omega⟩ e) := by
  obtain ⟨e0, e1, e2, e3, e4, e5, e6, e7⟩ := idx_facts1 t
  show (V c main_v13 : S16384x64.Idx → EReal) (((cfg1.win 0).blk t).view.emb (ix2 p e)) = _
  congr 1
  funext a; apply Fin.ext
  match a with
  | ⟨0, _⟩ => show win1_0.index t (0 : Fin 2) * 1024 + 1 * p.val = 1024 * (t.val / 8) + p.val; omega
  | ⟨1, _⟩ => show win1_0.index t (1 : Fin 2) * 64 + 1 * e.val = e.val; omega

/-- The key block at point `t`, read at a coordinate: the key array at row 2048 · (t % 8) + j. -/
theorem kblock_apply (c : Dev nD) (t : Fin cfg1.N) (j : Fin 2048) (e : Fin 64) :
    (iblk1 V c 1 t : S2048x64.Idx → EReal) (ix2 j e) = (V c main_v14 : S16384x64.Idx → EReal) (ix2 ⟨2048 * (t.val % 8) + j.val, by have := j.isLt; omega⟩ e) := by
  obtain ⟨e0, e1, e2, e3, e4, e5, e6, e7⟩ := idx_facts1 t
  show (V c main_v14 : S16384x64.Idx → EReal) (((cfg1.win 1).blk t).view.emb (ix2 j e)) = _
  congr 1
  funext a; apply Fin.ext
  match a with
  | ⟨0, _⟩ => show win1_1.index t (0 : Fin 2) * 2048 + 1 * j.val = 2048 * (t.val % 8) + j.val; omega
  | ⟨1, _⟩ => show win1_1.index t (1 : Fin 2) * 64 + 1 * e.val = e.val; omega

/-- The value block at point `t`, read at a coordinate: the value array at row 2048 · (t % 8) + j. -/
theorem vblock_apply (c : Dev nD) (t : Fin cfg1.N) (j : Fin 2048) (e : Fin 64) :
    (iblk1 V c 2 t : S2048x64.Idx → EReal) (ix2 j e) = (V c main_v15 : S16384x64.Idx → EReal) (ix2 ⟨2048 * (t.val % 8) + j.val, by have := j.isLt; omega⟩ e) := by
  obtain ⟨e0, e1, e2, e3, e4, e5, e6, e7⟩ := idx_facts1 t
  show (V c main_v15 : S16384x64.Idx → EReal) (((cfg1.win 2).blk t).view.emb (ix2 j e)) = _
  congr 1
  funext a; apply Fin.ext
  match a with
  | ⟨0, _⟩ => show win1_2.index t (0 : Fin 2) * 2048 + 1 * j.val = 2048 * (t.val % 8) + j.val; omega
  | ⟨1, _⟩ => show win1_2.index t (1 : Fin 2) * 64 + 1 * e.val = e.val; omega

/-! ## From the written blocks to the output array -/

/-- An index of the output array is in point `t`'s block iff each coordinate is in the block's range on its axis. -/
theorem mem_blk1_3 (t : Fin cfg1.N) (i : S16384x64.Idx) :
    i ∈ ((cfg1.win 3).blk t).view.set ↔ ∀ a : Fin 2, win1_3.index t a * S1024x64.size a ≤ (i a).val ∧ (i a).val < win1_3.index t a * S1024x64.size a + S1024x64.size a := by
  show i ∈ ((View.whole main_v16).slice (win1_3.rect t)).set ↔ _
  rw [View.set_slice_whole, Rect.mem_set_unit]
  exact Iff.rfl

/-- Every row of the output array lies in the block written back at the last key/value tile of its query tile:
    row n at point 8 · (n / 1024) + 7. -/
theorem cover1_3 (i : S16384x64.Idx) :
    ∃ t : Fin cfg1.N, (cfg1.win 3).flush t = true ∧ i ∈ ((cfg1.win 3).blk t).view.set := by
  have hi0 : (i 0).val < 16384 := (i 0).isLt
  have hi1 : (i 1).val < 64 := (i 1).isLt
  have hN : cfg1.N = 128 := N_1
  let t : Fin cfg1.N := ⟨8 * ((i 0).val / 1024) + 7, by omega⟩
  have ht : t.val = 8 * ((i 0).val / 1024) + 7 := rfl
  obtain ⟨e0, e1, e2, e3, e4, e5, e6, e7⟩ := idx_facts1 t
  refine ⟨t, (flush1_3 t).mpr (by omega), ?_⟩
  rw [mem_blk1_3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 64 ≤ (i 1).val ∧ (i 1).val < win1_3.index t (1 : Fin 2) * 64 + 64; omega

/-- Blocks to the array: if at every point that writes the output back (second coordinate 7) the stored block is
    rows 1024 · (t / 8) .. of `G`, the array the write-backs leave is `G` — the sixteen written blocks tile the array,
    and the other points write nothing back. -/
theorem attn_array (c : Dev nD) (G : S16384x64.Idx → EReal)
    (hG : ∀ (t : Fin cfg1.N), t.val % 8 = 7 → ∀ (p : Fin 1024) (e : Fin 64),
      (k1_pay3 (F := Ideal) (scAt1 V c t.val t.isLt).2 (scAt1 V c t.val t.isLt).1 : S1024x64.Idx → EReal) (ix2 p e)
        = G (ix2 ⟨1024 * (t.val / 8) + p.val, by have := lt_of_lt_of_eq t.isLt (show cfg1.N = 128 from N_1); have := p.isLt; omega⟩ e)) :
    ((dat1 (F := Ideal) V c).arrAt 3 cfg1.N : S16384x64.Idx → EReal) = G := by
  refine (dat1 (F := Ideal) V c).arrAt_eq_of_cover 3 G (fun t hf => ?_) cover1_3
  have h7 : t.val % 8 = 7 := (flush1_3 t).mp hf
  obtain ⟨e0, e1, e2, e3, e4, e5, e6, e7⟩ := idx_facts1 t
  show (cfg1.win 3).cut (grid1.coords t) ((dat1 (F := Ideal) V c).after 3 t) = _
  rw [after1_3 V c t h7]
  funext j
  obtain ⟨p, e, rfl⟩ : ∃ (p : Fin 1024) (e : Fin 64), j = ix2 p e := ⟨j 0, j 1, eq_ix2 j⟩
  refine (hG t h7 p e).trans ?_
  show G _ = G (((cfg1.win 3).blk t).view.emb (ix2 p e))
  congr 1
  funext a; apply Fin.ext
  match a with
  | ⟨0, _⟩ => show 1024 * (t.val / 8) + p.val = win1_3.index t (0 : Fin 2) * 1024 + 1 * p.val; omega
  | ⟨1, _⟩ => show e.val = win1_3.index t (1 : Fin 2) * 64 + 1 * e.val; omega

end Cert.KernelIdeal.Hand

end
-- ==== Proof.AttnValue.lean ====
/-
  What the attention region leaves in its output array, read over the extended reals. Query tile qi is visited at
  the eight grid points 8·qi + kv; the two scratch buffers hold, after point 8·qi + kv, the sums over the first
  2048·(kv + 1) key/value rows of the exponential weights and of the weights times the value rows; at kv = 7 these
  are the sums over all 16384 rows, and the stored block is the attended rows squared and normalised.
-/
import proofs.«423754_j5703716569513_3_alg».proof.Proof.AttnRegion
import proofs.«423754_j5703716569513_3_alg».proof.Proof.Dense
import proofs.«423754_j5703716569513_3_alg».proof.Proof.AttnPayload
import proofs.«423754_j5703716569513_3_alg».proof.Proof.AttnBlocks
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat Cfg Window)

-- the TensorCore's buffer contents when the region is entered, at the ideal instance
variable (V : (c : Dev nD) → (b : Ref sig .tc) → Buf (Elt Ideal) ((c : Thread nD τ).loc b))

/-- The three input arrays as matrices of their coordinates. -/
abbrev Qm (c : Dev nD) : Fin 16384 → Fin 64 → EReal := mat (V c main_v13 : S16384x64.Idx → EReal)
abbrev Km (c : Dev nD) : Fin 16384 → Fin 64 → EReal := mat (V c main_v14 : S16384x64.Idx → EReal)
abbrev Vm (c : Dev nD) : Fin 16384 → Fin 64 → EReal := mat (V c main_v15 : S16384x64.Idx → EReal)

/-- Row p of the query tile that point n belongs to: tile n / 8. -/
def queryRow (n : ℕ) (p : Fin 1024) : Fin 16384 :=
  ⟨1024 * (n / 8 % 16) + p.val, by have := p.isLt; have := Nat.mod_lt (n / 8) (show 0 < 16 by norm_num); omega⟩

/-- The points of one query tile share their query rows. -/
theorem queryRow_succ (m : ℕ) (h : (m + 1) % 8 ≠ 0) (p : Fin 1024) : queryRow (m + 1) p = queryRow m p :=
  Fin.ext (by
    show 1024 * ((m + 1) / 8 % 16) + p.val = 1024 * (m / 8 % 16) + p.val
    have : (m + 1) / 8 = m / 8 := by omega
    rw [this])

/-! ## The blocks of the three input windows, as rows of the matrices -/

theorem query_block (c : Dev nD) (n : ℕ) (hn : n < cfg1.N) (p : Fin 1024) (e : Fin 64) :
    (iblk1 V c 0 ⟨n, hn⟩ : S1024x64.Idx → EReal) (ix2 p e) = Qm V c (queryRow n p) e := by
  rw [qblock_apply]
  have hN : n < 128 := lt_of_lt_of_eq hn (show cfg1.N = 128 from N_1)
  refine congrArg (fun r => (V c main_v13 : S16384x64.Idx → EReal) (ix2 r e)) (Fin.ext ?_)
  show 1024 * (n / 8) + p.val = 1024 * (n / 8 % 16) + p.val
  omega

theorem key_block (c : Dev nD) (n : ℕ) (hn : n < cfg1.N) (j : Fin 2048) (e : Fin 64) :
    (iblk1 V c 1 ⟨n, hn⟩ : S2048x64.Idx → EReal) (ix2 j e) = Km V c (tileRow n j) e := by
  rw [kblock_apply]
  rfl

theorem value_block (c : Dev nD) (n : ℕ) (hn : n < cfg1.N) (j : Fin 2048) (e : Fin 64) :
    (iblk1 V c 2 ⟨n, hn⟩ : S2048x64.Idx → EReal) (ix2 j e) = Vm V c (tileRow n j) e := by
  rw [vblock_apply]
  rfl

/-! ## One point's update of the carried state -/

theorem rowsum_point (c : Dev nD) (n : ℕ) (hn : n < cfg1.N) (l : Vec Ideal S1024x1 .f32) (p : Fin 1024) :
    k1_pay1 (F := Ideal) (k1_pay8 (F := Ideal) (iblk1 V c 0 ⟨n, hn⟩) (iblk1 V c 1 ⟨n, hn⟩) l) (ix2 p (0 : Fin 1))
      = l (ix2 p (0 : Fin 1)) + ∑ j : Fin 2048, weightK (Qm V c) (Km V c) (queryRow n p) (tileRow n j) :=
  rowsum_step (Qm V c) (Km V c) (queryRow n) (tileRow n) (iblk1 V c 0 ⟨n, hn⟩) (iblk1 V c 1 ⟨n, hn⟩)
    (query_block V c n hn) (key_block V c n hn) l p

theorem acc_point (c : Dev nD) (n : ℕ) (hn : n < cfg1.N) (acc : Vec Ideal S1024x64 .f32) (p : Fin 1024) (e : Fin 64) :
    k1_pay2 (F := Ideal) (k1_pay6 (F := Ideal) (iblk1 V c 2 ⟨n, hn⟩)) (k1_pay7 (F := Ideal) (iblk1 V c 0 ⟨n, hn⟩) (iblk1 V c 1 ⟨n, hn⟩)) acc (ix2 p e)
      = acc (ix2 p e) + ∑ j : Fin 2048, weightK (Qm V c) (Km V c) (queryRow n p) (tileRow n j) * Vm V c (tileRow n j) e :=
  acc_step (Qm V c) (Km V c) (Vm V c) (queryRow n) (tileRow n) (iblk1 V c 0 ⟨n, hn⟩) (iblk1 V c 1 ⟨n, hn⟩) (iblk1 V c 2 ⟨n, hn⟩)
    (query_block V c n hn) (key_block V c n hn) (value_block V c n hn) acc p e

/-! ## The carried state after every point -/

theorem state_first (c : Dev nD) (n : ℕ) (hn : n < cfg1.N) (h : n % 8 = 0) :
    scAt1 V c n hn = (k1_pay1 (F := Ideal) (k1_pay8 (F := Ideal) (iblk1 V c 0 ⟨n, hn⟩) (iblk1 V c 1 ⟨n, hn⟩) (k1_pay4 (F := Ideal))),
      k1_pay2 (F := Ideal) (k1_pay6 (F := Ideal) (iblk1 V c 2 ⟨n, hn⟩)) (k1_pay7 (F := Ideal) (iblk1 V c 0 ⟨n, hn⟩) (iblk1 V c 1 ⟨n, hn⟩)) (k1_pay5 (F := Ideal))) :=
  scAt1_first V c ⟨n, hn⟩ h

theorem state_next (c : Dev nD) (m : ℕ) (hn : m + 1 < cfg1.N) (h : (m + 1) % 8 ≠ 0) :
    scAt1 V c (m + 1) hn = (k1_pay1 (F := Ideal) (k1_pay8 (F := Ideal) (iblk1 V c 0 ⟨m + 1, hn⟩) (iblk1 V c 1 ⟨m + 1, hn⟩) (scAt1 V c m (Nat.lt_of_succ_lt hn)).1),
      k1_pay2 (F := Ideal) (k1_pay6 (F := Ideal) (iblk1 V c 2 ⟨m + 1, hn⟩)) (k1_pay7 (F := Ideal) (iblk1 V c 0 ⟨m + 1, hn⟩) (iblk1 V c 1 ⟨m + 1, hn⟩)) (scAt1 V c m (Nat.lt_of_succ_lt hn)).2) :=
  scAt1_next V c ⟨m + 1, hn⟩ h

/-- After point n, row p of the row sums is the sum of the weights over the key rows of the tiles 0 … n % 8, and
    row p of the accumulator the sum of the weights times the value rows over the same tiles. -/
theorem state_eq (c : Dev nD) : ∀ (n : ℕ) (hn : n < cfg1.N) (p : Fin 1024),
    (scAt1 V c n hn).1 (ix2 p (0 : Fin 1))
        = partSum (fun i => weightK (Qm V c) (Km V c) (queryRow n p) i) (n % 8 + 1)
    ∧ ∀ e : Fin 64, (scAt1 V c n hn).2 (ix2 p e)
        = partSum (fun i => weightK (Qm V c) (Km V c) (queryRow n p) i * Vm V c i e) (n % 8 + 1) := by
  have first : ∀ (n : ℕ) (hn : n < cfg1.N) (h : n % 8 = 0) (p : Fin 1024),
      (scAt1 V c n hn).1 (ix2 p (0 : Fin 1))
          = partSum (fun i => weightK (Qm V c) (Km V c) (queryRow n p) i) (n % 8 + 1)
      ∧ ∀ e : Fin 64, (scAt1 V c n hn).2 (ix2 p e)
          = partSum (fun i => weightK (Qm V c) (Km V c) (queryRow n p) i * Vm V c i e) (n % 8 + 1) := by
    intro n hn h p
    rw [state_first V c n hn h]
    dsimp only
    refine ⟨?_, fun e => ?_⟩
    · rw [rowsum_point V c n hn (k1_pay4 (F := Ideal)) p, pay4_apply, partSum_succ_mod, h, partSum_zero]
    · rw [acc_point V c n hn (k1_pay5 (F := Ideal)) p e, pay5_apply, partSum_succ_mod, h, partSum_zero]
  intro n
  induction n with
  | zero => exact fun hn p => first 0 hn rfl p
  | succ m ih =>
    intro hn p
    by_cases h : (m + 1) % 8 = 0
    · exact first (m + 1) hn h p
    · have e1 : (m + 1) % 8 = m % 8 + 1 := by omega
      obtain ⟨il, ia⟩ := ih (Nat.lt_of_succ_lt hn) p
      rw [state_next V c m hn h]
      dsimp only
      refine ⟨?_, fun e => ?_⟩
      · rw [rowsum_point V c (m + 1) hn (scAt1 V c m (Nat.lt_of_succ_lt hn)).1 p, partSum_succ_mod, e1, queryRow_succ m h p, il]
      · rw [acc_point V c (m + 1) hn (scAt1 V c m (Nat.lt_of_succ_lt hn)).2 p e, partSum_succ_mod, e1, queryRow_succ m h p, ia e]

/-! ## The stored block, and the array -/

/-- At the last point of a query tile the stored block holds the attended, measured rows of the tile. -/
theorem stored_row (c : Dev nD) (t : Fin cfg1.N) (h7 : t.val % 8 = 7) (p : Fin 1024) (e : Fin 64) :
    (k1_pay3 (F := Ideal) (scAt1 V c t.val t.isLt).2 (scAt1 V c t.val t.isLt).1 : S1024x64.Idx → EReal) (ix2 p e)
      = measure (attendK (Qm V c) (Km V c) (Vm V c)) (queryRow t.val p) e := by
  obtain ⟨hl, ha⟩ := state_eq V c t.val t.isLt p
  rw [stored_eq (scAt1 V c t.val t.isLt).2 (scAt1 V c t.val t.isLt).1
    (fun e' => ∑ i : Fin 16384, weightK (Qm V c) (Km V c) (queryRow t.val p) i * Vm V c i e')
    (∑ i : Fin 16384, weightK (Qm V c) (Km V c) (queryRow t.val p) i) p
    (fun e' => by rw [ha e', h7]; exact partSum_eight _) (by rw [hl, h7]; exact partSum_eight _) e]
  rfl

/-- The attended, measured rows. -/
theorem attn_value (c : Dev nD) :
    mat (((dat1 (F := Ideal) V c).arrAt 3 cfg1.N : S16384x64.Idx → EReal))
      = measure (attendK (mat (V c main_v13 : S16384x64.Idx → EReal)) (mat (V c main_v14 : S16384x64.Idx → EReal)) (mat (V c main_v15 : S16384x64.Idx → EReal))) := by
  rw [attn_array V c (fun i => measure (attendK (Qm V c) (Km V c) (Vm V c)) ⟨(i 0).val, idx2_lt0 i⟩ ⟨(i 1).val, idx2_lt1 i⟩) (fun t h7 p e => ?_)]
  · rfl
  · refine (stored_row V c t h7 p e).trans ?_
    have hN : t.val < 128 := lt_of_lt_of_eq t.isLt (show cfg1.N = 128 from N_1)
    refine congrArg (fun r => measure (attendK (Qm V c) (Km V c) (Vm V c)) r e) (Fin.ext ?_)
    show 1024 * (t.val / 8 % 16) + p.val = 1024 * (t.val / 8) + p.val
    omega

end Cert.KernelIdeal.Hand

end
-- ==== Proof.OutValue.lean ====
/-
  What the output-projection region leaves in its output array, read over the extended reals: the rows of its
  input times the (already transposed) weight plus the bias — the 512-row blocks the grid points write tile the
  2048 rows.
-/
import proofs.«423754_j5703716569513_3_alg».proof.Proof.OutRegion
import proofs.«423754_j5703716569513_3_alg».proof.Proof.Dense
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat Cfg Window)

-- the TensorCore's buffer contents when the region is entered, at the ideal instance
variable (V : (c : Dev nD) → (b : Ref sig .tc) → Buf (Elt Ideal) ((c : Thread nD τ).loc b))

/-! ## The 512x512 by 512x512 product's index maps: output (p, q), contraction d reads the left operand at (p, d) and the
    right at (d, q) -/

theorem lhs_sq_0 (i : S512x512.Idx) (k : dot_S512x512_S512x512_S512x512_1_0_0_1_n_n.contr.Idx) :
    (dot_S512x512_S512x512_S512x512_1_0_0_1_n_n.lhsIdx i k 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_sq_1 (i : S512x512.Idx) (k : dot_S512x512_S512x512_S512x512_1_0_0_1_n_n.contr.Idx) :
    (dot_S512x512_S512x512_S512x512_1_0_0_1_n_n.lhsIdx i k 1).val = (k ⟨0, by decide⟩).val :=
  dot_S512x512_S512x512_S512x512_1_0_0_1_n_n.lhsIdx_val_of_single rfl i k
theorem rhs_sq_0 (i : S512x512.Idx) (k : dot_S512x512_S512x512_S512x512_1_0_0_1_n_n.contr.Idx) :
    (dot_S512x512_S512x512_S512x512_1_0_0_1_n_n.rhsIdx i k 0).val = (k ⟨0, by decide⟩).val :=
  dot_S512x512_S512x512_S512x512_1_0_0_1_n_n.rhsIdx_val_of_single rfl i k
theorem rhs_sq_1 (i : S512x512.Idx) (k : dot_S512x512_S512x512_S512x512_1_0_0_1_n_n.contr.Idx) :
    (dot_S512x512_S512x512_S512x512_1_0_0_1_n_n.rhsIdx i k 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- Over the extended reals the product into a zero accumulator is the plain sum Σ_d a[p,d]·b[d,q]. -/
theorem matmul_sq_apply {φ₁ φ₂ : FTy} (a : FVec Ideal S512x512 φ₁) (b : FVec Ideal S512x512 φ₂) (p q : Fin 512) :
    matmul dot_S512x512_S512x512_S512x512_1_0_0_1_n_n none a b (constant (F := Ideal) S512x512 .f32 0x00000000#32) (ix2 p q)
      = ∑ d : Fin 512, a (ix2 p d) * b (ix2 d q) := by
  unfold matmul
  rw [Ideal.matmul_constant_zero_apply, ← Equiv.sum_comp (contrEquiv1 dot_S512x512_S512x512_S512x512_1_0_0_1_n_n 512 rfl rfl).symm]
  refine Finset.sum_congr rfl fun d _ => ?_
  have hd := contrEquiv1_symm_val dot_S512x512_S512x512_S512x512_1_0_0_1_n_n 512 rfl rfl d
  have el : dot_S512x512_S512x512_S512x512_1_0_0_1_n_n.lhsIdx (ix2 p q) ((contrEquiv1 dot_S512x512_S512x512_S512x512_1_0_0_1_n_n 512 rfl rfl).symm d) = ix2 p d := funext fun ax => Fin.ext (by
    match ax with
    | ⟨0, _⟩ => exact lhs_sq_0 _ _
    | ⟨1, _⟩ => exact (lhs_sq_1 _ _).trans hd)
  have er : dot_S512x512_S512x512_S512x512_1_0_0_1_n_n.rhsIdx (ix2 p q) ((contrEquiv1 dot_S512x512_S512x512_S512x512_1_0_0_1_n_n 512 rfl rfl).symm d) = ix2 d q := funext fun ax => Fin.ext (by
    match ax with
    | ⟨0, _⟩ => exact (rhs_sq_0 _ _).trans hd
    | ⟨1, _⟩ => exact rhs_sq_1 _ _)
  rw [el, er]

/-- A 1x512 row broadcast down 512 rows reads the row's entry in the same column. -/
theorem bcast_row_apply (v : Vec Ideal S1x512 .f32) (p q : Fin 512) :
    broadcastTo S512x512 v broadcasts_S1x512_S512x512 (ix2 p q) = v (ix2 (0 : Fin 1) q) := by
  refine broadcastTo_apply v broadcasts_S1x512_S512x512 (ix2 p q) (ix2 (0 : Fin 1) q) fun ax => ?_
  match ax with
  | ⟨0, _⟩ => rfl
  | ⟨1, _⟩ => rfl

/-- The body's stored value at (p, q): Σ_d x[p,d]·w[d,q] + b[0,q] (the roundings to bf16 are the identity here). -/
theorem pay_apply (x0 w1 : Vec Ideal S512x512 .f32) (b2 : Vec Ideal S1x512 .f32) (p q : Fin 512) :
    k2_pay1 (F := Ideal) x0 w1 b2 (ix2 p q) = (∑ d : Fin 512, x0 (ix2 p d) * w1 (ix2 d q)) + b2 (ix2 (0 : Fin 1) q) := by
  unfold k2_pay1
  simp only [shapeCast_self]
  rw [addf_apply, matmul_sq_apply, bcast_row_apply]
  rfl

/-! ## The whole output array as one function of the three input arrays -/

/-- Entry (r, o) of the output: Σ_d X[r,d]·Wt[d,o] + B[0,o]. -/
def denseArr (X : S2048x512.Idx → EReal) (Wt : S512x512.Idx → EReal) (B : S1x512.Idx → EReal) : S2048x512.Idx → EReal :=
  fun i => (∑ d : Fin 512, X (ix2 (⟨(i 0).val, idx2_lt0 i⟩ : Fin 2048) d) * Wt (ix2 d (⟨(i 1).val, idx2_lt1 i⟩ : Fin 512)))
    + B (ix2 (0 : Fin 1) (⟨(i 1).val, idx2_lt1 i⟩ : Fin 512))

theorem zero_offsets : (![0, 0] : Fin 2 → Nat) = fun _ => 0 := funext fun a => by fin_cases a <;> rfl

/-- The body's stored value at a block index j, with j's coordinates rebuilt as numbers below 512. -/
theorem pay_at (x0 w1 : Vec Ideal S512x512 .f32) (b2 : Vec Ideal S1x512 .f32) (j : S512x512.Idx) :
    k2_pay1 (F := Ideal) x0 w1 b2 j
      = (∑ d : Fin 512, x0 (ix2 (⟨(j 0).val, idx2_lt0 j⟩ : Fin 512) d) * w1 (ix2 d (⟨(j 1).val, idx2_lt1 j⟩ : Fin 512)))
        + b2 (ix2 (0 : Fin 1) (⟨(j 1).val, idx2_lt1 j⟩ : Fin 512)) := by
  obtain ⟨p, q, rfl⟩ : ∃ (p : Fin 512) (q : Fin 512), j = ix2 p q := ⟨j 0, j 1, eq_ix2 j⟩
  exact pay_apply x0 w1 b2 p q

/-- The windows' block indices over the 4 grid points: the rows' and the output's block is the point's number on the row
    axis; every other block index is zero. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The rows' block at point t is rows 512·t … 512·t + 511 of the rows' array. -/
theorem rows_block_apply (c : Dev nD) (t : Fin cfg2.N) (y : S512x512.Idx) (k : S2048x512.Idx)
    (h0 : (k 0).val = 512 * t.val + (y 0).val) (h1 : (k 1).val = (y 1).val) :
    (iblk2 V c 0 t : Vec Ideal S512x512 .f32) y = (V c main_v17 : S2048x512.Idx → EReal) k := by
  obtain ⟨e0, e1, -⟩ := block_indices t
  unfold iblk2
  rw [View.read_apply]
  show V c main_v17 _ = V c main_v17 _
  congr 1
  funext a
  apply Fin.ext
  match a with
  | ⟨0, _⟩ => show win2_0.index t (0 : Fin 2) * 512 + 1 * (y 0).val = (k 0).val; rw [e0, h0]; omega
  | ⟨1, _⟩ => show win2_0.index t (1 : Fin 2) * 512 + 1 * (y 1).val = (k 1).val; rw [e1, h1]; omega

/-- The weight's block at every point is the whole weight array. -/
theorem weight_block_apply (c : Dev nD) (t : Fin cfg2.N) (y : S512x512.Idx) :
    (iblk2 V c 1 t : Vec Ideal S512x512 .f32) y = (V c main_v7 : S512x512.Idx → EReal) y := by
  obtain ⟨-, -, e0, e1, -⟩ := block_indices t
  unfold iblk2
  rw [View.read_apply]
  show V c main_v7 _ = V c main_v7 _
  congr 1
  funext a
  apply Fin.ext
  match a with
  | ⟨0, _⟩ => show win2_1.index t (0 : Fin 2) * 512 + 1 * (y 0).val = (y 0).val; rw [e0]; omega
  | ⟨1, _⟩ => show win2_1.index t (1 : Fin 2) * 512 + 1 * (y 1).val = (y 1).val; rw [e1]; omega

/-- The bias's block at every point is the whole bias row. -/
theorem bias_block_apply (c : Dev nD) (t : Fin cfg2.N) (y : S1x512.Idx) :
    (iblk2 V c 2 t : Vec Ideal S1x512 .f32) y = (V c main_v18 : S1x512.Idx → EReal) y := by
  obtain ⟨-, -, -, -, e0, e1, -⟩ := block_indices t
  unfold iblk2
  rw [View.read_apply]
  show V c main_v18 _ = V c main_v18 _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 512 + 1 * (y 1).val = (y 1).val; rw [e1]; omega

/-- What point t writes back is block t of `denseArr` of the three arrays as the region finds them. -/
theorem flushed_dense (c : Dev nD) (t : Fin cfg2.N) :
    (dat2 (F := Ideal) V c).flushed 3 t
      = ((cfg2.win 3).blk t).view.read (Elt Ideal) (denseArr (V c main_v17) (V c main_v7) (V c main_v18)) := by
  show (cfg2.win 3).cut (grid2.coords t) ((dat2 (F := Ideal) V c).after 3 t) = _
  rw [after2_3]
  unfold out2_3
  rw [View.canon_unit_zero zero_offsets]
  simp only [View.ld_unit_zero (S := S512x512) zero_offsets, View.ld_unit_zero (S := S1x512) zero_offsets]
  obtain ⟨-, -, -, -, -, -, e0, e1⟩ := block_indices t
  funext j
  show k2_pay1 (F := Ideal) (iblk2 V c 0 t) (iblk2 V c 1 t) (iblk2 V c 2 t) j
    = denseArr (V c main_v17) (V c main_v7) (V c main_v18) (((cfg2.win 3).blk t).view.emb j)
  refine (pay_at (iblk2 V c 0 t) (iblk2 V c 1 t) (iblk2 V c 2 t) j).trans ?_
  have hj0 : (j 0).val < 512 := idx2_lt0 (n0 := 512) (n1 := 512) j
  have hj1 : (j 1).val < 512 := idx2_lt1 (n0 := 512) (n1 := 512) j
  have g0 : ((((cfg2.win 3).blk t).view.emb j) 0).val = 512 * t.val + (j 0).val := by
    show win2_3.index t (0 : Fin 2) * 512 + 1 * (j 0).val = _; rw [e0]; omega
  have g1 : ((((cfg2.win 3).blk t).view.emb j) 1).val = (j 1).val := by
    show win2_3.index t (1 : Fin 2) * 512 + 1 * (j 1).val = _; rw [e1]; omega
  unfold denseArr
  congr 1
  · refine Finset.sum_congr rfl fun d _ => ?_
    congr 1
    · exact rows_block_apply V c t _ _ g0 rfl
    · rw [weight_block_apply V c t]
      exact congrArg _ (funext fun a => Fin.ext (by
        match a with
        | ⟨0, _⟩ => rfl
        | ⟨1, _⟩ => exact g1.symm))
  · rw [bias_block_apply V c t]
    exact congrArg _ (funext fun a => Fin.ext (by
      match a with
      | ⟨0, _⟩ => rfl
      | ⟨1, _⟩ => exact g1.symm))

/-- An index of the output array is in point t's block iff each coordinate is in the block's range on its axis. -/
theorem mem_out_block (t : Fin cfg2.N) (i : S2048x512.Idx) :
    i ∈ ((cfg2.win 3).blk t).view.set ↔ ∀ a : Fin 2, win2_3.index t a * S512x512.size a ≤ (i a).val ∧ (i a).val < win2_3.index t a * S512x512.size a + S512x512.size a := by
  show i ∈ ((View.whole main_v19).slice (win2_3.rect t)).set ↔ _
  rw [View.set_slice_whole, Rect.mem_set_unit]
  exact Iff.rfl

/-- The four 512-row blocks tile the 2048 rows: row r is in the block of point r / 512. -/
theorem out_cover (i : S2048x512.Idx) :
    ∃ t : Fin cfg2.N, (cfg2.win 3).flush t = true ∧ i ∈ ((cfg2.win 3).blk t).view.set := by
  have hi0 : (i 0).val < 2048 := idx2_lt0 (n0 := 2048) (n1 := 512) i
  have hi1 : (i 1).val < 512 := idx2_lt1 (n0 := 2048) (n1 := 512) i
  have hN : cfg2.N = 4 := N_2
  refine ⟨⟨(i 0).val / 512, by rw [hN]; omega⟩, flush2_3 _, ?_⟩
  obtain ⟨-, -, -, -, -, -, e0, e1⟩ := block_indices ⟨(i 0).val / 512, by rw [hN]; omega⟩
  rw [mem_out_block]
  intro a
  match a with
  | ⟨0, _⟩ =>
    show win2_3.index _ (0 : Fin 2) * 512 ≤ (i 0).val ∧ (i 0).val < win2_3.index _ (0 : Fin 2) * 512 + 512
    rw [e0]; show (i 0).val / 512 * 512 ≤ (i 0).val ∧ (i 0).val < (i 0).val / 512 * 512 + 512; omega
  | ⟨1, _⟩ =>
    show win2_3.index _ (1 : Fin 2) * 512 ≤ (i 1).val ∧ (i 1).val < win2_3.index _ (1 : Fin 2) * 512 + 512
    rw [e1]; omega

/-- The output array after the region is `denseArr` of the three input arrays. -/
theorem out_array (c : Dev nD) :
    (dat2 (F := Ideal) V c).arrAt 3 cfg2.N = denseArr (V c main_v17) (V c main_v7) (V c main_v18) :=
  (dat2 (F := Ideal) V c).arrAt_eq_of_cover 3 (denseArr (V c main_v17) (V c main_v7) (V c main_v18))
    (fun t _ => flushed_dense V c t) out_cover

/-- The output projection. -/
theorem out_value (c : Dev nD) :
    mat (((dat2 (F := Ideal) V c).arrAt 3 cfg2.N : S2048x512.Idx → EReal))
      = dense2 (mat (V c main_v17 : S2048x512.Idx → EReal)) (mat (V c main_v7 : S512x512.Idx → EReal)) (fun o => mat (V c main_v18 : S1x512.Idx → EReal) 0 o) := by
  funext r o
  unfold mat dense2
  rw [out_array V c]
  rfl

end Cert.KernelIdeal.Hand

end
-- ==== Proof.KernelValue.lean ====
/-
  The kernel program's result as the specification's function of its thirteen arguments, over the extended reals.

  @main is four stretches of host operations around three kernel regions. The first stretch multiplies out each
  rank-4 weight (a [512, 4] array times a [4, 512] array) and transposes the product, so that entry (d, o) is
  W[o, d]; reshapes the input [2, 1024, 512] to its 2048 rows of 512; and reshapes each bias to one row. The
  projection region then leaves q, k, v — each the rows times a transposed weight plus a bias, which is the
  specification's projection. The second stretch reads q, k, v as 16384 rows of 64 (the heads), the attention
  region leaves the attended rows squared and normalised, the third stretch reads them back as 2048 rows of 512
  and reshapes the output bias, the output-projection region projects once more, and the last stretch reshapes the
  2048 rows to [2, 1024, 512].

  Each buffer is read once, at the boundary where it is used: a buffer a stretch writes is the stretch's operation
  applied to the contents before it; a region's output array is what the region's value theorem says; any other
  buffer is read through unchanged. A reshape is read by coordinates through the row-major position, the transposed
  product through the contraction's one axis.
-/
import proofs.«423754_j5703716569513_3_alg».proof.Proof.Segments
import proofs.«423754_j5703716569513_3_alg».proof.Proof.ProjValue
import proofs.«423754_j5703716569513_3_alg».proof.Proof.AttnValue
import proofs.«423754_j5703716569513_3_alg».proof.Proof.OutValue
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx

/-! ## Reshapes read by coordinates -/

/-- An array [2, 1024, 512] reshaped to [2048, 512] is its 2048 rows. -/
theorem mat_reshape_rows3 (x : S2x1024x512.Idx → EReal) :
    mat (shapeCast S2048x512 x shapeCasts_S2x1024x512_S2048x512) = rows3 x := by
  funext r d
  unfold mat rows3
  refine shapeCast_apply x shapeCasts_S2x1024x512_S2048x512 (ix2 r d) _ ?_
  rw [Shape.rowMajor_val_three, Shape.rowMajor_val_two]
  have hr := r.isLt; have hd := d.isLt
  show (r.val / 1024 * 1024 + r.val % 1024) * 512 + d.val = r.val * 512 + d.val
  omega

/-- 2048 rows of 512 reshaped to [16384, 64]: row n is the (n % 8)-th group of 64 columns of row n / 8. -/
theorem mat_reshape_heads (y : S2048x512.Idx → EReal) :
    mat (shapeCast S16384x64 y shapeCasts_S2048x512_S16384x64) = heads (mat y) := by
  funext n e
  unfold mat heads
  refine shapeCast_apply y shapeCasts_S2048x512_S16384x64 (ix2 n e) _ ?_
  rw [Shape.rowMajor_val_two, Shape.rowMajor_val_two]
  have hn := n.isLt; have he := e.isLt
  show n.val / 8 * 512 + (n.val % 8 * 64 + e.val) = n.val * 64 + e.val
  omega

/-- 16384 rows of 64 reshaped back to [2048, 512]. -/
theorem mat_reshape_unheads (a : S16384x64.Idx → EReal) :
    mat (shapeCast S2048x512 a shapeCasts_S16384x64_S2048x512) = unheads (mat a) := by
  funext r o
  unfold mat unheads
  refine shapeCast_apply a shapeCasts_S16384x64_S2048x512 (ix2 r o) _ ?_
  rw [Shape.rowMajor_val_two, Shape.rowMajor_val_two]
  have hr := r.isLt; have ho := o.isLt
  show (r.val * 8 + o.val / 64) * 64 + o.val % 64 = r.val * 512 + o.val
  omega

/-- 2048 rows of 512 reshaped to [2, 1024, 512]. -/
theorem reshape_unrows3 (y : S2048x512.Idx → EReal) :
    shapeCast S2x1024x512 y shapeCasts_S2048x512_S2x1024x512 = unrows3 (mat y) := by
  funext i
  unfold unrows3 mat
  refine shapeCast_apply y shapeCasts_S2048x512_S2x1024x512 i _ ?_
  rw [Shape.rowMajor_val_two, Shape.rowMajor_val_three]
  show ((i 0).val * 1024 + (i 1).val) * 512 + (i 2).val = ((i 0).val * 1024 + (i 1).val) * 512 + (i 2).val
  rfl

/-- A vector of 512 reshaped to one row of 512. -/
theorem mat_reshape_vec (b : S512.Idx → EReal) :
    (fun o => mat (shapeCast S1x512 b shapeCasts_S512_S1x512) 0 o) = vec b := by
  funext o
  unfold mat vec
  refine shapeCast_apply b shapeCasts_S512_S1x512 (ix2 0 o) _ ?_
  rw [Shape.rowMajor_val_one, Shape.rowMajor_val_two]
  show o.val = 0 * 512 + o.val
  omega

/-! ## The host product of a rank-4 weight's two factors, transposed -/

/-- The left factor is read at row `i 0` … -/
theorem dotW_lhs0 (i : S512x512.Idx) (q : dot_S512x4_S4x512_S512x512_1_0_0_1_n_n.contr.Idx) :
    (dot_S512x4_S4x512_S512x512_1_0_0_1_n_n.lhsIdx i q 0).val = (i 0).val := by
  unfold DotDims.lhsIdx
  rw [dif_neg (show ¬(0 : Fin S512x4.rank) ∈ dot_S512x4_S4x512_S512x512_1_0_0_1_n_n.lhsBatch by decide), dif_pos (show (0 : Fin S512x4.rank) ∈ dot_S512x4_S4x512_S512x512_1_0_0_1_n_n.lhsNonContracting by decide)]
  rfl
/-- … and at the contraction's coordinate. -/
theorem dotW_lhs1 (i : S512x512.Idx) (q : dot_S512x4_S4x512_S512x512_1_0_0_1_n_n.contr.Idx) :
    (dot_S512x4_S4x512_S512x512_1_0_0_1_n_n.lhsIdx i q 1).val = (q ⟨0, by decide⟩).val :=
  dot_S512x4_S4x512_S512x512_1_0_0_1_n_n.lhsIdx_val_of_single rfl i q
/-- The right factor is read at the contraction's coordinate … -/
theorem dotW_rhs0 (i : S512x512.Idx) (q : dot_S512x4_S4x512_S512x512_1_0_0_1_n_n.contr.Idx) :
    (dot_S512x4_S4x512_S512x512_1_0_0_1_n_n.rhsIdx i q 0).val = (q ⟨0, by decide⟩).val :=
  dot_S512x4_S4x512_S512x512_1_0_0_1_n_n.rhsIdx_val_of_single rfl i q
/-- … and at column `i 1`. -/
theorem dotW_rhs1 (i : S512x512.Idx) (q : dot_S512x4_S4x512_S512x512_1_0_0_1_n_n.contr.Idx) :
    (dot_S512x4_S4x512_S512x512_1_0_0_1_n_n.rhsIdx i q 1).val = (i 1).val := by
  unfold DotDims.rhsIdx
  rw [dif_neg (show ¬(1 : Fin S4x512.rank) ∈ dot_S512x4_S4x512_S512x512_1_0_0_1_n_n.rhsBatch by decide), dif_pos (show (1 : Fin S4x512.rank) ∈ dot_S512x4_S4x512_S512x512_1_0_0_1_n_n.rhsNonContracting by decide)]
  rfl

/-- The product of a [512, 4] array A and a [4, 512] array B at (o, d): Σ_k A[o,k]·B[k,d]. -/
theorem dotW_apply (A : (⟨S512x4, .f32⟩ : BufTy).Contents (Elt Ideal)) (B : (⟨S4x512, .f32⟩ : BufTy).Contents (Elt Ideal)) (o d : Fin 512) :
    (Host.dotGeneral (F := Ideal) (φ₁ := .f32) (φ₂ := .f32) dot_S512x4_S4x512_S512x512_1_0_0_1_n_n none A B : S512x512.Idx → EReal) (ix2 o d)
      = ∑ k : Fin 4, A (ix2 o k) * B (ix2 k d) := by
  simp only [Host.dotGeneral]
  rw [Ideal.dotGeneral_apply, ← Equiv.sum_comp (ValueIdx.contrEquiv1 dot_S512x4_S4x512_S512x512_1_0_0_1_n_n 4 rfl rfl).symm]
  refine Finset.sum_congr rfl fun k _ => ?_
  have hk := ValueIdx.contrEquiv1_symm_val dot_S512x4_S4x512_S512x512_1_0_0_1_n_n 4 rfl rfl k
  have el : dot_S512x4_S4x512_S512x512_1_0_0_1_n_n.lhsIdx (ix2 o d) ((ValueIdx.contrEquiv1 dot_S512x4_S4x512_S512x512_1_0_0_1_n_n 4 rfl rfl).symm k) = ix2 o k := funext fun a => Fin.ext (by
    match a with
    | ⟨0, _⟩ => exact dotW_lhs0 _ _
    | ⟨1, _⟩ => exact (dotW_lhs1 _ _).trans hk)
  have er : dot_S512x4_S4x512_S512x512_1_0_0_1_n_n.rhsIdx (ix2 o d) ((ValueIdx.contrEquiv1 dot_S512x4_S4x512_S512x512_1_0_0_1_n_n 4 rfl rfl).symm k) = ix2 k d := funext fun a => Fin.ext (by
    match a with
    | ⟨0, _⟩ => exact (dotW_rhs0 _ _).trans hk
    | ⟨1, _⟩ => exact dotW_rhs1 _ _)
  rw [el, er]

/-- The transpose of that product, by coordinates: entry (d, o) is the rank-4 weight W[o, d]. -/
theorem mat_transpose_dotW (A : (⟨S512x4, .f32⟩ : BufTy).Contents (Elt Ideal)) (B : (⟨S4x512, .f32⟩ : BufTy).Contents (Elt Ideal)) :
    mat (transpose S512x512 [1, 0] (Host.dotGeneral (F := Ideal) (φ₁ := .f32) (φ₂ := .f32) dot_S512x4_S4x512_S512x512_1_0_0_1_n_n none A B : S512x512.Idx → EReal) transposes_S512x512_S512x512_1_0)
      = fun d o => weight (mat A) (mat B) o d := by
  funext d o
  unfold mat weight
  refine (transpose_apply [1, 0] _ transposes_S512x512_S512x512_1_0 (ix2 d o) (ix2 o d) (fun b => match b with
    | ⟨0, _⟩ => rfl
    | ⟨1, _⟩ => rfl)).trans ?_
  exact dotW_apply A B o d

/-! ## The first host stretch: what the projection region finds -/

variable (m : (ℓ : Loc nD τ sig) → Buf (Elt Ideal) ℓ) (ρ : Dev nD → PrngReg)

/-- The input, reshaped to 2048 rows of 512. -/
theorem V1_x (c : Dev nD) :
    mat (V1 (F := Ideal) m ρ c main_v8 : S2048x512.Idx → EReal) = rows3 (m ((c : Thread nD τ).loc main_arg0)) := by
  have e : (V1 (F := Ideal) m ρ c main_v8 : S2048x512.Idx → EReal)
      = shapeCast S2048x512 ((m ((c : Thread nD τ).loc main_arg0)) : S2x1024x512.Idx → EReal) shapeCasts_S2x1024x512_S2048x512 := by
    show StableHlo.after hostOps0 _ (Proc.devRef .tc main_v8) = _
    after_results
    rfl
  rw [e]
  exact mat_reshape_rows3 _

/-- The q weight, multiplied out and transposed. -/
theorem V1_wq (c : Dev nD) :
    mat (V1 (F := Ideal) m ρ c main_v1 : S512x512.Idx → EReal)
      = fun d o => weight (mat (m ((c : Thread nD τ).loc main_arg1))) (mat (m ((c : Thread nD τ).loc main_arg2))) o d := by
  have e : (V1 (F := Ideal) m ρ c main_v1 : S512x512.Idx → EReal)
      = transpose S512x512 [1, 0] (Host.dotGeneral (F := Ideal) (φ₁ := .f32) (φ₂ := .f32) dot_S512x4_S4x512_S512x512_1_0_0_1_n_n none (m ((c : Thread nD τ).loc main_arg1)) (m ((c : Thread nD τ).loc main_arg2)) : S512x512.Idx → EReal) transposes_S512x512_S512x512_1_0 := by
    show StableHlo.after hostOps0 _ (Proc.devRef .tc main_v1) = _
    after_results
  rw [e]
  exact mat_transpose_dotW _ _

/-- The k weight, multiplied out and transposed. -/
theorem V1_wk (c : Dev nD) :
    mat (V1 (F := Ideal) m ρ c main_v3 : S512x512.Idx → EReal)
      = fun d o => weight (mat (m ((c : Thread nD τ).loc main_arg4))) (mat (m ((c : Thread nD τ).loc main_arg5))) o d := by
  have e : (V1 (F := Ideal) m ρ c main_v3 : S512x512.Idx → EReal)
      = transpose S512x512 [1, 0] (Host.dotGeneral (F := Ideal) (φ₁ := .f32) (φ₂ := .f32) dot_S512x4_S4x512_S512x512_1_0_0_1_n_n none (m ((c : Thread nD τ).loc main_arg4)) (m ((c : Thread nD τ).loc main_arg5)) : S512x512.Idx → EReal) transposes_S512x512_S512x512_1_0 := by
    show StableHlo.after hostOps0 _ (Proc.devRef .tc main_v3) = _
    after_results
  rw [e]
  exact mat_transpose_dotW _ _

/-- The v weight, multiplied out and transposed. -/
theorem V1_wv (c : Dev nD) :
    mat (V1 (F := Ideal) m ρ c main_v5 : S512x512.Idx → EReal)
      = fun d o => weight (mat (m ((c : Thread nD τ).loc main_arg7))) (mat (m ((c : Thread nD τ).loc main_arg8))) o d := by
  have e : (V1 (F := Ideal) m ρ c main_v5 : S512x512.Idx → EReal)
      = transpose S512x512 [1, 0] (Host.dotGeneral (F := Ideal) (φ₁ := .f32) (φ₂ := .f32) dot_S512x4_S4x512_S512x512_1_0_0_1_n_n none (m ((c : Thread nD τ).loc main_arg7)) (m ((c : Thread nD τ).loc main_arg8)) : S512x512.Idx → EReal) transposes_S512x512_S512x512_1_0 := by
    show StableHlo.after hostOps0 _ (Proc.devRef .tc main_v5) = _
    after_results
  rw [e]
  exact mat_transpose_dotW _ _

/-- The output weight, multiplied out and transposed. -/
theorem V1_wo (c : Dev nD) :
    mat (V1 (F := Ideal) m ρ c main_v7 : S512x512.Idx → EReal)
      = fun d o => weight (mat (m ((c : Thread nD τ).loc main_arg10))) (mat (m ((c : Thread nD τ).loc main_arg11))) o d := by
  have e : (V1 (F := Ideal) m ρ c main_v7 : S512x512.Idx → EReal)
      = transpose S512x512 [1, 0] (Host.dotGeneral (F := Ideal) (φ₁ := .f32) (φ₂ := .f32) dot_S512x4_S4x512_S512x512_1_0_0_1_n_n none (m ((c : Thread nD τ).loc main_arg10)) (m ((c : Thread nD τ).loc main_arg11)) : S512x512.Idx → EReal) transposes_S512x512_S512x512_1_0 := by
    show StableHlo.after hostOps0 _ (Proc.devRef .tc main_v7) = _
    after_results
  rw [e]
  exact mat_transpose_dotW _ _

/-- The q bias as one row. -/
theorem V1_bq (c : Dev nD) :
    (fun o => mat (V1 (F := Ideal) m ρ c main_v9 : S1x512.Idx → EReal) 0 o) = vec (m ((c : Thread nD τ).loc main_arg3)) := by
  have e : (V1 (F := Ideal) m ρ c main_v9 : S1x512.Idx → EReal)
      = shapeCast S1x512 ((m ((c : Thread nD τ).loc main_arg3)) : S512.Idx → EReal) shapeCasts_S512_S1x512 := by
    show StableHlo.after hostOps0 _ (Proc.devRef .tc main_v9) = _
    after_results
    rfl
  rw [e]
  exact mat_reshape_vec _

/-- The k bias as one row. -/
theorem V1_bk (c : Dev nD) :
    (fun o => mat (V1 (F := Ideal) m ρ c main_v10 : S1x512.Idx → EReal) 0 o) = vec (m ((c : Thread nD τ).loc main_arg6)) := by
  have e : (V1 (F := Ideal) m ρ c main_v10 : S1x512.Idx → EReal)
      = shapeCast S1x512 ((m ((c : Thread nD τ).loc main_arg6)) : S512.Idx → EReal) shapeCasts_S512_S1x512 := by
    show StableHlo.after hostOps0 _ (Proc.devRef .tc main_v10) = _
    after_results
    rfl
  rw [e]
  exact mat_reshape_vec _

/-- The v bias as one row. -/
theorem V1_bv (c : Dev nD) :
    (fun o => mat (V1 (F := Ideal) m ρ c main_v11 : S1x512.Idx → EReal) 0 o) = vec (m ((c : Thread nD τ).loc main_arg9)) := by
  have e : (V1 (F := Ideal) m ρ c main_v11 : S1x512.Idx → EReal)
      = shapeCast S1x512 ((m ((c : Thread nD τ).loc main_arg9)) : S512.Idx → EReal) shapeCasts_S512_S1x512 := by
    show StableHlo.after hostOps0 _ (Proc.devRef .tc main_v11) = _
    after_results
    rfl
  rw [e]
  exact mat_reshape_vec _

/-! ## The specification's intermediate arrays, of the launch arguments -/

/-- The q projection of the launch arguments. -/
abbrev qS (c : Dev nD) : Fin 2048 → Fin 512 → EReal :=
  proj (rows3 (m ((c : Thread nD τ).loc main_arg0))) (mat (m ((c : Thread nD τ).loc main_arg1))) (mat (m ((c : Thread nD τ).loc main_arg2))) (vec (m ((c : Thread nD τ).loc main_arg3)))
/-- The k projection. -/
abbrev kS (c : Dev nD) : Fin 2048 → Fin 512 → EReal :=
  proj (rows3 (m ((c : Thread nD τ).loc main_arg0))) (mat (m ((c : Thread nD τ).loc main_arg4))) (mat (m ((c : Thread nD τ).loc main_arg5))) (vec (m ((c : Thread nD τ).loc main_arg6)))
/-- The v projection. -/
abbrev vS (c : Dev nD) : Fin 2048 → Fin 512 → EReal :=
  proj (rows3 (m ((c : Thread nD τ).loc main_arg0))) (mat (m ((c : Thread nD τ).loc main_arg7))) (mat (m ((c : Thread nD τ).loc main_arg8))) (vec (m ((c : Thread nD τ).loc main_arg9)))
/-- The attended rows, squared and normalised. -/
abbrev aS (c : Dev nD) : Fin 16384 → Fin 64 → EReal :=
  measure (attendK (heads (qS m c)) (heads (kS m c)) (heads (vS m c)))

/-! ## The projection region's three outputs -/

/-- q: the region's first output is the specification's q projection. -/
theorem W2_q (c : Dev nD) :
    mat (W2 (F := Ideal) m ρ c (Proc.devRef .tc main_v12_0) : S2048x512.Idx → EReal) = qS m c := by
  have e : (W2 (F := Ideal) m ρ c (Proc.devRef .tc main_v12_0) : S2048x512.Idx → EReal)
      = ((dat0 (F := Ideal) (V1 m ρ) c).arrAt 7 cfg0.N : S2048x512.Idx → EReal) := W2_arr m ρ c 7
  rw [e, proj_value_q (V1 (F := Ideal) m ρ) c, V1_x m ρ c, V1_wq m ρ c, V1_bq m ρ c]
  exact dense2_weight _ _ _ _
/-- k. -/
theorem W2_k (c : Dev nD) :
    mat (W2 (F := Ideal) m ρ c (Proc.devRef .tc main_v12_1) : S2048x512.Idx → EReal) = kS m c := by
  have e : (W2 (F := Ideal) m ρ c (Proc.devRef .tc main_v12_1) : S2048x512.Idx → EReal)
      = ((dat0 (F := Ideal) (V1 m ρ) c).arrAt 8 cfg0.N : S2048x512.Idx → EReal) := W2_arr m ρ c 8
  rw [e, proj_value_k (V1 (F := Ideal) m ρ) c, V1_x m ρ c, V1_wk m ρ c, V1_bk m ρ c]
  exact dense2_weight _ _ _ _
/-- v (stored in the narrower float format, the same extended real). -/
theorem W2_v (c : Dev nD) :
    mat (W2 (F := Ideal) m ρ c (Proc.devRef .tc main_v12_2) : S2048x512.Idx → EReal) = vS m c := by
  have e : (W2 (F := Ideal) m ρ c (Proc.devRef .tc main_v12_2) : S2048x512.Idx → EReal)
      = ((dat0 (F := Ideal) (V1 m ρ) c).arrAt 9 cfg0.N : S2048x512.Idx → EReal) := W2_arr m ρ c 9
  rw [e, proj_value_v (V1 (F := Ideal) m ρ) c, V1_x m ρ c, V1_wv m ρ c, V1_bv m ρ c]
  exact dense2_weight _ _ _ _

/-! ## The second host stretch: q, k, v as 16384 rows of 64 -/

/-- q by heads. -/
theorem V3_q (c : Dev nD) :
    mat (V3 (F := Ideal) m ρ c main_v13 : S16384x64.Idx → EReal) = heads (qS m c) := by
  have e : (V3 (F := Ideal) m ρ c main_v13 : S16384x64.Idx → EReal)
      = shapeCast S16384x64 (W2 (F := Ideal) m ρ c (Proc.devRef .tc main_v12_0) : S2048x512.Idx → EReal) shapeCasts_S2048x512_S16384x64 := by
    show StableHlo.after hostOps1 _ (Proc.devRef .tc main_v13) = _
    after_results
    rfl
  rw [e, mat_reshape_heads, W2_q m ρ c]

/-- k by heads. -/
theorem V3_k (c : Dev nD) :
    mat (V3 (F := Ideal) m ρ c main_v14 : S16384x64.Idx → EReal) = heads (kS m c) := by
  have e : (V3 (F := Ideal) m ρ c main_v14 : S16384x64.Idx → EReal)
      = shapeCast S16384x64 (W2 (F := Ideal) m ρ c (Proc.devRef .tc main_v12_1) : S2048x512.Idx → EReal) shapeCasts_S2048x512_S16384x64 := by
    show StableHlo.after hostOps1 _ (Proc.devRef .tc main_v14) = _
    after_results
    rfl
  rw [e, mat_reshape_heads, W2_k m ρ c]

/-- v by heads. -/
theorem V3_v (c : Dev nD) :
    mat (V3 (F := Ideal) m ρ c main_v15 : S16384x64.Idx → EReal) = heads (vS m c) := by
  have e : (V3 (F := Ideal) m ρ c main_v15 : S16384x64.Idx → EReal)
      = shapeCast S16384x64 (W2 (F := Ideal) m ρ c (Proc.devRef .tc main_v12_2) : S2048x512.Idx → EReal) shapeCasts_S2048x512_S16384x64 := by
    show StableHlo.after hostOps1 _ (Proc.devRef .tc main_v15) = _
    after_results
    rfl
  rw [e, mat_reshape_heads, W2_v m ρ c]

/-! ## The attention region's output -/

/-- The region's output is the specification's attended rows, squared and normalised. -/
theorem W4_a (c : Dev nD) :
    mat (W4 (F := Ideal) m ρ c (Proc.devRef .tc main_v16) : S16384x64.Idx → EReal) = aS m c := by
  have e : (W4 (F := Ideal) m ρ c (Proc.devRef .tc main_v16) : S16384x64.Idx → EReal)
      = ((dat1 (F := Ideal) (V3 m ρ) c).arrAt 3 cfg1.N : S16384x64.Idx → EReal) := W4_arr m ρ c 3
  rw [e, attn_value (V3 (F := Ideal) m ρ) c, V3_q m ρ c, V3_k m ρ c, V3_v m ρ c]

/-! ## The third host stretch: what the output-projection region finds -/

/-- The attended rows read back as 2048 rows of 512. -/
theorem V5_a (c : Dev nD) :
    mat (V5 (F := Ideal) m ρ c main_v17 : S2048x512.Idx → EReal) = unheads (aS m c) := by
  have e : (V5 (F := Ideal) m ρ c main_v17 : S2048x512.Idx → EReal)
      = shapeCast S2048x512 (W4 (F := Ideal) m ρ c (Proc.devRef .tc main_v16) : S16384x64.Idx → EReal) shapeCasts_S16384x64_S2048x512 := by
    show StableHlo.after hostOps2 _ (Proc.devRef .tc main_v17) = _
    after_results
    rfl
  rw [e, mat_reshape_unheads, W4_a m ρ c]

/-- The output weight is as the first host stretch left it: nothing in between writes it. -/
theorem V5_wo (c : Dev nD) :
    mat (V5 (F := Ideal) m ρ c main_v7 : S512x512.Idx → EReal)
      = fun d o => weight (mat (m ((c : Thread nD τ).loc main_arg10))) (mat (m ((c : Thread nD τ).loc main_arg11))) o d := by
  have e : W5 (F := Ideal) m ρ c (Proc.devRef .tc main_v7) = W1 (F := Ideal) m ρ c (Proc.devRef .tc main_v7) :=
    calc W5 (F := Ideal) m ρ c (Proc.devRef .tc main_v7)
      _ = W4 m ρ c (Proc.devRef .tc main_v7) := StableHlo.after_of_writes_sub hostOps2 _ hostOps2_writes (by decide)
      _ = W3 m ρ c (Proc.devRef .tc main_v7) := W4_of_ne m ρ c main_v7 (by decide)
      _ = W2 m ρ c (Proc.devRef .tc main_v7) := StableHlo.after_of_writes_sub hostOps1 _ hostOps1_writes (by decide)
      _ = W1 m ρ c (Proc.devRef .tc main_v7) := W2_of_ne m ρ c main_v7 (by decide)
  have e' : (V5 (F := Ideal) m ρ c main_v7 : S512x512.Idx → EReal) = (V1 (F := Ideal) m ρ c main_v7 : S512x512.Idx → EReal) := e
  rw [e']
  exact V1_wo m ρ c

/-- The output bias as one row: the launch argument, which nothing before writes. -/
theorem V5_bo (c : Dev nD) :
    (fun o => mat (V5 (F := Ideal) m ρ c main_v18 : S1x512.Idx → EReal) 0 o) = vec (m ((c : Thread nD τ).loc main_arg12)) := by
  have e : (V5 (F := Ideal) m ρ c main_v18 : S1x512.Idx → EReal)
      = shapeCast S1x512 (W4 (F := Ideal) m ρ c (Proc.devRef .tc main_arg12) : S512.Idx → EReal) shapeCasts_S512_S1x512 := by
    show StableHlo.after hostOps2 _ (Proc.devRef .tc main_v18) = _
    after_results
    rfl
  have e' : W4 (F := Ideal) m ρ c (Proc.devRef .tc main_arg12) = (m ((c : Thread nD τ).loc main_arg12)) :=
    calc W4 (F := Ideal) m ρ c (Proc.devRef .tc main_arg12)
      _ = W3 m ρ c (Proc.devRef .tc main_arg12) := W4_of_ne m ρ c main_arg12 (by decide)
      _ = W2 m ρ c (Proc.devRef .tc main_arg12) := StableHlo.after_of_writes_sub hostOps1 _ hostOps1_writes (by decide)
      _ = W1 m ρ c (Proc.devRef .tc main_arg12) := W2_of_ne m ρ c main_arg12 (by decide)
      _ = W0 m ρ c (Proc.devRef .tc main_arg12) := StableHlo.after_of_writes_sub hostOps0 _ hostOps0_writes (by decide)
      _ = (m ((c : Thread nD τ).loc main_arg12)) := rfl
  rw [e, e']
  exact mat_reshape_vec _

/-! ## The output-projection region's output -/

/-- The region's output is the specification's last projection, of the attended rows read back as 2048 rows. -/
theorem W6_o (c : Dev nD) :
    mat (W6 (F := Ideal) m ρ c (Proc.devRef .tc main_v19) : S2048x512.Idx → EReal)
      = proj (unheads (aS m c)) (mat (m ((c : Thread nD τ).loc main_arg10))) (mat (m ((c : Thread nD τ).loc main_arg11))) (vec (m ((c : Thread nD τ).loc main_arg12))) := by
  have e : (W6 (F := Ideal) m ρ c (Proc.devRef .tc main_v19) : S2048x512.Idx → EReal)
      = ((dat2 (F := Ideal) (V5 m ρ) c).arrAt 3 cfg2.N : S2048x512.Idx → EReal) := W6_arr m ρ c 3
  rw [e, out_value (V5 (F := Ideal) m ρ) c, V5_a m ρ c, V5_wo m ρ c, V5_bo m ρ c]
  exact dense2_weight _ _ _ _

/-! ## The result -/

/-- The result array is the specification's function of the thirteen launch arguments. -/
theorem kernel_value (m : (ℓ : Loc nD τ sig) → Buf (Elt Ideal) ℓ) (ρ : Dev nD → PrngReg) (c : Dev nD) :
    (W7 (F := Ideal) m ρ c (Proc.devRef .tc main_v20) : S2x1024x512.Idx → EReal)
      = unrows3 (outK (rows3 (m ((c : Thread nD τ).loc main_arg0))) (mat (m ((c : Thread nD τ).loc main_arg1))) (mat (m ((c : Thread nD τ).loc main_arg2))) (vec (m ((c : Thread nD τ).loc main_arg3))) (mat (m ((c : Thread nD τ).loc main_arg4))) (mat (m ((c : Thread nD τ).loc main_arg5))) (vec (m ((c : Thread nD τ).loc main_arg6))) (mat (m ((c : Thread nD τ).loc main_arg7))) (mat (m ((c : Thread nD τ).loc main_arg8))) (vec (m ((c : Thread nD τ).loc main_arg9))) (mat (m ((c : Thread nD τ).loc main_arg10))) (mat (m ((c : Thread nD τ).loc main_arg11))) (vec (m ((c : Thread nD τ).loc main_arg12)))) := by
  have e : (W7 (F := Ideal) m ρ c (Proc.devRef .tc main_v20) : S2x1024x512.Idx → EReal)
      = shapeCast S2x1024x512 (W6 (F := Ideal) m ρ c (Proc.devRef .tc main_v19) : S2048x512.Idx → EReal) shapeCasts_S2048x512_S2x1024x512 := by
    show StableHlo.after hostOps3 _ (Proc.devRef .tc main_v20) = _
    after_results
    rfl
  rw [e, reshape_unrows3, W6_o m ρ c]
  rfl

end Cert.KernelIdeal.Hand

end
-- ==== Proof.RefRun.lean ====
/-
  The reference program's run and its stages read at an index are taken from the generated modules; this module
  only brings them into scope for the modules that relate the reference to the specification.
-/
import proofs.«423754_j5703716569513_3_alg».proof.Proof.Gen.ReferenceIdeal.Run
import proofs.«423754_j5703716569513_3_alg».proof.Proof.Gen.ReferenceIdeal.Read
-- ==== Proof.Softmax.lean ====
/-
  The kernel's spelling of softmax attention and the reference's agree on arrays of real numbers.

  Over the reals: a constant factor moves out of a finite sum, so the inner product with 1/8 folded into one row is
  the inner product divided by 8; exp (s - c) = exp (s - m) * exp (m - c), and the positive factor exp (m - c)
  cancels between the weighted sum and the sum of the weights; a common positive divisor moves out of a sum. On
  the extended reals these laws hold at real entries only, so each statement carries that hypothesis, and each
  proof names the real every expression denotes, pushing the coercion outwards through sums, products,
  quotients by a nonzero real, the square root of a nonnegative real and the exponential.
-/
import proofs.«423754_j5703716569513_3_alg».proof.Proof.Spec

noncomputable section

namespace Cert.Spec

open Idealize.ShloMosaic

/-! ### The three constants -/

/-- 0x3E000000 denotes 1/8. -/
theorem eighth_eq : eighth = ((1 / 8 : ℝ) : EReal) := by
  simp [Ideal.ofBits, Ideal.ieee, -EReal.coe_mul]; norm_num

/-- 0x41000000 denotes 8. -/
theorem eight_eq : eight = ((8 : ℝ) : EReal) := by
  simp [Ideal.ofBits, Ideal.ieee, -EReal.coe_mul]; norm_num

/-- 0x322BCC77 is a positive normal number: a positive significand times a power of two. -/
theorem eps_pos : ∃ r : ℝ, 0 < r ∧ eps = (r : EReal) := by
  simp [Ideal.ofBits, Ideal.ieee, -EReal.coe_mul]

/-! ### The coercion of a finite sum -/

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The real softmax identity -/

/-- Over a nonempty finite index set, the weighted sum at a fixed shift c divided by the sum of the weights is the
    sum of the weights at any other shift m, each normalised first: exp (m - c) > 0 cancels. -/
theorem softmax_shift {ι : Type*} (s : Finset ι) (hs : s.Nonempty) (S V : ι → ℝ) (c m : ℝ) :
    (∑ j ∈ s, Real.exp (S j - c) * V j) * (1 / ∑ j ∈ s, Real.exp (S j - c))
      = ∑ j ∈ s, Real.exp (S j - m) * (1 / ∑ j' ∈ s, Real.exp (S j' - m)) * V j := by
  have key : ∀ j, Real.exp (S j - c) = Real.exp (S j - m) * Real.exp (m - c) := by
    intro j; rw [← Real.exp_add]; congr 1; ring
  have hD : 0 < ∑ j ∈ s, Real.exp (S j - m) := Finset.sum_pos (fun _ _ => Real.exp_pos _) hs
  have hE : 0 < Real.exp (m - c) := Real.exp_pos _
  have hden : ∑ j ∈ s, Real.exp (S j - c) = (∑ j ∈ s, Real.exp (S j - m)) * Real.exp (m - c) := by
    rw [Finset.sum_mul]; exact Finset.sum_congr rfl (fun j _ => key j)
  rw [hden, Finset.sum_mul]
  refine Finset.sum_congr rfl (fun j _ => ?_)
  rw [key j]
  field_simp

/-! ### Norms, normalised rows and scores of real arrays -/

/-- The norm of a real row plus ε is a positive real. -/
theorem norm_real (q : Fin 16384 → Fin 64 → EReal) (hq : Real2 q) (n : Fin 16384) :
    ∃ r : ℝ, 0 < r ∧ norm q n = (r : EReal) := by
  choose Q hQ using hq
  obtain ⟨ε, hε, heps⟩ := eps_pos
  refine ⟨Real.sqrt (∑ e : Fin 64, Q n e * Q n e) + ε,
    add_pos_of_nonneg_of_pos (Real.sqrt_nonneg _) hε, ?_⟩
  have h0 : ¬ (∑ e : Fin 64, Q n e * Q n e) < 0 :=
    not_lt.mpr (Finset.sum_nonneg (fun e _ => mul_self_nonneg (Q n e)))
  unfold norm
  rw [heps]
  simp only [hQ, ← EReal.coe_mul, ← coe_sum]
  rw [Ideal.sqrt_coe, if_neg h0, ← EReal.coe_add]

/-- Every entry of a real array divided by its row's norm plus ε is a real. -/
theorem normalised_real (q : Fin 16384 → Fin 64 → EReal) (hq : Real2 q) :
    ∃ Q' : Fin 16384 → Fin 64 → ℝ, ∀ n e, Ideal.div (q n e) (norm q n) = (Q' n e : EReal) := by
  choose r hr hnorm using norm_real q hq
  choose Q hQ using hq
  refine ⟨fun n e => Q n e * (1 / r n), fun n e => ?_⟩
  rw [hnorm, Ideal.div_coe (hr n).ne', hQ, ← EReal.coe_mul]

/-- On real arrays the two scores are one real: the factor 1/8 moves out of the inner product. -/
theorem score_real (q k : Fin 16384 → Fin 64 → EReal) (hq : Real2 q) (hk : Real2 k) :
    ∃ S : Fin 16384 → Fin 16384 → ℝ,
      (∀ n j, scoreK q k n j = (S n j : EReal)) ∧ (∀ n j, scoreR q k n j = (S n j : EReal)) := by
  obtain ⟨Q', hQ'⟩ := normalised_real q hq
  obtain ⟨K', hK'⟩ := normalised_real k hk
  refine ⟨fun n j => ∑ e : Fin 64, Q' n e * (1 / 8) * K' j e, fun n j => ?_, fun n j => ?_⟩
  · unfold scoreK
    rw [eighth_eq]
    simp only [hQ', hK', ← EReal.coe_mul, ← coe_sum]
  · unfold scoreR
    rw [eight_eq]
    simp only [hQ', hK', ← EReal.coe_mul, ← coe_sum]
    rw [Ideal.div_coe (by norm_num : (8 : ℝ) ≠ 0), ← EReal.coe_mul, Finset.sum_mul]
    congr 1
    exact Finset.sum_congr rfl (fun e _ => by ring)

theorem scoreK_eq_scoreR (q k : Fin 16384 → Fin 64 → EReal) (hq : Real2 q) (hk : Real2 k)
    (n j : Fin 16384) : scoreK q k n j = scoreR q k n j := by
  obtain ⟨S, hK, hR⟩ := score_real q k hq hk
  rw [hK, hR]

/-! ### The attended rows -/

theorem attendK_eq_attendR (q k v : Fin 16384 → Fin 64 → EReal) (mx : Fin 16384 → EReal)
    (hq : Real2 q) (hk : Real2 k) (hv : Real2 v) (hmx : Real1 mx) (n : Fin 16384) (e : Fin 64) :
    attendK q k v n e = attendR q k v mx n e := by
  obtain ⟨S, hK, hR⟩ := score_real q k hq hk
  choose V hV using hv
  choose M hM using hmx
  have hD : (∑ j : Fin 16384, Real.exp (S n j - 13 / 100)) ≠ 0 :=
    (Finset.sum_pos (fun _ _ => Real.exp_pos _) Finset.univ_nonempty).ne'
  have hD' : (∑ j : Fin 16384, Real.exp (S n j - M n)) ≠ 0 :=
    (Finset.sum_pos (fun _ _ => Real.exp_pos _) Finset.univ_nonempty).ne'
  unfold attendK attendR weightK shift
  simp only [hK, hR, hV, hM, ← EReal.coe_sub, Ideal.exp_coe, ← EReal.coe_mul, ← coe_sum]
  rw [Ideal.div_coe hD]
  simp only [Ideal.div_coe hD', ← EReal.coe_mul, ← coe_sum]
  exact congrArg (fun r : ℝ => (r : EReal))
    (softmax_shift Finset.univ Finset.univ_nonempty (fun j => S n j) (fun j => V j e) (13 / 100) (M n))

/-! ### Projections and the regrouping of rows keep arrays real -/

theorem proj_real (x : Fin 2048 → Fin 512 → EReal) (A : Fin 512 → Fin 4 → EReal) (B : Fin 4 → Fin 512 → EReal)
    (b : Fin 512 → EReal) (hx : Real2 x) (hA : Real2 A) (hB : Real2 B) (hb : Real1 b) :
    Real2 (proj x A B b) := by
  choose X hX using hx
  choose A' hA' using hA
  choose B' hB' using hB
  choose b' hb' using hb
  intro r o
  refine ⟨(∑ d : Fin 512, X r d * ∑ k : Fin 4, A' o k * B' k d) + b' o, ?_⟩
  unfold proj weight
  simp only [hX, hA', hB', hb', ← EReal.coe_mul, ← coe_sum, ← EReal.coe_add]

theorem heads_real (y : Fin 2048 → Fin 512 → EReal) (hy : Real2 y) : Real2 (heads y) :=
  fun _ _ => hy _ _

/-! ### The whole computation -/

theorem outK_eq_outR (x : Fin 2048 → Fin 512 → EReal)
    (qA : Fin 512 → Fin 4 → EReal) (qB : Fin 4 → Fin 512 → EReal) (qb : Fin 512 → EReal)
    (kA : Fin 512 → Fin 4 → EReal) (kB : Fin 4 → Fin 512 → EReal) (kb : Fin 512 → EReal)
    (vA : Fin 512 → Fin 4 → EReal) (vB : Fin 4 → Fin 512 → EReal) (vb : Fin 512 → EReal)
    (oA : Fin 512 → Fin 4 → EReal) (oB : Fin 4 → Fin 512 → EReal) (ob : Fin 512 → EReal) (mx : Fin 16384 → EReal)
    (hx : Real2 x) (hqA : Real2 qA) (hqB : Real2 qB) (hqb : Real1 qb) (hkA : Real2 kA) (hkB : Real2 kB) (hkb : Real1 kb)
    (hvA : Real2 vA) (hvB : Real2 vB) (hvb : Real1 vb) (hmx : Real1 mx) :
    outK x qA qB qb kA kB kb vA vB vb oA oB ob = outR x qA qB qb kA kB kb vA vB vb oA oB ob mx := by
  have h : attendK (heads (proj x qA qB qb)) (heads (proj x kA kB kb)) (heads (proj x vA vB vb))
      = attendR (heads (proj x qA qB qb)) (heads (proj x kA kB kb)) (heads (proj x vA vB vb)) mx := by
    funext n e
    exact attendK_eq_attendR _ _ _ mx
      (heads_real _ (proj_real x qA qB qb hx hqA hqB hqb))
      (heads_real _ (proj_real x kA kB kb hx hkA hkB hkb))
      (heads_real _ (proj_real x vA vB vb hx hvA hvB hvb)) hmx n e
  unfold outK outR
  rw [h]

end Cert.Spec

end
-- ==== Proof.RefValue.lean ====
/-
  The reference program's result as the specification's function of its inputs.

  The reference computes, stage by stage: three projections of the 2048 input rows, each read as 16384 rows of 64;
  every row divided by its Euclidean norm plus ε; the scores, inner products of normalised rows divided by 8; from
  each row of scores one number (the larger of −∞ and the row's maximum) is subtracted before the exponential, the
  exponentials are divided by their row sum and weigh the value rows; the attended rows are squared entrywise and
  divided by their sum plus ε, read back as 2048 rows of 512, and projected once more. Each stage is read at an
  index and identified with the specification's function of the same name; the one number subtracted per row is
  kept as it is computed (`refMax`) and shown to be a real number when the inputs are.
-/
import proofs.«423754_j5703716569513_3_alg».proof.Proof.RefRun
import proofs.«423754_j5703716569513_3_alg».proof.Proof.Layout
import proofs.«423754_j5703716569513_3_alg».proof.Proof.Softmax
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.Spec Idealize.ShloMosaic Idealize.ShloMosaic.TcCoe Idealize.ShloMosaic.ValueIdx

/-- An array [2, 1024, 512], a rank-2 array [512, 4] or [4, 512], a vector [512], over the extended reals. -/
abbrev T3 : Type := (⟨S2x1024x512, .f32⟩ : BufTy).Contents (Elt Ideal)
abbrev TA : Type := (⟨S512x4, .f32⟩ : BufTy).Contents (Elt Ideal)
abbrev TB : Type := (⟨S4x512, .f32⟩ : BufTy).Contents (Elt Ideal)
abbrev Tb : Type := (⟨S512, .f32⟩ : BufTy).Contents (Elt Ideal)

/-- The projection stage (two contractions and the broadcast bias) at entry (b, s, o) is the specification's
    projection at row b·1024 + s, column o. -/
theorem proj_at (X : T3) (A : TA) (B : TB) (b : Tb) (j : S2x1024x512.Idx) (r : Fin 2048) (o : Fin 512)
    (hr : r.val = (j 0).val * 1024 + (j 1).val) (ho : o.val = (j 2).val) :
    Read.val_main_v4 (F := Ideal) X A B b j = proj (rows3 X) (mat A) (mat B) (vec b) r o := by
  have h1 : (j 1).val < 1024 := (j 1).isLt
  rw [Read.val_main_v4_apply, Read.val_main_v1_apply, Read.val_main_v3_apply, Read.val_main_v2_apply]
  unfold proj
  rw [Ideal.addf_def]
  congr 1
  · refine Finset.sum_congr rfl fun k _ => ?_
    rw [Read.val_main_v0_apply]
    unfold weight rows3 mat
    congr 1
    · refine congrArg X (funext fun a => Fin.ext ?_)
      match a with
      | ⟨0, _⟩ => show (j 0).val = r.val / 1024; omega
      | ⟨1, _⟩ => show (j 1).val = r.val % 1024; omega
      | ⟨2, _⟩ => rfl
    · refine Finset.sum_congr rfl fun k' _ => ?_
      congr 1
      · refine congrArg A (funext fun a => Fin.ext ?_)
        match a with
        | ⟨0, _⟩ => exact ho.symm
        | ⟨1, _⟩ => rfl
      · refine congrArg B (funext fun a => Fin.ext ?_)
        match a with
        | ⟨0, _⟩ => rfl
        | ⟨1, _⟩ => rfl
  · unfold vec
    refine congrArg b (funext fun a => Fin.ext ?_)
    match a with
    | ⟨0, _⟩ => exact ho.symm

/-- The three projections read as 16384 rows of 64 are one function of their four arguments. -/
theorem v11_eq (X : T3) (A : TA) (B : TB) (b : Tb) : Read.val_main_v11 (F := Ideal) X A B b = Read.val_main_v5 (F := Ideal) X A B b := rfl
theorem v17_eq (X : T3) (A : TA) (B : TB) (b : Tb) : Read.val_main_v17 (F := Ideal) X A B b = Read.val_main_v5 (F := Ideal) X A B b := rfl
/-- … and so are the two normalisations. -/
theorem v27_eq (X : T3) (A : TA) (B : TB) (b : Tb) : Read.val_main_v27 (F := Ideal) X A B b = Read.val_main_v22 (F := Ideal) X A B b := rfl

/-- The projection read as 16384 rows of 64: row n, entry e. -/
theorem heads_at (X : T3) (A : TA) (B : TB) (b : Tb) (n : Fin 16384) (e : Fin 64) :
    Read.val_main_v5 (F := Ideal) X A B b (ix2 n e) = heads (proj (rows3 X) (mat A) (mat B) (vec b)) n e := by
  have hn : n.val < 16384 := n.isLt
  have he : e.val < 64 := e.isLt
  rw [Read.val_main_v5_apply]
  unfold heads
  exact proj_at X A B b _ _ _ (by show n.val / 8 = (n.val * 64 + e.val) / 524288 * 1024 + (n.val * 64 + e.val) / 512 % 1024; omega)
    (by show n.val % 8 * 64 + e.val = (n.val * 64 + e.val) % 512; omega)

/-- The normalised row: entry e of row n divided by the row's norm plus ε. -/
theorem normed_at (X : T3) (A : TA) (B : TB) (b : Tb) (n : Fin 16384) (e : Fin 64) :
    Read.val_main_v22 (F := Ideal) X A B b (ix2 n e)
      = Ideal.div (heads (proj (rows3 X) (mat A) (mat B) (vec b)) n e) (Cert.Spec.norm (heads (proj (rows3 X) (mat A) (mat B) (vec b))) n) := by
  rw [Read.val_main_v22_apply, Read.val_main_v21_apply, Read.val_main_v20_apply, Read.val_main_v18_apply,
    Read.val_main_call0_v2_apply, Read.val_main_call0_v1_apply, Read.val_main_v19_apply, Read.val_main_cst_apply,
    Read.val_main_call0_cst_apply, heads_at]
  simp only [Ideal.hostDivf_def, Ideal.addf_def, Ideal.hostUnary_sqrt_def, Ideal.ofBits_def, Ideal.ofBits_zero_f32, zero_add]
  unfold Cert.Spec.norm
  congr 3
  refine Finset.sum_congr rfl fun k _ => ?_
  rw [Read.val_main_call0_v0_apply, Ideal.mulf_def]
  exact congrArg₂ (· * ·) (heads_at X A B b n k) (heads_at X A B b n k)

/-- A quotient's numerator may be replaced by an equal one. -/
theorem div_congr_left {a b c : EReal} (h : a = b) : Ideal.div a c = Ideal.div b c := by rw [h]

/-- The score of row n against row j: the inner product of the two normalised rows, divided by 8. -/
theorem score_at (X : T3) (qA : TA) (qB : TB) (qb : Tb) (kA : TA) (kB : TB) (kb : Tb) (n j : Fin 16384) :
    Read.val_main_v31 (F := Ideal) X qA qB qb kA kB kb (ix2 n j)
      = scoreR (heads (proj (rows3 X) (mat qA) (mat qB) (vec qb))) (heads (proj (rows3 X) (mat kA) (mat kB) (vec kb))) n j := by
  rw [Read.val_main_v31_apply, Read.val_main_v29_apply, Read.val_main_v30_apply, Read.val_main_cst_1_apply,
    Ideal.hostDivf_def, Ideal.ofBits_def]
  unfold scoreR
  apply div_congr_left
  apply Finset.sum_congr rfl
  intro k _
  have el : Read.lidx_main_v29 (ix2 n j) k = ix2 n k :=
    funext fun a => Fin.ext (by match a with | ⟨0, _⟩ => rfl | ⟨1, _⟩ => rfl)
  have er : Read.idx_main_v28 (Read.ridx_main_v29 (ix2 n j) k) = ix2 j k :=
    funext fun a => Fin.ext (by match a with | ⟨0, _⟩ => rfl | ⟨1, _⟩ => rfl)
  rw [Read.val_main_v28_apply, v27_eq, el, er, normed_at, normed_at]

/-- The number subtracted from row n's scores, as a function of the arrays. -/
abbrev shiftOf (X : T3) (qA : TA) (qB : TB) (qb : Tb) (kA : TA) (kB : TB) (kb : Tb) (n : Fin 16384) : EReal :=
  Read.val_main_v34 (F := Ideal) X qA qB qb kA kB kb (ix1 n)

/-- The exponential of a score less its row's shift. -/
theorem expo_at (X : T3) (qA : TA) (qB : TB) (qb : Tb) (kA : TA) (kB : TB) (kb : Tb) (n j : Fin 16384) :
    Read.val_main_v38 (F := Ideal) X qA qB qb kA kB kb (ix2 n j)
      = Ideal.exp (scoreR (heads (proj (rows3 X) (mat qA) (mat qB) (vec qb))) (heads (proj (rows3 X) (mat kA) (mat kB) (vec kb))) n j
          - shiftOf X qA qB qb kA kB kb n) := by
  have e : Read.idx_main_v35 (Read.idx_main_v36 (ix2 n j)) = ix1 n :=
    funext fun a => Fin.ext (by match a with | ⟨0, _⟩ => rfl)
  rw [Read.val_main_v38_apply, Read.val_main_v37_apply, Read.val_main_v36_apply, Read.val_main_v35_apply, score_at, e,
    Ideal.hostUnary_exp_def, Ideal.subf_def]

/-- The sum of a row's exponentials. -/
theorem rowsum_at (X : T3) (qA : TA) (qB : TB) (qb : Tb) (kA : TA) (kB : TB) (kb : Tb) (n : Fin 16384) :
    Read.val_main_v39 (F := Ideal) X qA qB qb kA kB kb (ix1 n)
      = ∑ j' : Fin 16384, Ideal.exp (scoreR (heads (proj (rows3 X) (mat qA) (mat qB) (vec qb))) (heads (proj (rows3 X) (mat kA) (mat kB) (vec kb))) n j'
          - shiftOf X qA qB qb kA kB kb n) := by
  rw [Read.val_main_v39_apply, Read.val_main_cst_4_apply, Ideal.ofBits_def, Ideal.ofBits_zero_f32, zero_add]
  refine Finset.sum_congr rfl fun k _ => ?_
  have e : Read.idx_main_v39 (ix1 n) k = ix2 n k :=
    funext fun a => Fin.ext (by match a with | ⟨0, _⟩ => rfl | ⟨1, _⟩ => rfl)
  rw [e, expo_at]

/-- The normalised weight of row j for row n. -/
theorem weight_at (X : T3) (qA : TA) (qB : TB) (qb : Tb) (kA : TA) (kB : TB) (kb : Tb) (n j : Fin 16384) :
    Read.val_main_v42 (F := Ideal) X qA qB qb kA kB kb (ix2 n j)
      = Ideal.div (Ideal.exp (scoreR (heads (proj (rows3 X) (mat qA) (mat qB) (vec qb))) (heads (proj (rows3 X) (mat kA) (mat kB) (vec kb))) n j
          - shiftOf X qA qB qb kA kB kb n))
        (∑ j' : Fin 16384, Ideal.exp (scoreR (heads (proj (rows3 X) (mat qA) (mat qB) (vec qb))) (heads (proj (rows3 X) (mat kA) (mat kB) (vec kb))) n j'
          - shiftOf X qA qB qb kA kB kb n)) := by
  have e : Read.idx_main_v40 (Read.idx_main_v41 (ix2 n j)) = ix1 n :=
    funext fun a => Fin.ext (by match a with | ⟨0, _⟩ => rfl)
  rw [Read.val_main_v42_apply, Read.val_main_v41_apply, Read.val_main_v40_apply, Ideal.hostDivf_def, expo_at, e, rowsum_at]

/-- The attended row: the value rows weighed by the normalised weights. -/
theorem attend_at (X : T3) (qA : TA) (qB : TB) (qb : Tb) (kA : TA) (kB : TB) (kb : Tb) (vA : TA) (vB : TB) (vb : Tb)
    (n : Fin 16384) (e : Fin 64) :
    Read.val_main_v43 (F := Ideal) X qA qB qb kA kB kb vA vB vb (ix2 n e)
      = attendR (heads (proj (rows3 X) (mat qA) (mat qB) (vec qb))) (heads (proj (rows3 X) (mat kA) (mat kB) (vec kb)))
          (heads (proj (rows3 X) (mat vA) (mat vB) (vec vb))) (shiftOf X qA qB qb kA kB kb) n e := by
  rw [Read.val_main_v43_apply]
  unfold attendR
  apply Finset.sum_congr rfl
  intro k _
  have el : Read.lidx_main_v43 (ix2 n e) k = ix2 n k :=
    funext fun a => Fin.ext (by match a with | ⟨0, _⟩ => rfl | ⟨1, _⟩ => rfl)
  have er : Read.ridx_main_v43 (ix2 n e) k = ix2 k e :=
    funext fun a => Fin.ext (by match a with | ⟨0, _⟩ => rfl | ⟨1, _⟩ => rfl)
  rw [el, er, weight_at, v17_eq, heads_at]

/-- The attended row squared entrywise and divided by the sum of its squares plus ε. -/
theorem measure_at (X : T3) (qA : TA) (qB : TB) (qb : Tb) (kA : TA) (kB : TB) (kb : Tb) (vA : TA) (vB : TB) (vb : Tb)
    (n : Fin 16384) (e : Fin 64) :
    Read.val_main_v50 (F := Ideal) X qA qB qb kA kB kb vA vB vb (ix2 n e)
      = measure (attendR (heads (proj (rows3 X) (mat qA) (mat qB) (vec qb))) (heads (proj (rows3 X) (mat kA) (mat kB) (vec kb)))
          (heads (proj (rows3 X) (mat vA) (mat vB) (vec vb))) (shiftOf X qA qB qb kA kB kb)) n e := by
  have hs : (∑ k : Fin 64, Read.val_main_v44 (F := Ideal) X qA qB qb kA kB kb vA vB vb
        (Read.idx_main_v45 (Read.idx_main_v46 (Read.idx_main_v49 (ix2 n e))) k))
      = ∑ e' : Fin 64, attendR (heads (proj (rows3 X) (mat qA) (mat qB) (vec qb))) (heads (proj (rows3 X) (mat kA) (mat kB) (vec kb)))
          (heads (proj (rows3 X) (mat vA) (mat vB) (vec vb))) (shiftOf X qA qB qb kA kB kb) n e'
        * attendR (heads (proj (rows3 X) (mat qA) (mat qB) (vec qb))) (heads (proj (rows3 X) (mat kA) (mat kB) (vec kb)))
          (heads (proj (rows3 X) (mat vA) (mat vB) (vec vb))) (shiftOf X qA qB qb kA kB kb) n e' := by
    apply Finset.sum_congr rfl
    intro k _
    have e1 : Read.idx_main_v45 (Read.idx_main_v46 (Read.idx_main_v49 (ix2 n e))) k = ix2 n k :=
      funext fun a => Fin.ext (by match a with | ⟨0, _⟩ => rfl | ⟨1, _⟩ => rfl)
    rw [e1, Read.val_main_v44_apply, attend_at, Ideal.mulf_def]
  rw [Read.val_main_v50_apply, Read.val_main_v49_apply, Read.val_main_v48_apply, Read.val_main_v46_apply,
    Read.val_main_v45_apply, Read.val_main_v47_apply, Read.val_main_cst_6_apply, Read.val_main_cst_5_apply, hs,
    Read.val_main_v44_apply, attend_at, Ideal.hostDivf_def, Ideal.addf_def, Ideal.mulf_def, Ideal.ofBits_def, Ideal.ofBits_def,
    Ideal.ofBits_zero_f32, zero_add]
  rfl

/-- The measured rows read back as 2048 rows of 512: entry (b, s, o) is row b·1024 + s, column o. -/
theorem unheads_at (X : T3) (qA : TA) (qB : TB) (qb : Tb) (kA : TA) (kB : TB) (kb : Tb) (vA : TA) (vB : TB) (vb : Tb)
    (j : S2x1024x512.Idx) (r : Fin 2048) (o : Fin 512) (hr : r.val = (j 0).val * 1024 + (j 1).val) (ho : o.val = (j 2).val) :
    Read.val_main_v51 (F := Ideal) X qA qB qb kA kB kb vA vB vb j
      = unheads (measure (attendR (heads (proj (rows3 X) (mat qA) (mat qB) (vec qb))) (heads (proj (rows3 X) (mat kA) (mat kB) (vec kb)))
          (heads (proj (rows3 X) (mat vA) (mat vB) (vec vb))) (shiftOf X qA qB qb kA kB kb))) r o := by
  have h0 : (j 0).val < 2 := (j 0).isLt
  have h1 : (j 1).val < 1024 := (j 1).isLt
  have h2 : (j 2).val < 512 := (j 2).isLt
  have e : Read.idx_main_v51 j
      = ix2 (⟨r.val * 8 + o.val / 64, by omega⟩ : Fin 16384) (⟨o.val % 64, Nat.mod_lt _ (by norm_num)⟩ : Fin 64) :=
    funext fun a => Fin.ext (by
      match a with
      | ⟨0, _⟩ => show (((j 0).val * 1024 + (j 1).val) * 512 + (j 2).val) / 64 = r.val * 8 + o.val / 64; omega
      | ⟨1, _⟩ => show (((j 0).val * 1024 + (j 1).val) * 512 + (j 2).val) % 64 = o.val % 64; omega)
  rw [Read.val_main_v51_apply, e, measure_at]
  rfl

/-- The measured rows, as the rows of the array [2, 1024, 512] the last projection reads. -/
theorem rows3_measured (X : T3) (qA : TA) (qB : TB) (qb : Tb) (kA : TA) (kB : TB) (kb : Tb) (vA : TA) (vB : TB) (vb : Tb) :
    rows3 (Read.val_main_v51 (F := Ideal) X qA qB qb kA kB kb vA vB vb)
      = unheads (measure (attendR (heads (proj (rows3 X) (mat qA) (mat qB) (vec qb))) (heads (proj (rows3 X) (mat kA) (mat kB) (vec kb)))
          (heads (proj (rows3 X) (mat vA) (mat vB) (vec vb))) (shiftOf X qA qB qb kA kB kb))) := by
  funext r d
  have hr : r.val < 2048 := r.isLt
  unfold rows3
  exact unheads_at X qA qB qb kA kB kb vA vB vb _ r d (by show r.val = r.val / 1024 * 1024 + r.val % 1024; omega) rfl

/-- The last projection is the first one's function, of the measured rows and the output weights. -/
theorem v56_eq (X : T3) (qA : TA) (qB : TB) (qb : Tb) (kA : TA) (kB : TB) (kb : Tb) (vA : TA) (vB : TB) (vb : Tb)
    (oA : TA) (oB : TB) (ob : Tb) :
    Read.val_main_v56 (F := Ideal) X qA qB qb kA kB kb vA vB vb oA oB ob
      = Read.val_main_v4 (F := Ideal) (Read.val_main_v51 (F := Ideal) X qA qB qb kA kB kb vA vB vb) oA oB ob := rfl

/-- The whole reference, as a function of the thirteen arrays, is the specification at the reference's own shifts. -/
theorem out_at (X : T3) (qA : TA) (qB : TB) (qb : Tb) (kA : TA) (kB : TB) (kb : Tb) (vA : TA) (vB : TB) (vb : Tb)
    (oA : TA) (oB : TB) (ob : Tb) (j : S2x1024x512.Idx) :
    Read.val_main_v56 (F := Ideal) X qA qB qb kA kB kb vA vB vb oA oB ob j
      = unrows3 (outR (rows3 X) (mat qA) (mat qB) (vec qb) (mat kA) (mat kB) (vec kb) (mat vA) (mat vB) (vec vb)
          (mat oA) (mat oB) (vec ob) (shiftOf X qA qB qb kA kB kb)) j := by
  rw [v56_eq]
  unfold unrows3 outR
  rw [← rows3_measured]
  exact proj_at _ oA oB ob j _ _ rfl rfl

/-- the one number the reference subtracts from row n's scores: its stage max(−∞, row maximum) read at n -/
def refMax (m : (ℓ : Loc nD τ sig) → Buf (Elt Ideal) ℓ) (c : Dev nD) : Fin 16384 → EReal :=
  fun n => Read.val_main_v34 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (ix1 n)

theorem ref_value (m : (ℓ : Loc nD τ sig) → Buf (Elt Ideal) ℓ) (c : Dev nD) :
    (Cert.ReferenceIdeal.Value.res_out0 (F := Ideal) m c : S2x1024x512.Idx → EReal)
      = unrows3 (outR (rows3 (m ((c.tc : Thread nD τ).loc main_arg0))) (mat (m ((c.tc : Thread nD τ).loc main_arg1))) (mat (m ((c.tc : Thread nD τ).loc main_arg2))) (vec (m ((c.tc : Thread nD τ).loc main_arg3))) (mat (m ((c.tc : Thread nD τ).loc main_arg4))) (mat (m ((c.tc : Thread nD τ).loc main_arg5))) (vec (m ((c.tc : Thread nD τ).loc main_arg6))) (mat (m ((c.tc : Thread nD τ).loc main_arg7))) (mat (m ((c.tc : Thread nD τ).loc main_arg8))) (vec (m ((c.tc : Thread nD τ).loc main_arg9))) (mat (m ((c.tc : Thread nD τ).loc main_arg10))) (mat (m ((c.tc : Thread nD τ).loc main_arg11))) (vec (m ((c.tc : Thread nD τ).loc main_arg12))) (refMax m c)) := by
  funext i
  show Cert.ReferenceIdeal.Value.res_main_v56 (F := Ideal) m c i = _
  rw [Read.val_main_v56_eq]
  exact out_at _ _ _ _ _ _ _ _ _ _ _ _ _ i

/-- The shape fact that names, under the reduction of each row of scores, the index of the row's j-th score. -/
theorem reduces_rows : S16384x16384.Reduces [1] S16384 := by decide

/-- Row n's j-th index under that reduction is (n, j). -/
theorem lift_row (n : Fin 16384) (k : Fin (S16384x16384.size 1)) :
    reduces_rows.lift (ix1 n) k = ix2 n (⟨k.val, k.isLt⟩ : Fin 16384) := by
  funext a
  apply Fin.ext
  match a with
  | ⟨0, _⟩ => rfl
  | ⟨1, _⟩ => rfl

/-- When every score is a real number, so is the number subtracted from a row's scores: it is the larger of −∞ and
    the maximum, taken from −∞, of the row's 16384 scores, so it is below +∞ because each score is, and above −∞
    because the row has a score. -/
theorem shift_real (X : T3) (qA : TA) (qB : TB) (qb : Tb) (kA : TA) (kB : TB) (kb : Tb) (S : Fin 16384 → Fin 16384 → ℝ)
    (hS : ∀ n j, scoreR (heads (proj (rows3 X) (mat qA) (mat qB) (vec qb))) (heads (proj (rows3 X) (mat kA) (mat kB) (vec kb))) n j
      = (S n j : EReal)) (n : Fin 16384) :
    ∃ r : ℝ, shiftOf X qA qB qb kA kB kb n = (r : EReal) := by
  have hbot : Ideal.ofBits .f32 0xFF800000#32 = (⊥ : EReal) := by simp [Ideal.ofBits, Ideal.ieee]
  have hf : (Read.val_main_v31 (F := Ideal) X qA qB qb kA kB kb ∘ reduces_rows.lift (ix1 n))
      = fun k : Fin (S16384x16384.size 1) => ((S n (⟨k.val, k.isLt⟩ : Fin 16384) : ℝ) : EReal) :=
    funext fun k => by
      show Read.val_main_v31 (F := Ideal) X qA qB qb kA kB kb (reduces_rows.lift (ix1 n) k) = _
      rw [lift_row, score_at, hS]
  have hfold : shiftOf X qA qB qb kA kB kb n
      = max (⊥ : EReal) ((Finset.univ : Finset (Fin (S16384x16384.size 1))).fold max (⊥ : EReal)
          (fun k => ((S n (⟨k.val, k.isLt⟩ : Fin 16384) : ℝ) : EReal))) := by
    show Read.val_main_v34 (F := Ideal) X qA qB qb kA kB kb (ix1 n) = _
    rw [Read.val_main_v34_apply, Read.val_main_v33_apply, Read.val_main_cst_3_apply, Ideal.maximumf_def, Ideal.ofBits_def, hbot]
    unfold Read.val_main_v32
    rw [Host.reduce_eq_fold_single FloatOps.maximumf _ _ _ reduces_rows _ (ix1 n), Read.val_main_cst_2_apply,
      Ideal.ofBits_def, hbot, hf]
    rfl
  rw [hfold, max_eq_right bot_le]
  have hlt : (Finset.univ : Finset (Fin (S16384x16384.size 1))).fold max (⊥ : EReal)
      (fun k => ((S n (⟨k.val, k.isLt⟩ : Fin 16384) : ℝ) : EReal)) < ⊤ :=
    (Finset.fold_max_lt _).2 ⟨bot_lt_top, fun k _ => EReal.coe_lt_top _⟩
  have hgt : (⊥ : EReal) < (Finset.univ : Finset (Fin (S16384x16384.size 1))).fold max (⊥ : EReal)
      (fun k => ((S n (⟨k.val, k.isLt⟩ : Fin 16384) : ℝ) : EReal)) :=
    (Finset.lt_fold_max _).2 (Or.inr ⟨⟨0, by decide⟩, Finset.mem_univ _, EReal.bot_lt_coe _⟩)
  exact ⟨_, (EReal.coe_toReal hlt.ne hgt.ne').symm⟩

theorem refMax_real (m : (ℓ : Loc nD τ sig) → Buf (Elt Ideal) ℓ) (c : Dev nD)
    (hx : Real2 (rows3 (m ((c.tc : Thread nD τ).loc main_arg0)))) (hqA : Real2 (mat (m ((c.tc : Thread nD τ).loc main_arg1)))) (hqB : Real2 (mat (m ((c.tc : Thread nD τ).loc main_arg2)))) (hqb : Real1 (vec (m ((c.tc : Thread nD τ).loc main_arg3))))
    (hkA : Real2 (mat (m ((c.tc : Thread nD τ).loc main_arg4)))) (hkB : Real2 (mat (m ((c.tc : Thread nD τ).loc main_arg5)))) (hkb : Real1 (vec (m ((c.tc : Thread nD τ).loc main_arg6)))) : Real1 (refMax m c) := by
  obtain ⟨S, -, hS⟩ := Cert.Spec.score_real _ _ (Cert.Spec.heads_real _ (Cert.Spec.proj_real _ _ _ _ hx hqA hqB hqb))
    (Cert.Spec.heads_real _ (Cert.Spec.proj_real _ _ _ _ hx hkA hkB hkb))
  intro n
  exact shift_real _ _ _ _ _ _ _ S hS n

end Cert.ReferenceIdeal.RefValue

end
-- ==== Proof.FiniteInputs.lean ====
/-
  From the precondition to "every input entry is a real number".

  The precondition computes, for each of the thirteen float inputs, the array of comparisons |x| < +∞, folds it by
  "and" over all of its axes starting from true, and conjoins the thirteen scalars; the claim assumes the result is
  true. Over the extended reals |x| is max x (−x), the pattern 0x7F800000 denotes +∞, and |x| < +∞ holds exactly when
  x is neither infinity, that is, when x is a real number.
-/
import proofs.«423754_j5703716569513_3_alg».proof.Pre_finite_inputs
import proofs.«423754_j5703716569513_3_alg».proof.Proof.Gen.Pre_finite_inputs
import proofs.«423754_j5703716569513_3_alg».proof.Proof.Layout
import Idealize.ShloMosaic.Lib.ReduceAll
import Idealize.ShloMosaic.Lib.ValueIdx

noncomputable section

namespace Cert.Proof.Finite

open Cert.Spec Idealize.ShloMosaic

open Cert.Pre_finite_inputs in
/-- The rank-0 shape has one index. -/
instance : Subsingleton S_.Idx := ⟨fun a b => funext fun d => d.elim0⟩

/-- The pattern 0x7F800000 denotes +∞. -/
theorem inf_eq_top : Ideal.ofBits .f32 0x7F800000#32 = (⊤ : EReal) := by
  simp [Ideal.ofBits, Ideal.ieee]

/-- Over the extended reals |x| = max x (−x) < +∞ says x is a real number. -/
theorem real_of_abs_lt_top (x : EReal)
    (h : Ideal.cmp .olt (max x (-x)) (Ideal.ofBits .f32 0x7F800000#32) = 1#1) : ∃ r : ℝ, x = (r : EReal) := by
  rw [inf_eq_top] at h
  -- by cases on x: at −∞ and at +∞ the maximum is +∞, which is not below +∞
  induction x using EReal.rec with
  | bot => simp [Ideal.cmp] at h
  | coe r => exact ⟨r, rfl⟩
  | top => simp [Ideal.cmp] at h

open Cert.Pre_finite_inputs in
/-- Every entry of an array whose fold by "and" of |x| < +∞ over all axes is true is a real number. -/
theorem entry_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant S_ .f32 0x7F800000#32)))
        (constantI S_ 1 1#1) hr hu ValueIdx.ix0 = 1#1)
    (i : s.Idx) : ∃ r : ℝ, x i = (r : EReal) := by
  -- a fold by "and" from true into a single result that is true met a true at every index
  have hi := Host.reduce_andi_all _ _ hr hu ValueIdx.ix0 e i
  -- at index i that comparison is max (x i) (−(x i)) < +∞
  exact real_of_abs_lt_top (x i) hi

/-- The precondition gives: all thirteen inputs, read as the specification reads them, are arrays of reals. -/
theorem reals_of_pre
    (x0 : (⟨3, ![2, 1024, 512]⟩ : Shape).Idx → EReal)
    (x1 : (⟨2, ![512, 4]⟩ : Shape).Idx → EReal) (x2 : (⟨2, ![4, 512]⟩ : Shape).Idx → EReal) (x3 : (⟨1, ![512]⟩ : Shape).Idx → EReal)
    (x4 : (⟨2, ![512, 4]⟩ : Shape).Idx → EReal) (x5 : (⟨2, ![4, 512]⟩ : Shape).Idx → EReal) (x6 : (⟨1, ![512]⟩ : Shape).Idx → EReal)
    (x7 : (⟨2, ![512, 4]⟩ : Shape).Idx → EReal) (x8 : (⟨2, ![4, 512]⟩ : Shape).Idx → EReal) (x9 : (⟨1, ![512]⟩ : Shape).Idx → EReal)
    (x10 : (⟨2, ![512, 4]⟩ : Shape).Idx → EReal) (x11 : (⟨2, ![4, 512]⟩ : Shape).Idx → EReal) (x12 : (⟨1, ![512]⟩ : Shape).Idx → EReal)
    (h : Cert.Pre_finite_inputs.fn (F := Ideal) x0 x1 x2 x3 x4 x5 x6 x7 x8 x9 x10 x11 x12 = fun _ => 1#1) :
    Real2 (rows3 x0) ∧ Real2 (mat x1) ∧ Real2 (mat x2) ∧ Real1 (vec x3) ∧ Real2 (mat x4) ∧ Real2 (mat x5) ∧ Real1 (vec x6)
      ∧ Real2 (mat x7) ∧ Real2 (mat x8) ∧ Real1 (vec x9) ∧ Real2 (mat x10) ∧ Real2 (mat x11) ∧ Real1 (vec x12) := by
  -- the claim at the one index of the rank-0 result, with the printed chain of operations in view
  have h0 := congrFun h ValueIdx.ix0
  dsimp only [Cert.Pre_finite_inputs.fn, Cert.Pre_finite_inputs.fn_part1, Cert.Pre_finite_inputs.fn_part2,
    Cert.Pre_finite_inputs.fn_part3] at h0
  -- a conjunction of thirteen bits is 1 exactly when each bit is 1 (the chain nests to the left)
  simp only [Idealize.ShloMosaic.andi, IntOp.andi_eq_one] at h0
  obtain ⟨⟨⟨⟨⟨⟨⟨⟨⟨⟨⟨⟨e0, e1⟩, e2⟩, e3⟩, e4⟩, e5⟩, e6⟩, e7⟩, e8⟩, e9⟩, e10⟩, e11⟩, e12⟩ := h0
  -- each bit is the fold over all axes of |x| < +∞ for one input: every entry of that input is real, in
  -- particular the entries the specification's reading of the array (rows, matrix, vector) picks
  exact ⟨fun _ _ => entry_real x0 _ _ _ e0 _, fun _ _ => entry_real x1 _ _ _ e1 _, fun _ _ => entry_real x2 _ _ _ e2 _,
    fun _ => entry_real x3 _ _ _ e3 _, fun _ _ => entry_real x4 _ _ _ e4 _, fun _ _ => entry_real x5 _ _ _ e5 _,
    fun _ => entry_real x6 _ _ _ e6 _, fun _ _ => entry_real x7 _ _ _ e7 _, fun _ _ => entry_real x8 _ _ _ e8 _,
    fun _ => entry_real x9 _ _ _ e9 _, fun _ _ => entry_real x10 _ _ _ e10 _, fun _ _ => entry_real x11 _ _ _ e11 _,
    fun _ => entry_real x12 _ _ _ e12 _⟩

end Cert.Proof.Finite

end
-- ==== Proof.lean ====
/-
  The certificate's five conjuncts for the fused projection / attention / output-projection kernel against its
  plain reference.

  Frames. Each of the kernel program's two readings (word level and idealized) runs to the end with its thirteen
  argument arrays unchanged: @main is four stretches of host operations around three kernel regions, and the run of
  the regions (Proof/Segments.lean and its word-level copy) ends with every unscoped buffer at a known valuation
  that no stretch and no region changes at an argument. The reference has no kernel: its frame is its run with the
  result dropped.

  Preservation. The one idealization is the name of the constant 13/100 subtracted inside the exponential.

  Equivalence over the extended reals. The kernel's result is the specification's function outK of the thirteen
  inputs (Proof/KernelValue.lean: the three regions' values chained through the host reshapes and the transposed
  rank-4 weights); the reference's is outR of the same inputs at its own per-row shift (Proof/RefValue.lean). Under
  the precondition every input entry is a real number (Proof/FiniteInputs.lean), and on real entries the two
  spellings of softmax attention agree (Proof/Softmax.lean): the 1/8 moves out of the inner product, a softmax
  does not change when one number is subtracted from a whole row, and dividing the weighted sum by the sum of the
  weights is the same as summing normalised weights.
-/
import proofs.«423754_j5703716569513_3_alg».proof.Defs
import proofs.«423754_j5703716569513_3_alg».proof.Proof.Gen.Kernel
import proofs.«423754_j5703716569513_3_alg».proof.Proof.Gen.KernelIdeal
import proofs.«423754_j5703716569513_3_alg».proof.Proof.Gen.ReferenceIdeal
import proofs.«423754_j5703716569513_3_alg».proof.Proof.Gen.Pre_finite_inputs
import proofs.«423754_j5703716569513_3_alg».proof.Proof.Bits.Segments
import proofs.«423754_j5703716569513_3_alg».proof.Proof.KernelValue
import proofs.«423754_j5703716569513_3_alg».proof.Proof.RefValue
import proofs.«423754_j5703716569513_3_alg».proof.Proof.Softmax
import proofs.«423754_j5703716569513_3_alg».proof.Proof.FiniteInputs
import Idealize.ShloMosaic.Adequacy
import Idealize.ShloMosaic.Init

noncomputable section

namespace Cert.Proof

open Idealize.ShloMosaic Idealize.SL.Sem Cert.Spec

/-- The word-level kernel program runs and leaves its arguments unchanged. -/
theorem frame_kernel : Cert.frame_Kernel := fun m ρ _ => Cert.Kernel.Hand.frame (F := Bits) m ρ

/-- So does the idealized kernel program. -/
theorem frame_kernelIdeal : Cert.frame_KernelIdeal := fun m ρ _ => Cert.KernelIdeal.Hand.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one ledger entry: the table gives the name "c_13_100" the rational 13/100. -/
theorem preserves : Cert.preserves_Kernel_KernelIdeal :=
  IdealRules.named_const.statement Cert.KernelIdeal.κ "c_13_100" .f32 0x3E051EB8#32 ((13 / 100 : ℝ) : EReal) rfl

/-- Both idealized programs end with the same result array: outK of the inputs is outR of the inputs at the
    reference's row shifts, because every input entry is a real number. -/
theorem algebraic : Cert.algebraic_KernelIdeal_ReferenceIdeal := by
  intro m ρ m' ρ' hpre hagree
  refine ⟨fun c => Cert.KernelIdeal.Hand.W7 (F := Ideal) m ρ c (Proc.devRef .tc Cert.KernelIdeal.main_v20),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  obtain ⟨r0, r1, r2, r3, r4, r5, r6, r7, r8, r9, r10, r11, r12⟩ := Cert.Proof.Finite.reals_of_pre _ _ _ _ _ _ _ _ _ _ _ _ _ (hpre c)
  have hmx : Real1 (Cert.ReferenceIdeal.RefValue.refMax m' c) :=
    Cert.ReferenceIdeal.RefValue.refMax_real m' c (e0 ▸ r0) (e1 ▸ r1) (e2 ▸ r2) (e3 ▸ r3) (e4 ▸ r4) (e5 ▸ r5) (e6 ▸ r6)
  have hr := Cert.ReferenceIdeal.RefValue.ref_value m' c
  rw [e0, e1, e2, e3, e4, e5, e6, e7, e8, e9, e10, e11, e12] at hr
  refine hr.trans ?_
  refine (congrArg unrows3 (outK_eq_outR _ _ _ _ _ _ _ _ _ _ _ _ _ (Cert.ReferenceIdeal.RefValue.refMax m' c)
    r0 r1 r2 r3 r4 r5 r6 r7 r8 r9 hmx).symm).trans ?_
  exact (Cert.KernelIdeal.Hand.kernel_value m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
